-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x7x360x640 : Shape := ⟨4, ![16, 7, 360, 640]⟩
abbrev S16x360x640 : Shape := ⟨3, ![16, 360, 640]⟩
abbrev S_ : Shape := ⟨0, ![]⟩

class Facts : Prop where
  bcast_S_S16x7x360x640 : S_.BroadcastsInDim S16x7x360x640 (![] : Fin 0 → Fin S16x7x360x640.rank)
  reducesTo_S16x7x360x640_S_d0_1_2_3 : S16x7x360x640.ReducesTo [0, 1, 2, 3] S_
  h_S_ : 0 < S_.numel
  bcast_S_S16x360x640 : S_.BroadcastsInDim S16x360x640 (![] : Fin 0 → Fin S16x360x640.rank)
  reducesTo_S16x360x640_S_d0_1_2 : S16x360x640.ReducesTo [0, 1, 2] S_

variable [Facts]

def fn {F : FTy → Type} [FloatOps F] (main_arg0 : FVec F S16x7x360x640 .f32) (main_arg1 : IVec S16x360x640 32) : IVec S_ 1 :=
  let main_v0 : FVec F S16x7x360x640 .f32 := Host.absf main_arg0
  let main_cst : FVec F S_ .f32 := constant S_ .f32 0x7F800000#32
  let main_v1 : FVec F S16x7x360x640 .f32 := broadcastInDim S16x7x360x640 ![] bcast_S_S16x7x360x640 main_cst
  let main_v2 : IVec S16x7x360x640 1 := cmpf .olt main_v0 main_v1
  let main_c : IVec S_ 1 := constantI S_ 1 1#1
  let main_v3 : IVec S_ 1 := (fun x v => Host.reduce IntOp.andi x v reducesTo_S16x7x360x640_S_d0_1_2_3 h_S_) main_v2 main_c
  let main_c_0 : IVec S_ 32 := constantI S_ 32 0#32
  let main_v4 : IVec S16x360x640 32 := broadcastInDim S16x360x640 ![] bcast_S_S16x360x640 main_c_0
  let main_v5 : IVec S16x360x640 1 := cmpi .sge main_arg1 main_v4
  let main_c_1 : IVec S_ 1 := constantI S_ 1 1#1
  let main_v6 : IVec S_ 1 := (fun x v => Host.reduce IntOp.andi x v reducesTo_S16x360x640_S_d0_1_2 h_S_) main_v5 main_c_1
  let main_v7 : IVec S_ 1 := andi main_v3 main_v6
  let main_c_2 : IVec S_ 32 := constantI S_ 32 7#32
  let main_v8 : IVec S16x360x640 32 := broadcastInDim S16x360x640 ![] bcast_S_S16x360x640 main_c_2
  let main_v9 : IVec S16x360x640 1 := cmpi .slt main_arg1 main_v8
  let main_c_3 : IVec S_ 1 := constantI S_ 1 1#1
  let main_v10 : IVec S_ 1 := (fun x v => Host.reduce IntOp.andi x v reducesTo_S16x360x640_S_d0_1_2 h_S_) main_v9 main_c_3
  let main_v11 : IVec S_ 1 := andi main_v7 main_v10
  main_v11
-- ==== Kernel.lean ====
abbrev S16x7x360x640 : Shape := ⟨4, ![16, 7, 360, 640]⟩
abbrev S16x360x640 : Shape := ⟨3, ![16, 360, 640]⟩
abbrev S16x1x1 : Shape := ⟨3, ![16, 1, 1]⟩
abbrev S1x7x360x640 : Shape := ⟨4, ![1, 7, 360, 640]⟩
abbrev S1x360x640 : Shape := ⟨3, ![1, 360, 640]⟩
abbrev S1x1x1 : Shape := ⟨3, ![1, 1, 1]⟩
abbrev S360x640 : Shape := ⟨2, ![360, 640]⟩
abbrev S2x640 : Shape := ⟨2, ![2, 640]⟩
abbrev S362x640 : Shape := ⟨2, ![362, 640]⟩
abbrev S364x640 : Shape := ⟨2, ![364, 640]⟩
abbrev S364x2 : Shape := ⟨2, ![364, 2]⟩
abbrev S364x642 : Shape := ⟨2, ![364, 642]⟩
abbrev S364x644 : Shape := ⟨2, ![364, 644]⟩
abbrev S1x1x360x640 : Shape := ⟨4, ![1, 1, 360, 640]⟩
abbrev S1 : Shape := ⟨1, ![1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16x7x360x640, .f32⟩
  | .hbm, ⟨1, _⟩ => ⟨S16x360x640, .i32⟩
  | .hbm, ⟨2, _⟩ => ⟨S16x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x7x360x640, .f32⟩
  | .local _ .vmem, ⟨1, _⟩ => ⟨S1x7x360x640, .f32⟩
  | .local _ .vmem, ⟨2, _⟩ => ⟨S1x360x640, .i32⟩
  | .local _ .vmem, ⟨3, _⟩ => ⟨S1x360x640, .i32⟩
  | .local _ .vmem, ⟨4, _⟩ => ⟨S1x1x1, .f32⟩
  | .local _ .vmem, ⟨5, _⟩ => ⟨S1x1x1, .f32⟩
  | _, _ => ⟨S16x7x360x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x7x360x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x360x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x360x640_S1x360x640_0_0_0 : ∀ a, (![0, 0, 0] : Fin 3 → Nat) a + S1x360x640.size a ≤ S1x360x640.size a
  h_S1x360x640 : 0 < S1x360x640.numel
  shapeCasts_S1x360x640_S360x640 : S1x360x640.ShapeCasts S360x640
  concatenates_S2x640_S360x640_S362x640_d0 : Shape.Concatenates [S2x640, S360x640] S362x640 0
  concatenates_S362x640_S2x640_S364x640_d0 : Shape.Concatenates [S362x640, S2x640] S364x640 0
  concatenates_S364x2_S364x640_S364x642_d1 : Shape.Concatenates [S364x2, S364x640] S364x642 1
  concatenates_S364x642_S364x2_S364x644_d1 : Shape.Concatenates [S364x642, S364x2] S364x644 1
  slices_S364x644_o0_0_S364x640 : S364x644.Slices ![0, 0] S364x640
  slices_S364x644_o0_1_S364x640 : S364x644.Slices ![0, 1] S364x640
  slices_S364x644_o0_2_S364x640 : S364x644.Slices ![0, 2] S364x640
  slices_S364x644_o0_3_S364x640 : S364x644.Slices ![0, 3] S364x640
  slices_S364x644_o0_4_S364x640 : S364x644.Slices ![0, 4] S364x640
  slices_S364x640_o1_0_S360x640 : S364x640.Slices ![1, 0] S360x640
  slices_S364x640_o2_0_S360x640 : S364x640.Slices ![2, 0] S360x640
  slices_S364x640_o3_0_S360x640 : S364x640.Slices ![3, 0] S360x640
  slices_S364x644_o0_2_S360x640 : S364x644.Slices ![0, 2] S360x640
  slices_S364x644_o4_2_S360x640 : S364x644.Slices ![4, 2] S360x640
  inb_S1x7x360x640_S1x1x360x640_0_0_0_0 : ∀ a, (![0, 0, 0, 0] : Fin 4 → Nat) a + S1x1x360x640.size a ≤ S1x7x360x640.size a
  h_S1x1x360x640 : 0 < S1x1x360x640.numel
  shapeCasts_S1x1x360x640_S360x640 : S1x1x360x640.ShapeCasts S360x640
  inb_S1x7x360x640_S1x1x360x640_0_1_0_0 : ∀ a, (![0, 1, 0, 0] : Fin 4 → Nat) a + S1x1x360x640.size a ≤ S1x7x360x640.size a
  inb_S1x7x360x640_S1x1x360x640_0_2_0_0 : ∀ a, (![0, 2, 0, 0] : Fin 4 → Nat) a + S1x1x360x640.size a ≤ S1x7x360x640.size a
  inb_S1x7x360x640_S1x1x360x640_0_3_0_0 : ∀ a, (![0, 3, 0, 0] : Fin 4 → Nat) a + S1x1x360x640.size a ≤ S1x7x360x640.size a
  inb_S1x7x360x640_S1x1x360x640_0_4_0_0 : ∀ a, (![0, 4, 0, 0] : Fin 4 → Nat) a + S1x1x360x640.size a ≤ S1x7x360x640.size a
  inb_S1x7x360x640_S1x1x360x640_0_5_0_0 : ∀ a, (![0, 5, 0, 0] : Fin 4 → Nat) a + S1x1x360x640.size a ≤ S1x7x360x640.size a
  inb_S1x7x360x640_S1x1x360x640_0_6_0_0 : ∀ a, (![0, 6, 0, 0] : Fin 4 → Nat) a + S1x1x360x640.size a ≤ S1x7x360x640.size a
  shapeCasts_S360x640_S1x360x640 : S360x640.ShapeCasts S1x360x640
  reduces_S1x360x640_S1 : S1x360x640.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x7x360x640.size a ≤ S16x7x360x640.size a
  hwx0_0 : ∀ i : grid0.Coords, EltTy.bits .f32 = 32 ∨ (Rect.block (s := S16x7x360x640) S1x7x360x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x360x640.size a ≤ S16x360x640.size a
  hwx0_1 : ∀ i : grid0.Coords, EltTy.bits .i32 = 32 ∨ (Rect.block (s := S16x360x640) S1x360x640.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)

variable [Facts₀]

abbrev win0_0 : Pipeline.Window sig grid0 :=
  Pipeline.Window.ofSpec (Memref.whole main_arg0) S1x7x360x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x360x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x7x360x640 : Shape := ⟨4, ![16, 7, 360, 640]⟩
abbrev S16x360x640 : Shape := ⟨3, ![16, 360, 640]⟩
abbrev S_ : Shape := ⟨0, ![]⟩
abbrev S16x364x644 : Shape := ⟨3, ![16, 364, 644]⟩
abbrev S16x1x360x640 : Shape := ⟨4, ![16, 1, 360, 640]⟩
abbrev S16x1x360x640x1 : Shape := ⟨5, ![16, 1, 360, 640, 1]⟩
abbrev S1 : Shape := ⟨1, ![1]⟩
abbrev S1x1x1x1x1 : Shape := ⟨5, ![1, 1, 1, 1, 1]⟩

abbrev nBuf : Space → Nat
  | .hbm => 130
  | .vmem => 0
  | .smem => 0
  | _ => 0

abbrev hbmTy0_0 (i : Nat) : BufTy := match i % 128 with
  | 0 => ⟨S16x7x360x640, .f32⟩
  | 1 => ⟨S16x360x640, .i32⟩
  | 2 => ⟨S16x360x640, .f32⟩
  | 3 => ⟨S_, .f32⟩
  | 4 => ⟨S_, .f32⟩
  | 5 => ⟨S16x364x644, .f32⟩
  | 6 => ⟨S16x360x640, .f32⟩
  | 7 => ⟨S16x360x640, .f32⟩
  | 8 => ⟨S16x360x640, .f32⟩
  | 9 => ⟨S16x360x640, .f32⟩
  | 10 => ⟨S16x360x640, .f32⟩
  | 11 => ⟨S16x360x640, .f32⟩
  | 12 => ⟨S16x360x640, .f32⟩
  | 13 => ⟨S16x360x640, .f32⟩
  | 14 => ⟨S16x360x640, .f32⟩
  | 15 => ⟨S16x360x640, .f32⟩
  | 16 => ⟨S16x360x640, .f32⟩
  | 17 => ⟨S16x360x640, .f32⟩
  | 18 => ⟨S16x360x640, .f32⟩
  | 19 => ⟨S16x360x640, .f32⟩
  | 20 => ⟨S16x360x640, .f32⟩
  | 21 => ⟨S16x360x640, .f32⟩
  | 22 => ⟨S16x360x640, .f32⟩
  | 23 => ⟨S16x360x640, .f32⟩
  | 24 => ⟨S16x360x640, .f32⟩
  | 25 => ⟨S16x360x640, .f32⟩
  | 26 => ⟨S16x360x640, .f32⟩
  | 27 => ⟨S16x360x640, .f32⟩
  | 28 => ⟨S16x360x640, .f32⟩
  | 29 => ⟨S16x360x640, .f32⟩
  | 30 => ⟨S16x360x640, .f32⟩
  | 31 => ⟨S16x360x640, .f32⟩
  | 32 => ⟨S16x360x640, .f32⟩
  | 33 => ⟨S16x360x640, .f32⟩
  | 34 => ⟨S16x360x640, .f32⟩
  | 35 => ⟨S16x360x640, .f32⟩
  | 36 => ⟨S16x360x640, .f32⟩
  | 37 => ⟨S16x360x640, .f32⟩
  | 38 => ⟨S16x360x640, .f32⟩
  | 39 => ⟨S_, .f32⟩
  | 40 => ⟨S_, .f32⟩
  | 41 => ⟨S16x364x644, .f32⟩
  | 42 => ⟨S16x360x640, .f32⟩
  | 43 => ⟨S16x360x640, .f32⟩
  | 44 => ⟨S16x360x640, .f32⟩
  | 45 => ⟨S16x360x640, .f32⟩
  | 46 => ⟨S16x360x640, .f32⟩
  | 47 => ⟨S16x360x640, .f32⟩
  | 48 => ⟨S16x360x640, .f32⟩
  | 49 => ⟨S16x360x640, .f32⟩
  | 50 => ⟨S16x360x640, .f32⟩
  | 51 => ⟨S16x360x640, .f32⟩
  | 52 => ⟨S16x360x640, .f32⟩
  | 53 => ⟨S16x360x640, .f32⟩
  | 54 => ⟨S16x360x640, .f32⟩
  | 55 => ⟨S16x360x640, .f32⟩
  | 56 => ⟨S16x360x640, .f32⟩
  | 57 => ⟨S16x360x640, .f32⟩
  | 58 => ⟨S16x360x640, .f32⟩
  | 59 => ⟨S16x360x640, .f32⟩
  | 60 => ⟨S16x360x640, .f32⟩
  | 61 => ⟨S16x360x640, .f32⟩
  | 62 => ⟨S16x360x640, .f32⟩
  | 63 => ⟨S16x360x640, .f32⟩
  | 64 => ⟨S16x360x640, .f32⟩
  | 65 => ⟨S16x360x640, .f32⟩
  | 66 => ⟨S16x360x640, .f32⟩
  | 67 => ⟨S16x360x640, .f32⟩
  | 68 => ⟨S16x360x640, .f32⟩
  | 69 => ⟨S16x360x640, .f32⟩
  | 70 => ⟨S16x360x640, .f32⟩
  | 71 => ⟨S16x360x640, .f32⟩
  | 72 => ⟨S16x360x640, .f32⟩
  | 73 => ⟨S16x360x640, .f32⟩
  | 74 => ⟨S16x360x640, .f32⟩
  | 75 => ⟨S16x360x640, .f32⟩
  | 76 => ⟨S_, .f32⟩
  | 77 => ⟨S16x360x640, .f32⟩
  | 78 => ⟨S16x360x640, .i1⟩
  | 79 => ⟨S_, .f32⟩
  | 80 => ⟨S_, .f32⟩
  | 81 => ⟨S16x360x640, .f32⟩
  | 82 => ⟨S16x360x640, .f32⟩
  | 83 => ⟨S16x360x640, .f32⟩
  | 84 => ⟨S_, .f32⟩
  | 85 => ⟨S16x360x640, .f32⟩
  | 86 => ⟨S_, .f32⟩
  | 87 => ⟨S16x360x640, .f32⟩
  | 88 => ⟨S16x360x640, .f32⟩
  | 89 => ⟨S16x1x360x640, .f32⟩
  | 90 => ⟨S16x7x360x640, .f32⟩
  | 91 => ⟨S16x7x360x640, .f32⟩
  | 92 => ⟨S16x7x360x640, .f32⟩
  | 93 => ⟨S_, .f32⟩
  | 94 => ⟨S16x360x640, .f32⟩
  | 95 => ⟨S16x1x360x640, .f32⟩
  | 96 => ⟨S16x1x360x640, .f32⟩
  | 97 => ⟨S16x7x360x640, .f32⟩
  | 98 => ⟨S16x7x360x640, .f32⟩
  | 99 => ⟨S16x1x360x640, .i32⟩
  | 100 => ⟨S_, .i32⟩
  | 101 => ⟨S16x1x360x640, .i32⟩
  | 102 => ⟨S16x1x360x640, .i1⟩
  | 103 => ⟨S_, .i32⟩
  | 104 => ⟨S16x1x360x640, .i32⟩
  | 105 => ⟨S16x1x360x640, .i32⟩
  | 106 => ⟨S16x1x360x640, .i32⟩
  | 107 => ⟨S16x1x360x640x1, .i32⟩
  | 108 => ⟨S1, .i32⟩
  | 109 => ⟨S_, .i32⟩
  | 110 => ⟨S16x1x360x640x1, .i32⟩
  | 111 => ⟨S16x1x360x640x1, .i1⟩
  | 112 => ⟨S1x1x1x1x1, .i32⟩
  | 113 => ⟨S16x1x360x640x1, .i32⟩
  | 114 => ⟨S16x1x360x640x1, .i1⟩
  | 115 => ⟨S16x1x360x640x1, .i1⟩
  | 116 => ⟨S_, .i1⟩
  | 117 => ⟨S16x1x360x640, .i1⟩
  | 118 => ⟨S16x1x360x640, .f32⟩
  | 119 => ⟨S_, .f32⟩
  | 120 => ⟨S16x1x360x640, .f32⟩
  | 121 => ⟨S16x1x360x640, .f32⟩
  | 122 => ⟨S16x360x640, .f32⟩
  | 123 => ⟨S16x360x640, .f32⟩
  | 124 => ⟨S16x360x640, .f32⟩
  | 125 => ⟨S16x360x640, .f32⟩
  | 126 => ⟨S_, .f32⟩
  | 127 => ⟨S_, .f32⟩
  | _ => ⟨S16x7x360x640, .f32⟩

abbrev hbmTy0_1 (i : Nat) : BufTy := match i % 128 with
  | 0 => ⟨S_, .f32⟩
  | 1 => ⟨S_, .f32⟩
  | _ => ⟨S16x7x360x640, .f32⟩

abbrev hbmTy (i : Nat) : BufTy := match i / 128 with
  | 0 => hbmTy0_0 i
  | 1 => hbmTy0_1 i
  | _ => ⟨S16x7x360x640, .f32⟩

abbrev bufTy : (tb : Table) → Fin (tcTables nBuf tb) → BufTy
  | .hbm, ⟨i, _⟩ => hbmTy i
  | _, _ => ⟨S16x7x360x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_0 : Ref sig .tc := ⟨.hbm, 39, rfl⟩
abbrev main_call1_v0 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_1 : Ref sig .tc := ⟨.hbm, 76, rfl⟩
abbrev main_v70 : Ref sig .tc := ⟨.hbm, 77, rfl⟩
abbrev main_v71 : Ref sig .tc := ⟨.hbm, 78, rfl⟩
abbrev main_cst_2 : Ref sig .tc := ⟨.hbm, 79, rfl⟩
abbrev main_cst_3 : Ref sig .tc := ⟨.hbm, 80, rfl⟩
abbrev main_call2_v0 : Ref sig .tc := ⟨.hbm, 81, rfl⟩
abbrev main_call2_v1 : Ref sig .tc := ⟨.hbm, 82, rfl⟩
abbrev main_v72 : Ref sig .tc := ⟨.hbm, 83, rfl⟩
abbrev main_call3_cst : Ref sig .tc := ⟨.hbm, 84, rfl⟩
abbrev main_call3_v0 : Ref sig .tc := ⟨.hbm, 85, rfl⟩
abbrev main_call3_cst_0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_v6 : Ref sig .tc := ⟨.hbm, 92, rfl⟩
abbrev main_call3_cst_1 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_v73 : Ref sig .tc := ⟨.hbm, 98, rfl⟩
abbrev main_v74 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_cst : Ref sig .tc := ⟨.hbm, 119, rfl⟩
abbrev main_call4_v14 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_4 : Ref sig .tc := ⟨.hbm, 126, rfl⟩
abbrev main_v80 : Ref sig .tc := ⟨.hbm, 127, rfl⟩
abbrev main_cst_5 : Ref sig .tc := ⟨.hbm, 128, rfl⟩
abbrev main_v81 : Ref sig .tc := ⟨.hbm, 129, rfl⟩

abbrev nD : Nat := 1
abbrev τ : Topo := Topo.v7x

variable {F : FTy → Type} [FloatOps F]

class Facts₀ : Prop where
  pads_S16x360x640_S16x364x644_000_220_220 : S16x360x640.Pads (![0, 2, 2] : Fin 3 → Nat) ![0, 2, 2] ![0, 0, 0] S16x364x644
  h_S_ : 0 < S_.numel
  slices_S16x364x644_S16x360x640_0_0_2 : S16x364x644.Slices ![0, 0, 2] S16x360x640
  slices_S16x364x644_S16x360x640_0_1_0 : S16x364x644.Slices ![0, 1, 0] S16x360x640
  slices_S16x364x644_S16x360x640_0_1_1 : S16x364x644.Slices ![0, 1, 1] S16x360x640
  slices_S16x364x644_S16x360x640_0_1_2 : S16x364x644.Slices ![0, 1, 2] S16x360x640
  slices_S16x364x644_S16x360x640_0_1_3 : S16x364x644.Slices ![0, 1, 3] S16x360x640
  slices_S16x364x644_S16x360x640_0_1_4 : S16x364x644.Slices ![0, 1, 4] S16x360x640
  slices_S16x364x644_S16x360x640_0_2_0 : S16x364x644.Slices ![0, 2, 0] S16x360x640
  slices_S16x364x644_S16x360x640_0_2_1 : S16x364x644.Slices ![0, 2, 1] S16x360x640
  slices_S16x364x644_S16x360x640_0_2_2 : S16x364x644.Slices ![0, 2, 2] S16x360x640
  slices_S16x364x644_S16x360x640_0_2_3 : S16x364x644.Slices ![0, 2, 3] S16x360x640
  slices_S16x364x644_S16x360x640_0_2_4 : S16x364x644.Slices ![0, 2, 4] S16x360x640
  slices_S16x364x644_S16x360x640_0_3_0 : S16x364x644.Slices ![0, 3, 0] S16x360x640
  slices_S16x364x644_S16x360x640_0_3_1 : S16x364x644.Slices ![0, 3, 1] S16x360x640
  slices_S16x364x644_S16x360x640_0_3_2 : S16x364x644.Slices ![0, 3, 2] S16x360x640
  slices_S16x364x644_S16x360x640_0_3_3 : S16x364x644.Slices ![0, 3, 3] S16x360x640
  slices_S16x364x644_S16x360x640_0_3_4 : S16x364x644.Slices ![0, 3, 4] S16x360x640
  slices_S16x364x644_S16x360x640_0_4_2 : S16x364x644.Slices ![0, 4, 2] S16x360x640
  bcast_S_S16x360x640 : S_.BroadcastsInDim S16x360x640 (![] : Fin 0 → Fin S16x360x640.rank)
  reducesTo_S16x7x360x640_S16x360x640_d1 : S16x7x360x640.ReducesTo [1] S16x360x640
  bcast_S16x360x640_S16x1x360x640_0_2_3 : S16x360x640.BroadcastsInDim S16x1x360x640 (![0, 2, 3] : Fin 3 → Fin S16x1x360x640.rank)
  bcast_S16x1x360x640_S16x7x360x640_0_1_2_3 : S16x1x360x640.BroadcastsInDim S16x7x360x640 (![0, 1, 2, 3] : Fin 4 → Fin S16x7x360x640.rank)
  bcast_S_S16x1x360x640 : S_.BroadcastsInDim S16x1x360x640 (![] : Fin 0 → Fin S16x1x360x640.rank)
  shapeCasts_S16x1x360x640_S16x1x360x640x1 : S16x1x360x640.ShapeCasts S16x1x360x640x1
  bcast_S_S16x1x360x640x1 : S_.BroadcastsInDim S16x1x360x640x1 (![] : Fin 0 → Fin S16x1x360x640x1.rank)
  bcast_S1_S1x1x1x1x1_4 : S1.BroadcastsInDim S1x1x1x1x1 (![4] : Fin 1 → Fin S1x1x1x1x1.rank)
  bcast_S1x1x1x1x1_S16x1x360x640x1_0_1_2_3_4 : S1x1x1x1x1.BroadcastsInDim S16x1x360x640x1 (![0, 1, 2, 3, 4] : Fin 5 → Fin S16x1x360x640x1.rank)
  reducesTo_S16x1x360x640x1_S16x1x360x640_d4 : S16x1x360x640x1.ReducesTo [4] S16x1x360x640
  shapeCasts_S16x1x360x640_S16x360x640 : S16x1x360x640.ShapeCasts S16x360x640
  reducesTo_S16x360x640_S_d0_1_2 : S16x360x640.ReducesTo [0, 1, 2] S_
  gather_S16x7x360x640_S16x1x360x640x1_S16x1x360x640_n_1_023_023_1_4_1111_wf : GatherDims.WF S16x7x360x640 S16x1x360x640x1 S16x1x360x640 [] [1] [0, 2, 3] [1] [0, 2, 3] 4 ![1, 1, 1, 1]

variable [Facts₀]

def gather_S16x7x360x640_S16x1x360x640x1_S16x1x360x640_n_1_023_023_1_4_1111 : GatherDims S16x7x360x640 S16x1x360x640x1 S16x1x360x640 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x7x360x640_S16x1x360x640x1_S16x1x360x640_n_1_023_023_1_4_1111_wf

class Facts : Prop extends Facts₀ where

variable [Facts]
-- ==== Proof.Spec.lean ====
/-
  The mathematics both programs compute, per pixel, on extended reals.

  A label image `L` (360 × 640 integers) is read as reals and padded by two rows and two columns on every side
  with a constant `v`. The dilation of the padded image at pixel (y, x) is the maximum over the 17 positions of
  the 5 × 5 ellipse (rows of widths 1, 5, 5, 5, 1), the erosion the minimum; a pixel lies on a boundary when
  dilation − erosion > 0 and then weighs 10, otherwise 1. The cross-entropy of a pixel with class scores
  `p : Fin 7 → EReal` and label `k` is `log (Σ exp (p c − m)) + m − p k` with `m = max p`.
  The two programs write that number differently; both spellings are defined here, over scalars only.
-/
import Idealize.ShloMosaic.PureOps.Ideal
import Idealize.ShloMosaic.Lib.ValueIdx

noncomputable section

namespace Cert.BoundaryCE

open Idealize.ShloMosaic

/-- The single-precision words both programs carry, read as extended reals: ∓10⁹ (the padding of the label image),
    −∞ (where the running maximum starts), 0, 10, 1 and the pixel count 16 · 360 · 640. -/
abbrev negBig : EReal := Ideal.ofBits .f32 0xCE6E6B28#32
abbrev posBig : EReal := Ideal.ofBits .f32 0x4E6E6B28#32
abbrev negInf : EReal := Ideal.ofBits .f32 0xFF800000#32
abbrev zeroF : EReal := Ideal.ofBits .f32 0x00000000#32
abbrev tenF : EReal := Ideal.ofBits .f32 0x41200000#32
abbrev oneF : EReal := Ideal.ofBits .f32 0x3F800000#32
abbrev countF : EReal := Ideal.ofBits .f32 0x4A610000#32

/-- One batch element's label image as extended reals, a total function of two naturals (0 outside the image). -/
def lab (L : Fin 360 → Fin 640 → BitVec 32) (y x : ℕ) : EReal :=
  if h : y < 360 ∧ x < 640 then (((L ⟨y, h.1⟩ ⟨x, h.2⟩).toInt : ℝ) : EReal) else 0

/-- The image `T` padded by two rows and two columns of `v` on every side, read at padded coordinates (i, j). -/
def padAt (v : EReal) (T : ℕ → ℕ → EReal) (i j : ℕ) : EReal :=
  if 2 ≤ i ∧ i < 362 ∧ 2 ≤ j ∧ j < 642 then T (i - 2) (j - 2) else v

/-- The maximum of the padded image `P` over the 17 positions of the 5 × 5 ellipse around pixel (y, x); a position is
    written by its padded coordinates (row offset + y, column offset + x), rows from the top. -/
def dil (P : ℕ → ℕ → EReal) (y x : ℕ) : EReal :=
  max (max (max (max (max (max (max (max (max (max (max (max (max (max (max (max (P (y) (2 + x)) (P (1 + y) (x))) (P (1 + y) (1 + x))) (P (1 + y) (2 + x))) (P (1 + y) (3 + x))) (P (1 + y) (4 + x))) (P (2 + y) (x))) (P (2 + y) (1 + x))) (P (2 + y) (2 + x))) (P (2 + y) (3 + x))) (P (2 + y) (4 + x))) (P (3 + y) (x))) (P (3 + y) (1 + x))) (P (3 + y) (2 + x))) (P (3 + y) (3 + x))) (P (3 + y) (4 + x))) (P (4 + y) (2 + x))

/-- The minimum over the same 17 positions. -/
def ero (P : ℕ → ℕ → EReal) (y x : ℕ) : EReal :=
  min (min (min (min (min (min (min (min (min (min (min (min (min (min (min (min (P (y) (2 + x)) (P (1 + y) (x))) (P (1 + y) (1 + x))) (P (1 + y) (2 + x))) (P (1 + y) (3 + x))) (P (1 + y) (4 + x))) (P (2 + y) (x))) (P (2 + y) (1 + x))) (P (2 + y) (2 + x))) (P (2 + y) (3 + x))) (P (2 + y) (4 + x))) (P (3 + y) (x))) (P (3 + y) (1 + x))) (P (3 + y) (2 + x))) (P (3 + y) (3 + x))) (P (3 + y) (4 + x))) (P (4 + y) (2 + x))

/-- A pixel's weight: 10 where the morphological gradient (dilation − erosion) of the label image is positive, else 1. -/
def weight (T : ℕ → ℕ → EReal) (y x : ℕ) : EReal :=
  Scalar.select (Ideal.cmp .ogt (dil (padAt negBig T) y x - ero (padAt posBig T) y x) zeroF) tenF oneF

/-! ## The cross-entropy as the kernel writes it -/

/-- The running maximum of the seven scores from −∞. -/
def mxK (p : Fin 7 → EReal) : EReal :=
  max (max (max (max (max (max (max negInf (p 0)) (p 1)) (p 2)) (p 3)) (p 4)) (p 5)) (p 6)

/-- The running sum of `exp (p c − m)` from 0. -/
def sumexpK (p : Fin 7 → EReal) : EReal :=
  zeroF + Ideal.exp (p 0 - mxK p) + Ideal.exp (p 1 - mxK p) + Ideal.exp (p 2 - mxK p) + Ideal.exp (p 3 - mxK p)
    + Ideal.exp (p 4 - mxK p) + Ideal.exp (p 5 - mxK p) + Ideal.exp (p 6 - mxK p)

/-- The score kept when the label word `t` is the class `c`, else 0. -/
def selK (t c : BitVec 32) (v : EReal) : EReal := Scalar.select (IntOp.cmpi .eq t c) v zeroF

/-- The label's score picked out by seven compares: the running sum of `selK` from 0. -/
def gatheredK (p : Fin 7 → EReal) (t : BitVec 32) : EReal :=
  zeroF + selK t 0#32 (p 0) + selK t 1#32 (p 1) + selK t 2#32 (p 2) + selK t 3#32 (p 3) + selK t 4#32 (p 4)
    + selK t 5#32 (p 5) + selK t 6#32 (p 6)

/-- `(log Σ + m) − p_label`. -/
def ceK (p : Fin 7 → EReal) (t : BitVec 32) : EReal := (Ideal.log (sumexpK p) + mxK p) - gatheredK p t

/-! ## The cross-entropy as the reference writes it -/

/-- The maximum of the seven scores as a fold from −∞, once more capped below by −∞. -/
def mxR (p : Fin 7 → EReal) : EReal := max negInf ((Finset.univ : Finset (Fin 7)).fold max negInf p)

/-- 0 plus the sum of `exp (p c − m)` over the classes. -/
def sumexpR (p : Fin 7 → EReal) : EReal := zeroF + ∑ c : Fin 7, Ideal.exp (p c - mxR p)

/-- `−((p_label − m) − log Σ)`: minus the log-softmax at the label `k`. -/
def ceR (p : Fin 7 → EReal) (k : Fin 7) : EReal := -((p k - mxR p) - Ideal.log (sumexpR p))

/-! ## A pixel's term of the loss -/

def pixK (p : Fin 7 → EReal) (t : BitVec 32) (T : ℕ → ℕ → EReal) (y x : ℕ) : EReal := ceK p t * weight T y x
def pixR (p : Fin 7 → EReal) (k : Fin 7) (T : ℕ → ℕ → EReal) (y x : ℕ) : EReal := ceR p k * weight T y x

end Cert.BoundaryCE

end
-- ==== Proof.PreDecode.lean ====
/-
  What the precondition says, element by element: every score is a real number (its absolute value is below +∞),
  and every label word is one of 0, …, 6 (it is ≥ 0 and < 7 as a signed integer).
-/
import proofs.«401031_j42322607735076_2_alg».proof.Pre_finite_inputs
import proofs.«401031_j42322607735076_2_alg».proof.Proof.Spec
import Idealize.ShloMosaic.Lib.ReduceAll
import Idealize.ShloMosaic.Lib.StableHlo.Predicate

noncomputable section

namespace Cert.BoundaryCE

open Idealize.ShloMosaic Cert.Pre_finite_inputs

/-- A scalar (rank 0) has exactly one index: there is no axis to pick a coordinate on. -/
instance subsingleton_scalar_idx : Subsingleton S_.Idx := ⟨fun a b => funext fun d => d.elim0⟩

/-- The single-precision word 0x7F800000 denotes +∞. -/
theorem inf_word : Ideal.ofBits .f32 0x7F800000#32 = (⊤ : EReal) := by simp [Ideal.ofBits, Ideal.ieee]

/-- An extended real whose absolute value max x (−x) is strictly below +∞ is neither +∞ (then x = ⊤ is not below ⊤)
    nor −∞ (then −x = ⊤ is not below ⊤): it is a real number. -/
theorem real_of_abs_lt (x : EReal)
    (h : Ideal.cmp .olt (max x (-x)) (Ideal.ofBits .f32 0x7F800000#32) = 1#1) : ∃ r : ℝ, x = (r : EReal) := by
  rw [inf_word] at h
  unfold Ideal.cmp at h
  rw [StableHlo.Predicate.ofBool_eq_one_iff] at h
  simp only [decide_eq_true_eq] at h
  induction x using EReal.rec with
  | bot => simp at h
  | coe r => exact ⟨r, rfl⟩
  | top => simp at h

/-- A 32-bit word that is ≥ 0 and < 7 as a signed integer has unsigned value below 7 (a word with its top bit set reads
    negative, so it is excluded by the first comparison), hence it is the word of one of 0, …, 6. -/
theorem class_of_range (t : BitVec 32) (h0 : IntOp.cmpi .sge t 0#32 = 1#1) (h7 : IntOp.cmpi .slt t 7#32 = 1#1) :
    ∃ k : Fin 7, t = BitVec.ofNat 32 k.val := by
  unfold IntOp.cmpi at h0 h7
  rw [StableHlo.Predicate.ofBool_eq_one_iff] at h0 h7
  simp only [BitVec.slt, BitVec.sle, decide_eq_true_eq] at h0 h7
  have h32 := t.isLt
  have hlt : t.toNat < 7 := by
    unfold BitVec.toInt at h0 h7
    split at h7 <;> simp at h0 h7 <;> omega
  refine ⟨⟨t.toNat, hlt⟩, ?_⟩
  apply BitVec.eq_of_toNat_eq
  simp only [BitVec.toNat_ofNat]
  omega

/-- From the printed predicate being all ones: the scores are real and the labels are classes. -/
theorem of_pre [Cert.Pre_finite_inputs.Facts] (x0 : FVec Ideal S16x7x360x640 .f32) (x1 : IVec S16x360x640 32)
    (h : Cert.Pre_finite_inputs.fn (F := Ideal) x0 x1 = fun _ => 1#1) :
    (∀ i, ∃ r : ℝ, x0 i = (r : EReal)) ∧ (∀ i, ∃ k : Fin 7, x1 i = BitVec.ofNat 32 k.val) := by
  -- the predicate at its one index is (A and B) and C, each of A, B, C an "all" over every axis
  have h0 := congrFun h ValueIdx.ix0
  dsimp only [Cert.Pre_finite_inputs.fn] at h0
  obtain ⟨hAB, hC⟩ := IntOp.andi_eq_one.1 h0
  obtain ⟨hA, hB⟩ := IntOp.andi_eq_one.1 hAB
  refine ⟨fun i => ?_, fun i => ?_⟩
  · -- A at element i: |x0 i| < +∞
    have e := Host.reduce_andi_all _ _ _ _ _ hA i
    exact real_of_abs_lt (x0 i) e
  · -- B and C at element i: x1 i ≥ 0 and x1 i < 7, signed (the broadcast scalar constants read 0 and 7 everywhere)
    have e0 := Host.reduce_andi_all _ _ _ _ _ hB i
    have e7 := Host.reduce_andi_all _ _ _ _ _ hC i
    exact class_of_range (x1 i) e0 e7

end Cert.BoundaryCE

end
-- ==== Proof.KerMorph.lean ====
/-
  The kernel's weight tile, read at a pixel: the label block padded by four concatenations is the padded read
  `padAt`; the five column-shifted slices of the padded tile, the three row-shifted slices of their maximum and the
  two single positions above and below are together the 17 positions of the ellipse, and maxima (minima) may be
  taken in any order and grouping.
-/
import proofs.«401031_j42322607735076_2_alg».proof.Proof.Gen.KernelIdeal.Skeleton
import proofs.«401031_j42322607735076_2_alg».proof.Proof.Spec
import Idealize.ShloMosaic.Lib.Pipeline.Value

noncomputable section

namespace Cert.BoundaryCE.Ker

open Idealize.ShloMosaic Idealize.ShloMosaic.ValueIdx Cert.KernelIdeal Cert.KernelIdeal.Gen Cert.BoundaryCE

/-- The label block's image. -/
abbrev labOf (v0 : Vec Ideal S1x360x640 .i32) : ℕ → ℕ → EReal := lab fun y x => v0 (ix3 0 y x)

/-- The tile read as reals at pixel (y, x) is the label word there, as a real. -/
theorem pay3_apply (v0 : Vec Ideal S1x360x640 .i32) (y : Fin 360) (x : Fin 640) :
    k0_pay3 (F := Ideal) v0 (ix2 y x) = (((v0 (ix3 0 y x)).toInt : ℝ) : EReal) := by
  unfold k0_pay3 k0_pay2
  show Scalar.sitofp (F := Ideal) .f32 (shapeCast S360x640 v0 _ (ix2 y x)) = _
  rw [Ideal.scalar_sitofp_def]
  refine congrArg (fun b : BitVec 32 => ((b.toInt : ℝ) : EReal)) ?_
  refine shapeCast_apply _ _ (ix2 y x) (ix3 0 y x) ?_
  rw [Shape.rowMajor_val_three, Shape.rowMajor_val_two]
  show (0 * 360 + y.val) * 640 + x.val = y.val * 640 + x.val
  omega

/-- A 360 × 640 tile padded by two rows and two columns of the constant `c` on every side: the constant rows above,
    the constant rows below, the constant columns left, the constant columns right. -/
def padTile (c : EReal) (T : FVec Ideal S360x640 .f32) : FVec Ideal S364x644 .f32 :=
  concatenate S364x644 1 [⟨S364x642,
    concatenate S364x642 1 [⟨S364x2, broadcast S364x2 c⟩, ⟨S364x640,
      concatenate S364x640 0 [⟨S362x640,
        concatenate S362x640 0 [⟨S2x640, broadcast S2x640 c⟩, ⟨S360x640, T⟩] Facts₀.concatenates_S2x640_S360x640_S362x640_d0⟩,
        ⟨S2x640, broadcast S2x640 c⟩] Facts₀.concatenates_S362x640_S2x640_S364x640_d0⟩]
      Facts₀.concatenates_S364x2_S364x640_S364x642_d1⟩, ⟨S364x2, broadcast S364x2 c⟩]
    Facts₀.concatenates_S364x642_S364x2_S364x644_d1

theorem pay4_eq (v0 : Vec Ideal S1x360x640 .i32) : k0_pay4 (F := Ideal) v0 = padTile posBig (k0_pay3 v0) := rfl

section Pad
variable (c : EReal)

/-- Two constant rows above a 360-row tile: row i of the result is the constant for i < 2, else row i − 2 of the tile. -/
theorem catTop_apply (T : FVec Ideal S360x640 .f32) (h) (i : Fin 362) (j : Fin 640) :
    concatenate S362x640 0 [⟨S2x640, (broadcast S2x640 c : FVec Ideal S2x640 .f32)⟩, ⟨S360x640, T⟩] h (ix2 i j)
      = if h2 : 2 ≤ i.val then T (ix2 ⟨i.val - 2, by omega⟩ j) else c := by
  by_cases h2 : 2 ≤ i.val
  · rw [dif_pos h2]
    exact concatenate_pair_apply_right (t := S362x640) (s₁ := S2x640) (s₂ := S360x640) (0 : Fin 2) _ _ h _ rfl rfl
      (ix2 ⟨i.val - 2, by omega⟩ j)
      (fun b hb => by
        match b with
        | ⟨0, _⟩ => exact absurd rfl hb
        | ⟨1, _⟩ => rfl)
      (by show i.val - 2 + 2 = i.val; omega)
  · rw [dif_neg h2]
    exact (concatenate_pair_apply_left (t := S362x640) (s₁ := S2x640) (s₂ := S360x640) (0 : Fin 2) _ _ h _ rfl
      (ix2 ⟨i.val, by omega⟩ j)
      (fun b => by
        match b with
        | ⟨0, _⟩ => rfl
        | ⟨1, _⟩ => rfl)).trans rfl

/-- Two constant rows below a 362-row tile. -/
theorem catBot_apply (A : FVec Ideal S362x640 .f32) (h) (i : Fin 364) (j : Fin 640) :
    concatenate S364x640 0 [⟨S362x640, A⟩, ⟨S2x640, (broadcast S2x640 c : FVec Ideal S2x640 .f32)⟩] h (ix2 i j)
      = if h2 : i.val < 362 then A (ix2 ⟨i.val, h2⟩ j) else c := by
  by_cases h2 : i.val < 362
  · rw [dif_pos h2]
    exact concatenate_pair_apply_left (t := S364x640) (s₁ := S362x640) (s₂ := S2x640) (0 : Fin 2) _ _ h _ rfl
      (ix2 ⟨i.val, h2⟩ j)
      (fun b => by
        match b with
        | ⟨0, _⟩ => rfl
        | ⟨1, _⟩ => rfl)
  · rw [dif_neg h2]
    exact (concatenate_pair_apply_right (t := S364x640) (s₁ := S362x640) (s₂ := S2x640) (0 : Fin 2) _ _ h _ rfl rfl
      (ix2 ⟨i.val - 362, by omega⟩ j)
      (fun b hb => by
        match b with
        | ⟨0, _⟩ => exact absurd rfl hb
        | ⟨1, _⟩ => rfl)
      (by show i.val - 362 + 362 = i.val; omega)).trans rfl

/-- Two constant columns left of a 640-column tile. -/
theorem catLeft_apply (B : FVec Ideal S364x640 .f32) (h) (i : Fin 364) (j : Fin 642) :
    concatenate S364x642 1 [⟨S364x2, (broadcast S364x2 c : FVec Ideal S364x2 .f32)⟩, ⟨S364x640, B⟩] h (ix2 i j)
      = if h2 : 2 ≤ j.val then B (ix2 i ⟨j.val - 2, by omega⟩) else c := by
  by_cases h2 : 2 ≤ j.val
  · rw [dif_pos h2]
    exact concatenate_pair_apply_right (t := S364x642) (s₁ := S364x2) (s₂ := S364x640) (1 : Fin 2) _ _ h _ rfl rfl
      (ix2 i ⟨j.val - 2, by omega⟩)
      (fun b hb => by
        match b with
        | ⟨0, _⟩ => rfl
        | ⟨1, _⟩ => exact absurd rfl hb)
      (by show j.val - 2 + 2 = j.val; omega)
  · rw [dif_neg h2]
    exact (concatenate_pair_apply_left (t := S364x642) (s₁ := S364x2) (s₂ := S364x640) (1 : Fin 2) _ _ h _ rfl
      (ix2 i ⟨j.val, by omega⟩)
      (fun b => by
        match b with
        | ⟨0, _⟩ => rfl
        | ⟨1, _⟩ => rfl)).trans rfl

/-- Two constant columns right of a 642-column tile. -/
theorem catRight_apply (C : FVec Ideal S364x642 .f32) (h) (i : Fin 364) (j : Fin 644) :
    concatenate S364x644 1 [⟨S364x642, C⟩, ⟨S364x2, (broadcast S364x2 c : FVec Ideal S364x2 .f32)⟩] h (ix2 i j)
      = if h2 : j.val < 642 then C (ix2 i ⟨j.val, h2⟩) else c := by
  by_cases h2 : j.val < 642
  · rw [dif_pos h2]
    exact concatenate_pair_apply_left (t := S364x644) (s₁ := S364x642) (s₂ := S364x2) (1 : Fin 2) _ _ h _ rfl
      (ix2 i ⟨j.val, h2⟩)
      (fun b => by
        match b with
        | ⟨0, _⟩ => rfl
        | ⟨1, _⟩ => rfl)
  · rw [dif_neg h2]
    exact (concatenate_pair_apply_right (t := S364x644) (s₁ := S364x642) (s₂ := S364x2) (1 : Fin 2) _ _ h _ rfl rfl
      (ix2 i ⟨j.val - 642, by omega⟩)
      (fun b hb => by
        match b with
        | ⟨0, _⟩ => rfl
        | ⟨1, _⟩ => exact absurd rfl hb)
      (by show j.val - 642 + 642 = j.val; omega)).trans rfl

end Pad

/-- The padded tile read at padded coordinates (i, j) is the padded read of the label image. -/
theorem padTile_apply (c : EReal) (v0 : Vec Ideal S1x360x640 .i32) (i : Fin 364) (j : Fin 644) :
    padTile c (k0_pay3 v0) (ix2 i j) = padAt c (labOf v0) i.val j.val := by
  unfold padTile padAt
  refine (catRight_apply c _ _ i j).trans ?_
  by_cases hj : j.val < 642
  · rw [dif_pos hj]
    refine (catLeft_apply c _ _ i ⟨j.val, hj⟩).trans ?_
    by_cases hj2 : 2 ≤ j.val
    · rw [dif_pos hj2]
      refine (catBot_apply c _ _ i _).trans ?_
      by_cases hi : i.val < 362
      · rw [dif_pos hi]
        refine (catTop_apply c _ _ ⟨i.val, hi⟩ _).trans ?_
        by_cases hi2 : 2 ≤ i.val
        · rw [dif_pos hi2, if_pos ⟨hi2, hi, hj2, hj⟩]
          refine (pay3_apply v0 _ _).trans ?_
          show _ = lab _ _ _
          unfold lab
          rw [dif_pos ⟨by omega, by omega⟩]
        · rw [dif_neg hi2, if_neg (fun h => hi2 h.1)]
      · rw [dif_neg hi, if_neg (fun h => hi h.2.1)]
    · rw [dif_neg hj2, if_neg (fun h => hj2 h.2.2.1)]
  · rw [dif_neg hj, if_neg (fun h => hj h.2.2.2)]

/-! ## The slices read at an index -/

/-- A column-shifted slice [364, 640] of a padded tile: column x of the slice is column b + x of the tile. -/
theorem slCol (P : FVec Ideal S364x644 .f32) (b : ℕ) (hb : b ≤ 4) (h : S364x644.Slices ![0, b] S364x640)
    (i : Fin 364) (x : Fin 640) :
    extractStridedSlice S364x640 ![0, b] P h (ix2 i x) = P (ix2 i ⟨b + x.val, by omega⟩) :=
  extractStridedSlice_apply _ P h (ix2 i x) (ix2 i ⟨b + x.val, by omega⟩) (fun a => by
    match a with
    | ⟨0, _⟩ => show i.val = 0 + i.val; omega
    | ⟨1, _⟩ => rfl)

/-- A row-shifted slice [360, 640] of a [364, 640] tile: row y of the slice is row a + y of the tile. -/
theorem slRow (R : FVec Ideal S364x640 .f32) (a : ℕ) (ha : a ≤ 4) (h : S364x640.Slices ![a, 0] S360x640)
    (y : Fin 360) (x : Fin 640) :
    extractStridedSlice S360x640 ![a, 0] R h (ix2 y x) = R (ix2 ⟨a + y.val, by omega⟩ x) :=
  extractStridedSlice_apply _ R h (ix2 y x) (ix2 ⟨a + y.val, by omega⟩ x) (fun d => by
    match d with
    | ⟨0, _⟩ => rfl
    | ⟨1, _⟩ => show x.val = 0 + x.val; omega)

/-- The slice [360, 640] of a padded tile at row offset a, column offset 2: one position of the ellipse's middle column. -/
theorem slMid (P : FVec Ideal S364x644 .f32) (a : ℕ) (ha : a ≤ 4) (h : S364x644.Slices ![a, 2] S360x640)
    (y : Fin 360) (x : Fin 640) :
    extractStridedSlice S360x640 ![a, 2] P h (ix2 y x) = P (ix2 ⟨a + y.val, by omega⟩ ⟨2 + x.val, by omega⟩) :=
  extractStridedSlice_apply _ P h (ix2 y x) (ix2 ⟨a + y.val, by omega⟩ ⟨2 + x.val, by omega⟩) (fun d => by
    match d with
    | ⟨0, _⟩ => rfl
    | ⟨1, _⟩ => rfl)

/-! ## The sixteen positions both tiles share, for a binary operation `op` (max or min) -/

/-- The running `op` of the five column-shifted slices. -/
def row5 (op : EReal → EReal → EReal) (P : FVec Ideal S364x644 .f32) : FVec Ideal S364x640 .f32 := fun i =>
  op (op (op (op (extractStridedSlice S364x640 ![0, 0] P Facts₀.slices_S364x644_o0_0_S364x640 i)
    (extractStridedSlice S364x640 ![0, 1] P Facts₀.slices_S364x644_o0_1_S364x640 i))
    (extractStridedSlice S364x640 ![0, 2] P Facts₀.slices_S364x644_o0_2_S364x640 i))
    (extractStridedSlice S364x640 ![0, 3] P Facts₀.slices_S364x644_o0_3_S364x640 i))
    (extractStridedSlice S364x640 ![0, 4] P Facts₀.slices_S364x644_o0_4_S364x640 i)

/-- The running `op` of the three row-shifted slices of `row5` and of the top position. -/
def comb16 (op : EReal → EReal → EReal) (P : FVec Ideal S364x644 .f32) : FVec Ideal S360x640 .f32 := fun i =>
  op (op (op (extractStridedSlice S360x640 ![1, 0] (row5 op P) Facts₀.slices_S364x640_o1_0_S360x640 i)
    (extractStridedSlice S360x640 ![2, 0] (row5 op P) Facts₀.slices_S364x640_o2_0_S360x640 i))
    (extractStridedSlice S360x640 ![3, 0] (row5 op P) Facts₀.slices_S364x640_o3_0_S360x640 i))
    (extractStridedSlice S360x640 ![0, 2] P Facts₀.slices_S364x644_o0_2_S360x640 i)

/-- The bottom position's slice. -/
def bot1 (P : FVec Ideal S364x644 .f32) : FVec Ideal S360x640 .f32 :=
  extractStridedSlice S360x640 ![4, 2] P Facts₀.slices_S364x644_o4_2_S360x640

theorem pay5_eq (v0 : Vec Ideal S1x360x640 .i32) : k0_pay5 (F := Ideal) v0 = bot1 (padTile posBig (k0_pay3 v0)) := rfl
theorem pay7_eq (v0 : Vec Ideal S1x360x640 .i32) : k0_pay7 (F := Ideal) v0 = comb16 min (padTile posBig (k0_pay3 v0)) := rfl
theorem pay6_eq (v0 : Vec Ideal S1x360x640 .i32) :
    k0_pay6 (F := Ideal) v0 = fun i => max (comb16 max (padTile negBig (k0_pay3 v0)) i) (bot1 (padTile negBig (k0_pay3 v0)) i) := rfl

section Positions
variable (op : EReal → EReal → EReal) (P : FVec Ideal S364x644 .f32) (Q : ℕ → ℕ → EReal)
  (hPQ : ∀ (i : Fin 364) (j : Fin 644), P (ix2 i j) = Q i.val j.val)
include hPQ

/-- Row i of `row5`: the five positions (i, x) … (i, 4 + x). -/
theorem row5_apply (i : Fin 364) (x : Fin 640) :
    row5 op P (ix2 i x) = op (op (op (op (Q i.val x.val) (Q i.val (1 + x.val))) (Q i.val (2 + x.val))) (Q i.val (3 + x.val)))
      (Q i.val (4 + x.val)) := by
  refine congrArg₂ op (congrArg₂ op (congrArg₂ op (congrArg₂ op ?_ ?_) ?_) ?_) ?_
  · exact (slCol P 0 (by omega) _ i x).trans ((hPQ _ _).trans (by show Q i.val (0 + x.val) = _; rw [Nat.zero_add]))
  · exact (slCol P 1 (by omega) _ i x).trans (hPQ _ _)
  · exact (slCol P 2 (by omega) _ i x).trans (hPQ _ _)
  · exact (slCol P 3 (by omega) _ i x).trans (hPQ _ _)
  · exact (slCol P 4 (by omega) _ i x).trans (hPQ _ _)

/-- The sixteen positions at pixel (y, x): rows 1 + y, 2 + y, 3 + y of five, then the top position (y, 2 + x). -/
theorem comb16_apply (y : Fin 360) (x : Fin 640) :
    comb16 op P (ix2 y x) = op (op (op
      (op (op (op (op (Q (1 + y.val) x.val) (Q (1 + y.val) (1 + x.val))) (Q (1 + y.val) (2 + x.val))) (Q (1 + y.val) (3 + x.val))) (Q (1 + y.val) (4 + x.val)))
      (op (op (op (op (Q (2 + y.val) x.val) (Q (2 + y.val) (1 + x.val))) (Q (2 + y.val) (2 + x.val))) (Q (2 + y.val) (3 + x.val))) (Q (2 + y.val) (4 + x.val))))
      (op (op (op (op (Q (3 + y.val) x.val) (Q (3 + y.val) (1 + x.val))) (Q (3 + y.val) (2 + x.val))) (Q (3 + y.val) (3 + x.val))) (Q (3 + y.val) (4 + x.val))))
      (Q y.val (2 + x.val)) := by
  refine congrArg₂ op (congrArg₂ op (congrArg₂ op ?_ ?_) ?_) ?_
  · exact (slRow (row5 op P) 1 (by omega) _ y x).trans (row5_apply op P Q hPQ _ x)
  · exact (slRow (row5 op P) 2 (by omega) _ y x).trans (row5_apply op P Q hPQ _ x)
  · exact (slRow (row5 op P) 3 (by omega) _ y x).trans (row5_apply op P Q hPQ _ x)
  · exact (slMid P 0 (by omega) _ y x).trans ((hPQ _ _).trans (by show Q (0 + y.val) _ = _; rw [Nat.zero_add]))

/-- The bottom position (4 + y, 2 + x). -/
theorem bot1_apply (y : Fin 360) (x : Fin 640) : bot1 P (ix2 y x) = Q (4 + y.val) (2 + x.val) :=
  (slMid P 4 (by omega) _ y x).trans (hPQ _ _)

end Positions

/-! ## Dilation, erosion and the weight -/

/-- The kernel's maximum tile at a pixel is the dilation of the label image padded with −10⁹: the same 17 positions,
    grouped by rows first; a maximum does not depend on order or grouping. -/
theorem pay6_apply (v0 : Vec Ideal S1x360x640 .i32) (y : Fin 360) (x : Fin 640) :
    k0_pay6 (F := Ideal) v0 (ix2 y x) = dil (padAt negBig (labOf v0)) y.val x.val := by
  rw [pay6_eq]
  show max (comb16 max (padTile negBig (k0_pay3 v0)) (ix2 y x)) (bot1 (padTile negBig (k0_pay3 v0)) (ix2 y x)) = _
  rw [comb16_apply max _ _ (padTile_apply negBig v0), bot1_apply _ _ (padTile_apply negBig v0)]
  unfold dil
  ac_rfl

/-- The kernel's minimum tile with its last position joined is the erosion of the label image padded with +10⁹. -/
theorem pay75_apply (v0 : Vec Ideal S1x360x640 .i32) (y : Fin 360) (x : Fin 640) :
    min (k0_pay7 (F := Ideal) v0 (ix2 y x)) (k0_pay5 (F := Ideal) v0 (ix2 y x)) = ero (padAt posBig (labOf v0)) y.val x.val := by
  rw [pay7_eq, pay5_eq, comb16_apply min _ _ (padTile_apply posBig v0), bot1_apply _ _ (padTile_apply posBig v0)]
  unfold ero
  ac_rfl

/-- The kernel's weight at pixel (y, x) of its tile is `weight` of the label block's image. -/
theorem weight_eq (v0 : Vec Ideal S1x360x640 .i32) (y : Fin 360) (x : Fin 640) :
    k0_pay8 (F := Ideal) (k0_pay5 v0) (k0_pay6 v0) (k0_pay7 v0) (ix2 y x) = weight (labOf v0) y.val x.val := by
  unfold weight
  rw [← pay6_apply v0 y x, ← pay75_apply v0 y x]
  rfl

end Cert.BoundaryCE.Ker

end
-- ==== Proof.KerCE.lean ====
/-
  The kernel's cross-entropy tile, read at a pixel: its seven channel loads, each a [1,1,360,640] slab read as a
  [360,640] tile, give the pixel's seven scores; every operation after them is pointwise, so the tile at (y, x) is
  `ceK` of those scores and the pixel's label word.
-/
import proofs.«401031_j42322607735076_2_alg».proof.Proof.Gen.KernelIdeal.Skeleton
import proofs.«401031_j42322607735076_2_alg».proof.Proof.Spec
import Idealize.ShloMosaic.Lib.Pipeline.Value

noncomputable section

namespace Cert.BoundaryCE.Ker

open Idealize.ShloMosaic Idealize.ShloMosaic.ValueIdx Cert.KernelIdeal Cert.KernelIdeal.Gen Cert.BoundaryCE

/-- A [1,1,360,640] slab read as a [360,640] tile: the tile at (y, x) is the slab at (0, 0, y, x), because both indices
    have the same row-major position, ((0 · 1 + 0) · 360 + y) · 640 + x = y · 640 + x. -/
theorem ce_cast4 (s : Vec Ideal S1x1x360x640 .f32) (y : Fin 360) (x : Fin 640) :
    shapeCast S360x640 s shapeCasts_S1x1x360x640_S360x640 (ix2 y x) = s (ix4 0 0 y x) :=
  shapeCast_apply s _ _ _ (by
    rw [Shape.rowMajor_val_four, Shape.rowMajor_val_two]
    show ((0 * 1 + 0) * 360 + y.val) * 640 + x.val = y.val * 640 + x.val
    omega)

/-- The [1,360,640] label block read as a [360,640] tile: the tile at (y, x) is the block at (0, y, x), because both
    indices have the same row-major position, (0 · 360 + y) · 640 + x = y · 640 + x. -/
theorem ce_cast3 (s : Vec Ideal S1x360x640 .i32) (y : Fin 360) (x : Fin 640) :
    shapeCast S360x640 s shapeCasts_S1x360x640_S360x640 (ix2 y x) = s (ix3 0 y x) :=
  shapeCast_apply s _ _ _ (by
    rw [Shape.rowMajor_val_three, Shape.rowMajor_val_two]
    show (0 * 360 + y.val) * 640 + x.val = y.val * 640 + x.val
    omega)

/-- With `l c` the slab loaded for channel `c` and `p c` its entry at pixel (y, x), the kernel's cross-entropy tile at
    (y, x) is `ceK p` at the pixel's label word. The slabs appear in the order the body loads them: all seven for the
    maximum, the first three and the fourth again for the first part of the two running sums, the last three for the rest. -/
theorem ce_eq (l : Fin 7 → Vec Ideal S1x1x360x640 .f32) (v0 : Vec Ideal S1x360x640 .i32) (y : Fin 360) (x : Fin 640)
    (p : Fin 7 → EReal) (hp : ∀ c, l c (ix4 0 0 y x) = p c) :
    k0_pay19 (F := Ideal) (k0_pay2 v0)
      (k0_pay11 (k0_pay9 (l 0) (l 1) (l 2) (l 3) (l 4) (l 5)) (k0_pay10 (l 6)))
      (k0_pay15 (k0_pay9 (l 0) (l 1) (l 2) (l 3) (l 4) (l 5)) (k0_pay10 (l 6)) (l 0) (l 1) (l 2))
      (k0_pay16 (k0_pay2 v0) (l 0) (l 1) (l 2))
      (k0_pay17 (l 3))
      (k0_pay18 (k0_pay9 (l 0) (l 1) (l 2) (l 3) (l 4) (l 5)) (k0_pay10 (l 6)) (l 3))
      (l 4) (l 5) (l 6) (ix2 y x)
    = ceK p (v0 (ix3 0 y x)) := by
  -- the seven scores are the seven slabs' tiles at (y, x): tile c at (y, x) = slab c at (0, 0, y, x) = p c
  have e : (fun c => shapeCast S360x640 (l c) shapeCasts_S1x1x360x640_S360x640 (ix2 y x)) = p :=
    funext fun c => (ce_cast4 (l c) y x).trans (hp c)
  -- the label word is the label tile at (y, x)
  have et : shapeCast S360x640 v0 shapeCasts_S1x360x640_S360x640 (ix2 y x) = v0 (ix3 0 y x) := ce_cast3 v0 y x
  rw [← e, ← et]
  -- every operation of the tile after the slabs' reads is pointwise (maximum, difference, exponential, sum, compare,
  -- select, logarithm), and on extended reals each is the exact operation `ceK` names: read at (y, x), the tile is
  -- log (0 + Σ exp (tile c − m)) + m − (0 + Σ select (label = c) (tile c) 0) with m the running maximum from −∞,
  -- term for term the right-hand side
  rfl

end Cert.BoundaryCE.Ker

end
-- ==== Proof.LibSumIdx3.lean ====
/-
  A sum over a rank-3 index set is the triple sum over its coordinates: the index set ⟨3, ![n0, n1, n2]⟩ is the
  product Fin n0 × Fin n1 × Fin n2 (every index is `ix3` of its coordinates), and a sum over a product is the
  iterated sum. The rank-3 companion of the library's `ValueIdx.idxEquiv2` / `ValueIdx.sum_idx2`; generic in the
  extents and in the commutative monoid summed in.
-/
import Idealize.ShloMosaic.Lib.ValueIdx

noncomputable section

namespace Cert.LibSumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx3

end
-- ==== Proof.KerValue.lean ====
/-
  The kernel's value. At grid point b the body leaves in its [1,1,1] output block the sum, over the 360 × 640 pixels
  of batch element b, of (cross-entropy) × (boundary weight): the product tile summed over its two axes. The output
  blocks tile the [16,1,1] array (point b writes entry b), so after the region the array holds the sixteen per-batch
  sums; the two host operations after the region add them up from 0 and divide by the pixel count.
-/
import proofs.«401031_j42322607735076_2_alg».proof.Proof.Gen.KernelIdeal.Frame
import proofs.«401031_j42322607735076_2_alg».proof.Proof.Spec
import proofs.«401031_j42322607735076_2_alg».proof.Proof.KerMorph
import proofs.«401031_j42322607735076_2_alg».proof.Proof.KerCE
import proofs.«401031_j42322607735076_2_alg».proof.Proof.LibSumIdx3
import Idealize.ShloMosaic.Lib.Pipeline.Value
import Idealize.ShloMosaic.PureOps.Ideal.Laws

noncomputable section

namespace Cert.BoundaryCE.Ker

open Idealize.ShloMosaic Idealize.ShloMosaic.ValueIdx Idealize.ShloMosaic.TcCoe Idealize.SL.Sem
open Cert.KernelIdeal Cert.KernelIdeal.Gen Cert.BoundaryCE
open Idealize.ShloMosaic.Pipeline (Dat)

/-! ## One pixel's term and one batch element's sum, over the whole arrays -/

/-- Pixel (b, y, x)'s term of the loss, in the kernel's spelling, from the score array and the label array. -/
def term (A0 : S16x7x360x640.Idx → EReal) (A1 : S16x360x640.Idx → BitVec 32) (b : Fin 16) (y : Fin 360) (x : Fin 640) : EReal :=
  pixK (fun k => A0 (ix4 b k y x)) (A1 (ix3 b y x)) (lab fun y' x' => A1 (ix3 b y' x')) y.val x.val

/-- Batch element b's sum over its pixels, the pixels indexed as the kernel's [1,360,640] tile. -/
def partialSum (A0 : S16x7x360x640.Idx → EReal) (A1 : S16x360x640.Idx → BitVec 32) (b : Fin 16) : EReal :=
  ∑ q : S1x360x640.Idx, term A0 A1 b ⟨(q 1).val, (q 1).isLt⟩ ⟨(q 2).val, (q 2).isLt⟩

/-! ## The body's block -/

theorem hz3 : (![0, 0, 0] : Fin 3 → Nat) = fun _ => 0 := funext fun a => by fin_cases a <;> rfl

/-- Extracting entry (0,0,0) of a [1,1,1] vector and splatting it back reads that entry everywhere. -/
theorem splat_extract (v : FVec Ideal S1x1x1 .f32) (j : S1x1x1.Idx) :
    broadcast S1x1x1 (extractAt ![0, 0, 0] v inpos_S1x1x1_p0_0_0) j
      = v (fun a => ⟨(![0, 0, 0] : Fin 3 → Nat) a, inpos_S1x1x1_p0_0_0 a⟩) := rfl

/-- A one-element vector read as [1,1,1]: every entry is the one element (both shapes have a single row-major position). -/
theorem cast_one (u : FVec Ideal S1 .f32) (i : S1x1x1.Idx) :
    shapeCast S1x1x1 u shapeCasts_S1_S1x1x1 i = u (ix1 (0 : Fin 1)) := by
  refine shapeCast_apply u _ i (ix1 (0 : Fin 1)) ?_
  have h1 : (S1.rowMajor (ix1 (0 : Fin 1))).val < 1 := (S1.rowMajor _).isLt
  have h2 : (S1x1x1.rowMajor i).val < 1 := (S1x1x1.rowMajor i).isLt
  omega

/-- A [360,640] tile read as [1,360,640]: the entry at q is the tile at (q 1, q 2), the two having the same row-major
    position since q 0 = 0. -/
theorem cast_tile (P : FVec Ideal S360x640 .f32) (q : S1x360x640.Idx) :
    shapeCast S1x360x640 P shapeCasts_S360x640_S1x360x640 q = P (ix2 ⟨(q 1).val, (q 1).isLt⟩ ⟨(q 2).val, (q 2).isLt⟩) := by
  refine shapeCast_apply P _ q (ix2 ⟨(q 1).val, (q 1).isLt⟩ ⟨(q 2).val, (q 2).isLt⟩) ?_
  rw [Shape.rowMajor_val_two, Shape.rowMajor_val_three]
  have h0 : (q 0).val < 1 := (q 0).isLt
  show (q 1).val * 640 + (q 2).val = ((q 0).val * 360 + (q 1).val) * 640 + (q 2).val
  omega

/-- The lane sum of the [1,360,640] tile over its two trailing axes, into one element: a sum into a shape all of whose
    axes have extent 1 is the total sum. -/
theorem red_total (P : FVec Ideal S360x640 .f32) (acc : BitVec FTy.f32.bits) (hφ : FKind.Formats FTy.f32)
    (hacc : acc = FKind.add.neutral FTy.f32 hφ) (k : S1.Idx) :
    multiReduction .add [1, 2] S1 (shapeCast S1x360x640 P shapeCasts_S360x640_S1x360x640) acc reduces_S1x360x640_S1 hφ hacc k
      = ∑ q : S1x360x640.Idx, P (ix2 ⟨(q 1).val, (q 1).isLt⟩ ⟨(q 2).val, (q 2).isLt⟩) := by
  refine (Ideal.multiReduction_add_total _ _ _ (fun b => by fin_cases b; rfl) _ _ _).trans ?_
  exact Finset.sum_congr rfl fun q _ => cast_tile P q

/-- The last payload's chain over an abstract product tile: every entry of the [1,1,1] result is the tile's sum over
    its pixels. -/
theorem pay1_aux (P : FVec Ideal S360x640 .f32) (acc : BitVec FTy.f32.bits) (hφ : FKind.Formats FTy.f32)
    (hacc : acc = FKind.add.neutral FTy.f32 hφ) (j : S1x1x1.Idx) :
    broadcast S1x1x1 (extractAt ![0, 0, 0] (shapeCast S1x1x1 (multiReduction .add [1, 2] S1
        (shapeCast S1x360x640 P shapeCasts_S360x640_S1x360x640) acc reduces_S1x360x640_S1 hφ hacc) shapeCasts_S1_S1x1x1)
        inpos_S1x1x1_p0_0_0) j
      = ∑ q : S1x360x640.Idx, P (ix2 ⟨(q 1).val, (q 1).isLt⟩ ⟨(q 2).val, (q 2).isLt⟩) :=
  (splat_extract _ j).trans ((cast_one _ _).trans (red_total P acc hφ hacc _))

/-- The last payload at any index of the [1,1,1] block: the sum over the tile's pixels of (cross-entropy × weight). -/
theorem pay1_apply (W C : FVec Ideal S360x640 .f32) (j : S1x1x1.Idx) :
    k0_pay1 (F := Ideal) W C j
      = ∑ q : S1x360x640.Idx, C (ix2 ⟨(q 1).val, (q 1).isLt⟩ ⟨(q 2).val, (q 2).isLt⟩)
          * W (ix2 ⟨(q 1).val, (q 1).isLt⟩ ⟨(q 2).val, (q 2).isLt⟩) :=
  pay1_aux (mulf C W) _ _ _ j

/-- The seven channel slabs the body loads from its score block. -/
abbrev chan (x0 : Vec Ideal S1x7x360x640 .f32) : Fin 7 → Vec Ideal S1x1x360x640 .f32 :=
  ![View.ld x0 r0_1, View.ld x0 r0_2, View.ld x0 r0_3, View.ld x0 r0_4, View.ld x0 r0_5, View.ld x0 r0_6, View.ld x0 r0_7]

/-- Slab c at (0, 0, y, x) is the block at (0, c, y, x): the slab's rectangle starts at channel c. -/
theorem chan_apply (x0 : Vec Ideal S1x7x360x640 .f32) (c : Fin 7) (y : Fin 360) (x : Fin 640) :
    chan x0 c (ix4 0 0 y x) = x0 (ix4 0 c y x) := by
  fin_cases c <;>
  · show x0 _ = x0 _
    refine congrArg x0 (funext fun a => Fin.ext ?_)
    match a with
    | ⟨0, _⟩ => rfl
    | ⟨1, _⟩ => rfl
    | ⟨2, _⟩ => show 0 + 1 * y.val = y.val; omega
    | ⟨3, _⟩ => show 0 + 1 * x.val = x.val; omega

/-! ## The body's block is a batch element's sum -/

/-- At pixel (y, x) of the tile, (cross-entropy tile) × (weight tile) is pixel (b, y, x)'s term, when the score block
    and the label block are batch element b of the arrays. -/
theorem pixel_eq (A0 : S16x7x360x640.Idx → EReal) (A1 : S16x360x640.Idx → BitVec 32) (b : Fin 16)
    (x0 : Vec Ideal S1x7x360x640 .f32) (x1 : Vec Ideal S1x360x640 .i32)
    (h0 : ∀ (k : Fin 7) (y : Fin 360) (x : Fin 640), x0 (ix4 0 k y x) = A0 (ix4 b k y x))
    (h1 : ∀ (y : Fin 360) (x : Fin 640), x1 (ix3 0 y x) = A1 (ix3 b y x)) (y : Fin 360) (x : Fin 640) :
    k0_pay19 (F := Ideal) (k0_pay2 x1)
      (k0_pay11 (k0_pay9 (chan x0 0) (chan x0 1) (chan x0 2) (chan x0 3) (chan x0 4) (chan x0 5)) (k0_pay10 (chan x0 6)))
      (k0_pay15 (k0_pay9 (chan x0 0) (chan x0 1) (chan x0 2) (chan x0 3) (chan x0 4) (chan x0 5)) (k0_pay10 (chan x0 6)) (chan x0 0) (chan x0 1) (chan x0 2))
      (k0_pay16 (k0_pay2 x1) (chan x0 0) (chan x0 1) (chan x0 2))
      (k0_pay17 (chan x0 3))
      (k0_pay18 (k0_pay9 (chan x0 0) (chan x0 1) (chan x0 2) (chan x0 3) (chan x0 4) (chan x0 5)) (k0_pay10 (chan x0 6)) (chan x0 3))
      (chan x0 4) (chan x0 5) (chan x0 6) (ix2 y x)
      * k0_pay8 (F := Ideal) (k0_pay5 x1) (k0_pay6 x1) (k0_pay7 x1) (ix2 y x)
    = term A0 A1 b y x := by
  rw [ce_eq (chan x0) x1 y x (fun k => A0 (ix4 b k y x)) (fun c => (chan_apply x0 c y x).trans (h0 c y x)),
    weight_eq x1 y x]
  have hl : labOf x1 = lab fun y' x' => A1 (ix3 b y' x') :=
    congrArg lab (funext fun y' => funext fun x' => h1 y' x')
  unfold term pixK
  rw [hl, h1 y x]

/-- The body's [1,1,1] block holds, at its one entry, batch element b's sum. -/
theorem body_eq (A0 : S16x7x360x640.Idx → EReal) (A1 : S16x360x640.Idx → BitVec 32) (b : Fin 16)
    (x0 : Vec Ideal S1x7x360x640 .f32) (x1 : Vec Ideal S1x360x640 .i32)
    (h0 : ∀ (k : Fin 7) (y : Fin 360) (x : Fin 640), x0 (ix4 0 k y x) = A0 (ix4 b k y x))
    (h1 : ∀ (y : Fin 360) (x : Fin 640), x1 (ix3 0 y x) = A1 (ix3 b y x)) :
    out0_2 (F := Ideal) x0 x1 = fun _ => partialSum A0 A1 b := by
  unfold out0_2
  rw [View.canon_unit_zero hz3]
  simp only [View.ld_unit_zero (S := S1x360x640) hz3]
  funext j
  refine (pay1_apply _ _ j).trans ?_
  exact Finset.sum_congr rfl fun q _ =>
    pixel_eq A0 A1 b x0 x1 h0 h1 ⟨(q 1).val, (q 1).isLt⟩ ⟨(q 2).val, (q 2).isLt⟩

/-! ## The output array after the region -/

variable (m : (ℓ : Loc nD τ sig) → Buf (Elt Ideal) ℓ) (ρ : Dev nD → PrngReg)

/-- The score array and the label array as the region finds them. -/
abbrev scoreArr (c : Dev nD) : S16x7x360x640.Idx → EReal := V m c main_arg0
abbrev labelArr (c : Dev nD) : S16x360x640.Idx → BitVec 32 := V m c main_arg1

/-- What the [16,1,1] output array ends holding: entry b is batch element b's sum. -/
def G (c : Dev nD) : S16x1x1.Idx → EReal := fun i => partialSum (scoreArr m c) (labelArr m c) ⟨(i 0).val, (i 0).isLt⟩

/-- The printed index maps, decided over the 16 grid points: point t stages batch element t of each argument and writes
    entry t of the output. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem lt16 (t : Fin cfg0.N) : t.val < 16 := by
  have h := t.isLt
  have e : cfg0.N = 16 := N_0
  omega

/-- WHAT POINT t WRITES BACK is block t of `G`: its blocks are batch element t of the arrays, so the body's block is
    batch element t's sum, which is entry t of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  obtain ⟨a0, a1, a2, a3, b0, b1, b2, c0, c1, c2⟩ := idx_facts t
  have h0 : ∀ (k : Fin 7) (y : Fin 360) (x : Fin 640),
      iblk m c 0 t (ix4 0 k y x) = scoreArr m c (ix4 ⟨t.val, lt16 t⟩ k y x) := by
    intro k y x
    show V m c main_arg0 (((cfg0.win 0).blk t).view.emb (ix4 0 k y x)) = _
    refine congrArg (V m c main_arg0) (funext fun a => Fin.ext ?_)
    match a with
    | ⟨0, _⟩ => show win0_0.index t (0 : Fin 4) * 1 + 1 * 0 = t.val; omega
    | ⟨1, _⟩ => show win0_0.index t (1 : Fin 4) * 7 + 1 * k.val = k.val; omega
    | ⟨2, _⟩ => show win0_0.index t (2 : Fin 4) * 360 + 1 * y.val = y.val; omega
    | ⟨3, _⟩ => show win0_0.index t (3 : Fin 4) * 640 + 1 * x.val = x.val; omega
  have h1 : ∀ (y : Fin 360) (x : Fin 640), iblk m c 1 t (ix3 0 y x) = labelArr m c (ix3 ⟨t.val, lt16 t⟩ y x) := by
    intro y x
    show V m c main_arg1 (((cfg0.win 1).blk t).view.emb (ix3 0 y x)) = _
    refine congrArg (V m c main_arg1) (funext fun a => Fin.ext ?_)
    match a with
    | ⟨0, _⟩ => show win0_1.index t (0 : Fin 3) * 1 + 1 * 0 = t.val; omega
    | ⟨1, _⟩ => show win0_1.index t (1 : Fin 3) * 360 + 1 * y.val = y.val; omega
    | ⟨2, _⟩ => show win0_1.index t (2 : Fin 3) * 640 + 1 * x.val = x.val; omega
  have hb := body_eq (scoreArr m c) (labelArr m c) ⟨t.val, lt16 t⟩ (iblk m c 0 t) (iblk m c 1 t) h0 h1
  rw [hb]
  funext j
  show partialSum (scoreArr m c) (labelArr m c) ⟨t.val, lt16 t⟩ = G m c (((cfg0.win 2).blk t).view.emb j)
  unfold G
  refine congrArg (partialSum (scoreArr m c) (labelArr m c)) (Fin.ext ?_)
  have hj : (j 0).val < 1 := (j 0).isLt
  show t.val = win0_2.index t (0 : Fin 3) * 1 + 1 * (j 0).val
  omega

/-- An index of the output array is in point t's block iff each coordinate is in the block's range on its axis. -/
theorem mem_blk (t : Fin cfg0.N) (i : S16x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v0).slice (win0_2.rect t)).set ↔ _
  rw [View.set_slice_whole, Rect.mem_set_unit]
  exact Iff.rfl

/-- Every entry of the output array is some point's block: entry (b, 0, 0) is point b's. -/
theorem cover (i : S16x1x1.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 1 := (i 2).isLt
  have hN : (i 0).val < cfg0.N := by rw [show cfg0.N = 16 from N_0]; exact hi0
  obtain ⟨-, -, -, -, -, -, -, c0, c1, c2⟩ := idx_facts ⟨(i 0).val, hN⟩
  have c0' : win0_2.index ⟨(i 0).val, hN⟩ (0 : Fin 3) = (i 0).val := c0
  refine ⟨⟨(i 0).val, hN⟩, flush0_2 _, (mem_blk ⟨(i 0).val, hN⟩ i).mpr fun a => ?_⟩
  match a with
  | ⟨0, _⟩ =>
    show win0_2.index ⟨(i 0).val, hN⟩ (0 : Fin 3) * 1 ≤ (i 0).val ∧ (i 0).val < win0_2.index ⟨(i 0).val, hN⟩ (0 : Fin 3) * 1 + 1
    omega
  | ⟨1, _⟩ =>
    show win0_2.index ⟨(i 0).val, hN⟩ (1 : Fin 3) * 1 ≤ (i 1).val ∧ (i 1).val < win0_2.index ⟨(i 0).val, hN⟩ (1 : Fin 3) * 1 + 1
    omega
  | ⟨2, _⟩ =>
    show win0_2.index ⟨(i 0).val, hN⟩ (2 : Fin 3) * 1 ≤ (i 2).val ∧ (i 2).val < win0_2.index ⟨(i 0).val, hN⟩ (2 : Fin 3) * 1 + 1
    omega

/-- THE OUTPUT ARRAY after the region is `G`. -/
theorem final (c : Dev nD) : (dats m 0 c).arrAt 2 cfg0.N = G m c :=
  (dats m 0 c).arrAt_eq_of_cover 2 (G m c) (fun t _ => flushed_eq m c t) cover

/-! ## The host tail: the sum of the sixteen entries from 0, divided by the pixel count -/

/-- The kernel's result as a number: 0 plus the sum over all pixels of the pixel terms, divided by the pixel count. -/
def total (A0 : S16x7x360x640.Idx → EReal) (A1 : S16x360x640.Idx → BitVec 32) : EReal :=
  Ideal.div (zeroF + ∑ b : Fin 16, ∑ y : Fin 360, ∑ x : Fin 640, term A0 A1 b y x) countF

open Cert.LibSumIdx3 in
/-- Batch element b's sum over the [1,360,640] tile's index set is the double sum over rows and columns. -/
theorem partialSum_eq (A0 : S16x7x360x640.Idx → EReal) (A1 : S16x360x640.Idx → BitVec 32) (b : Fin 16) :
    partialSum A0 A1 b = ∑ y : Fin 360, ∑ x : Fin 640, term A0 A1 b y x := by
  unfold partialSum
  rw [sum_idx3, Fin.sum_univ_one]

open Cert.LibSumIdx3 in
/-- The sum of the sixteen entries of `G` is the sum over all pixels. -/
theorem sum_G (c : Dev nD) :
    ∑ i : S16x1x1.Idx, G m c i = ∑ b : Fin 16, ∑ y : Fin 360, ∑ x : Fin 640, term (scoreArr m c) (labelArr m c) b y x := by
  rw [sum_idx3]
  refine Finset.sum_congr rfl fun b _ => ?_
  rw [Fin.sum_univ_one, Fin.sum_univ_one]
  exact partialSum_eq (scoreArr m c) (labelArr m c) b

/-- The two host operations after the region, applied to any [16,1,1] array: 0 plus the sum of its entries, over the count. -/
theorem tail_fn (g : S16x1x1.Idx → EReal) (j : S_.Idx) :
    Host.divf (F := Ideal) (Host.reduceAdd g (constant S_ .f32 0x00000000#32) reducesTo_S16x1x1_S_d0_1_2 h_S_)
      (constant S_ .f32 0x4A610000#32) j = Ideal.div (zeroF + ∑ i : S16x1x1.Idx, g i) countF := by
  show Ideal.div (Host.reduceAdd (F := Ideal) g (constant S_ .f32 0x00000000#32) reducesTo_S16x1x1_S_d0_1_2 h_S_ j) countF = _
  refine congrArg (fun z => Ideal.div z countF) ?_
  simp only [Host.reduceAdd, Ideal.hostReduceAdd_def]
  exact Ideal.hostReduceAdd_total reducesTo_S16x1x1_S_d0_1_2 (fun b => b.elim0) g _ j

/-- THE RESULT BUFFER after the host tail. -/
theorem tail_eq (c : Dev nD) :
    Pipeline.afterTail₀ cfgs (dats m) 0 (V0 m) [hostOps1] c main_v2 = fun _ => total (scoreArr m c) (labelArr m c) := by
  unfold Pipeline.afterTail₀
  show StableHlo.after hostOps1 _ (Proc.devRef .tc main_v2) = _
  after_results
  have e : Pipeline.withArrays spec0 c (V0 m c) (fun w => (dats m 0 c).arrAt w cfg0.N) (Proc.devRef .tc main_v0) = G m c :=
    (Pipeline.withArrays_arr spec0 launch0.win.arr_inj c _ _ 2).trans (final m c)
  rw [e]
  funext j
  rw [tail_fn (G m c) j, sum_G]
  rfl

/-! ## The run, read -/

/-- Every weakly fair execution of the idealized kernel terminates with its result at `total` of the arguments as
    launched, and the arguments unchanged. -/
theorem run : θ_run defs (onTc (τ := τ) (main (F := Ideal))) ⟨m, fun _ => 0, ρ⟩ fun r => ∀ c : Dev nD,
      r.2.mem ((c.tc : Thread nD τ).loc main_v2)
          = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.BoundaryCE.Ker

end
-- ==== Proof.RefRun.lean ====
/-
  The reference program's run, read back. @main is a straight line of 128 host operations (the functions it
  calls written out in their calls' places). The line is cut into nine stretches along its data flow — the dilation
  of the padded label image; the first part of the erosion; the rest of the erosion and the weight; the log-softmax;
  the index normalisation, its reshape, the range test, and the gather with its fill; the product, the sum and the
  mean — and @main is shown to be the nine run one after the other. For each stretch: what it leaves in the buffers
  later stretches read, as the stage functions of the buffers it reads, and that it leaves the arguments and the
  buffers it does not write alone. Together: every weakly fair execution terminates with the result buffer at the last
  stage function of the two arguments, the arguments unchanged.
-/
import proofs.«401031_j42322607735076_2_alg».proof.Proof.RefRead

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The contents after two lines run one after the other are the second's from the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The nine stretches -/

/-- Operations 1 … 37 of @main, in order. -/
abbrev opsA1 : List (HloOp τ sig (Elt F)) :=
  [ unary main_arg1 main_v0 (sitofp .f32 : (⟨S16x360x640, .i32⟩ : BufTy).Contents (Elt F) → (⟨S16x360x640, .f32⟩ : BufTy).Contents (Elt F)),
    nullary main_cst (constant S_ .f32 0xCE6E6B28#32),
    TRef.unary (TRef.of (T := ⟨S_, .f32⟩) main_cst) (TRef.of (T := ⟨S_, .f32⟩) main_call0_v0) id,
    TRef.binary (TRef.of (T := ⟨S16x360x640, .f32⟩) main_v0) (TRef.of (T := ⟨S_, .f32⟩) main_call0_v0) (TRef.of (T := ⟨S16x364x644, .f32⟩) main_v1) (fun x v => pad S16x364x644 ![0, 2, 2] ![0, 2, 2] ![0, 0, 0] x v pads_S16x360x640_S16x364x644_000_220_220 h_S_),
    unary main_v1 main_v2 ((extractStridedSlice S16x360x640 ![0, 0, 2] · slices_S16x364x644_S16x360x640_0_0_2) : (⟨S16x364x644, .f32⟩ : BufTy).Contents (Elt F) → (⟨S16x360x640, .f32⟩ : BufTy).Contents (Elt F)),
    unary main_v1 main_v3 ((extractStridedSlice S16x360x640 ![0, 1, 0] · slices_S16x364x644_S16x360x640_0_1_0) : (⟨S16x364x644, .f32⟩ : BufTy).Contents (Elt F) → (⟨S16x360x640, .f32⟩ : BufTy).Contents (Elt F)),
    binary main_v2 main_v3 main_v4 (maximumf : (⟨S16x360x640, .f32⟩ : BufTy).Contents (Elt F) → (⟨S16x360x640, .f32⟩ : BufTy).Contents (Elt F) → (⟨S16x360x640, .f32⟩ : BufTy).Contents (Elt F)),
    unary main_v1 main_v5 ((extractStridedSlice S16x360x640 ![0, 1, 1] · slices_S16x364x644_S16x360x640_0_1_1) : (⟨S16x364x644, .f32⟩ : BufTy).Contents (Elt F) → (⟨S16x360x640, .f32⟩ : BufTy).Contents (Elt F)),
    binary main_v4 main_v5 main_v6 (maximumf : (⟨S16x360x640, .f32⟩ : BufTy).Contents (Elt F) → (⟨S16x360x640, .f32⟩ : BufTy).Contents (Elt F) → (⟨S16x360x640, .f32⟩ : BufTy).Contents (Elt F)),
    unary main_v1 main_v7 ((extractStridedSlice S16x360x640 ![0, 1, 2] · slices_S16x364x644_S16x360x640_0_1_2) : (⟨S16x364x644, .f32⟩ : BufTy).Contents (Elt F) → (⟨S16x360x640, .f32⟩ : BufTy).Contents (Elt F)),
    binary main_v6 main_v7 main_v8 (maximumf : (⟨S16x360x640, .f32⟩ : BufTy).Contents (Elt F) → (⟨S16x360x640, .f32⟩ : BufTy).Contents (Elt F) → (⟨S16x360x640, .f32⟩ : BufTy).Contents (Elt F)),
    unary main_v1 main_v9 ((extractStridedSlice S16x360x640 ![0, 1, 3] · slices_S16x364x644_S16x360x640_0_1_3) : (⟨S16x364x644, .f32⟩ : BufTy).Contents (Elt F) → (⟨S16x360x640, .f32⟩ : BufTy).Contents (Elt F)),
    binary main_v8 main_v9 main_v10 (maximumf : (⟨S16x360x640, .f32⟩ : BufTy).Contents (Elt F) → (⟨S16x360x640, .f32⟩ : BufTy).Contents (Elt F) → (⟨S16x360x640, .f32⟩ : BufTy).Contents (Elt F)),
    unary main_v1 main_v11 ((extractStridedSlice S16x360x640 ![0, 1, 4] · slices_S16x364x644_S16x360x640_0_1_4) : (⟨S16x364x644, .f32⟩ : BufTy).Contents (Elt F) → (⟨S16x360x640, .f32⟩ : BufTy).Contents (Elt F)),
    binary main_v10 main_v11 main_v12 (maximumf : (⟨S16x360x640, .f32⟩ : BufTy).Contents (Elt F) → (⟨S16x360x640, .f32⟩ : BufTy).Contents (Elt F) → (⟨S16x360x640, .f32⟩ : BufTy).Contents (Elt F)),
    unary main_v1 main_v13 ((extractStridedSlice S16x360x640 ![0, 2, 0] · slices_S16x364x644_S16x360x640_0_2_0) : (⟨S16x364x644, .f32⟩ : BufTy).Contents (Elt F) → (⟨S16x360x640, .f32⟩ : BufTy).Contents (Elt F)),
    binary main_v12 main_v13 main_v14 (maximumf : (⟨S16x360x640, .f32⟩ : BufTy).Contents (Elt F) → (⟨S16x360x640, .f32⟩ : BufTy).Contents (Elt F) → (⟨S16x360x640, .f32⟩ : BufTy).Contents (Elt F)),
    unary main_v1 main_v15 ((extractStridedSlice S16x360x640 ![0, 2, 1] · slices_S16x364x644_S16x360x640_0_2_1) : (⟨S16x364x644, .f32⟩ : BufTy).Contents (Elt F) → (⟨S16x360x640, .f32⟩ : BufTy).Contents (Elt F)),
    binary main_v14 main_v15 main_v16 (maximumf : (⟨S16x360x640, .f32⟩ : BufTy).Contents (Elt F) → (⟨S16x360x640, .f32⟩ : BufTy).Contents (Elt F) → (⟨S16x360x640, .f32⟩ : BufTy).Contents (Elt F)),
    unary main_v1 main_v17 ((extractStridedSlice S16x360x640 ![0, 2, 2] · slices_S16x364x644_S16x360x640_0_2_2) : (⟨S16x364x644, .f32⟩ : BufTy).Contents (Elt F) → (⟨S16x360x640, .f32⟩ : BufTy).Contents (Elt F)),
    binary main_v16 main_v17 main_v18 (maximumf : (⟨S16x360x640, .f32⟩ : BufTy).Contents (Elt F) → (⟨S16x360x640, .f32⟩ : BufTy).Contents (Elt F) → (⟨S16x360x640, .f32⟩ : BufTy).Contents (Elt F)),
    unary main_v1 main_v19 ((extractStridedSlice S16x360x640 ![0, 2, 3] · slices_S16x364x644_S16x360x640_0_2_3) : (⟨S16x364x644, .f32⟩ : BufTy).Contents (Elt F) → (⟨S16x360x640, .f32⟩ : BufTy).Contents (Elt F)),
    binary main_v18 main_v19 main_v20 (maximumf : (⟨S16x360x640, .f32⟩ : BufTy).Contents (Elt F) → (⟨S16x360x640, .f32⟩ : BufTy).Contents (Elt F) → (⟨S16x360x640, .f32⟩ : BufTy).Contents (Elt F)),
    unary main_v1 main_v21 ((extractStridedSlice S16x360x640 ![0, 2, 4] · slices_S16x364x644_S16x360x640_0_2_4) : (⟨S16x364x644, .f32⟩ : BufTy).Contents (Elt F) → (⟨S16x360x640, .f32⟩ : BufTy).Contents (Elt F)),
    binary main_v20 main_v21 main_v22 (maximumf : (⟨S16x360x640, .f32⟩ : BufTy).Contents (Elt F) → (⟨S16x360x640, .f32⟩ : BufTy).Contents (Elt F) → (⟨S16x360x640, .f32⟩ : BufTy).Contents (Elt F)),
    unary main_v1 main_v23 ((extractStridedSlice S16x360x640 ![0, 3, 0] · slices_S16x364x644_S16x360x640_0_3_0) : (⟨S16x364x644, .f32⟩ : BufTy).Contents (Elt F) → (⟨S16x360x640, .f32⟩ : BufTy).Contents (Elt F)),
    binary main_v22 main_v23 main_v24 (maximumf : (⟨S16x360x640, .f32⟩ : BufTy).Contents (Elt F) → (⟨S16x360x640, .f32⟩ : BufTy).Contents (Elt F) → (⟨S16x360x640, .f32⟩ : BufTy).Contents (Elt F)),
    unary main_v1 main_v25 ((extractStridedSlice S16x360x640 ![0, 3, 1] · slices_S16x364x644_S16x360x640_0_3_1) : (⟨S16x364x644, .f32⟩ : BufTy).Contents (Elt F) → (⟨S16x360x640, .f32⟩ : BufTy).Contents (Elt F)),
    binary main_v24 main_v25 main_v26 (maximumf : (⟨S16x360x640, .f32⟩ : BufTy).Contents (Elt F) → (⟨S16x360x640, .f32⟩ : BufTy).Contents (Elt F) → (⟨S16x360x640, .f32⟩ : BufTy).Contents (Elt F)),
    unary main_v1 main_v27 ((extractStridedSlice S16x360x640 ![0, 3, 2] · slices_S16x364x644_S16x360x640_0_3_2) : (⟨S16x364x644, .f32⟩ : BufTy).Contents (Elt F) → (⟨S16x360x640, .f32⟩ : BufTy).Contents (Elt F)),
    binary main_v26 main_v27 main_v28 (maximumf : (⟨S16x360x640, .f32⟩ : BufTy).Contents (Elt F) → (⟨S16x360x640, .f32⟩ : BufTy).Contents (Elt F) → (⟨S16x360x640, .f32⟩ : BufTy).Contents (Elt F)),
    unary main_v1 main_v29 ((extractStridedSlice S16x360x640 ![0, 3, 3] · slices_S16x364x644_S16x360x640_0_3_3) : (⟨S16x364x644, .f32⟩ : BufTy).Contents (Elt F) → (⟨S16x360x640, .f32⟩ : BufTy).Contents (Elt F)),
    binary main_v28 main_v29 main_v30 (maximumf : (⟨S16x360x640, .f32⟩ : BufTy).Contents (Elt F) → (⟨S16x360x640, .f32⟩ : BufTy).Contents (Elt F) → (⟨S16x360x640, .f32⟩ : BufTy).Contents (Elt F)),
    unary main_v1 main_v31 ((extractStridedSlice S16x360x640 ![0, 3, 4] · slices_S16x364x644_S16x360x640_0_3_4) : (⟨S16x364x644, .f32⟩ : BufTy).Contents (Elt F) → (⟨S16x360x640, .f32⟩ : BufTy).Contents (Elt F)),
    binary main_v30 main_v31 main_v32 (maximumf : (⟨S16x360x640, .f32⟩ : BufTy).Contents (Elt F) → (⟨S16x360x640, .f32⟩ : BufTy).Contents (Elt F) → (⟨S16x360x640, .f32⟩ : BufTy).Contents (Elt F)),
    unary main_v1 main_v33 ((extractStridedSlice S16x360x640 ![0, 4, 2] · slices_S16x364x644_S16x360x640_0_4_2) : (⟨S16x364x644, .f32⟩ : BufTy).Contents (Elt F) → (⟨S16x360x640, .f32⟩ : BufTy).Contents (Elt F)),
    binary main_v32 main_v33 main_v34 (maximumf : (⟨S16x360x640, .f32⟩ : BufTy).Contents (Elt F) → (⟨S16x360x640, .f32⟩ : BufTy).Contents (Elt F) → (⟨S16x360x640, .f32⟩ : BufTy).Contents (Elt F)) ]

theorem opsA1_sub : (opsA1 : List (HloOp τ sig (Elt F))).Forall fun op => op.bufs ⊆ tcRefs τ sig := by
  simp only [List.Forall]
  exact ⟨unary_bufs_sub .., nullary_bufs_sub .., unary_bufs_sub .., binary_bufs_sub .., unary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub ..⟩

theorem opsA1_fresh : (opsA1 : List (HloOp τ sig (Elt F))).Forall fun op => op.fresh = ∅ := by
  simp only [List.Forall]; repeat' constructor

/-- Operations 38 … 62 of @main, in order. -/
abbrev opsA2 : List (HloOp τ sig (Elt F)) :=
  [ nullary main_cst_0 (constant S_ .f32 0x4E6E6B28#32),
    TRef.unary (TRef.of (T := ⟨S_, .f32⟩) main_cst_0) (TRef.of (T := ⟨S_, .f32⟩) main_call1_v0) id,
    TRef.binary (TRef.of (T := ⟨S16x360x640, .f32⟩) main_v0) (TRef.of (T := ⟨S_, .f32⟩) main_call1_v0) (TRef.of (T := ⟨S16x364x644, .f32⟩) main_v35) (fun x v => pad S16x364x644 ![0, 2, 2] ![0, 2, 2] ![0, 0, 0] x v pads_S16x360x640_S16x364x644_000_220_220 h_S_),
    unary main_v35 main_v36 ((extractStridedSlice S16x360x640 ![0, 0, 2] · slices_S16x364x644_S16x360x640_0_0_2) : (⟨S16x364x644, .f32⟩ : BufTy).Contents (Elt F) → (⟨S16x360x640, .f32⟩ : BufTy).Contents (Elt F)),
    unary main_v35 main_v37 ((extractStridedSlice S16x360x640 ![0, 1, 0] · slices_S16x364x644_S16x360x640_0_1_0) : (⟨S16x364x644, .f32⟩ : BufTy).Contents (Elt F) → (⟨S16x360x640, .f32⟩ : BufTy).Contents (Elt F)),
    binary main_v36 main_v37 main_v38 (minimumf : (⟨S16x360x640, .f32⟩ : BufTy).Contents (Elt F) → (⟨S16x360x640, .f32⟩ : BufTy).Contents (Elt F) → (⟨S16x360x640, .f32⟩ : BufTy).Contents (Elt F)),
    unary main_v35 main_v39 ((extractStridedSlice S16x360x640 ![0, 1, 1] · slices_S16x364x644_S16x360x640_0_1_1) : (⟨S16x364x644, .f32⟩ : BufTy).Contents (Elt F) → (⟨S16x360x640, .f32⟩ : BufTy).Contents (Elt F)),
    binary main_v38 main_v39 main_v40 (minimumf : (⟨S16x360x640, .f32⟩ : BufTy).Contents (Elt F) → (⟨S16x360x640, .f32⟩ : BufTy).Contents (Elt F) → (⟨S16x360x640, .f32⟩ : BufTy).Contents (Elt F)),
    unary main_v35 main_v41 ((extractStridedSlice S16x360x640 ![0, 1, 2] · slices_S16x364x644_S16x360x640_0_1_2) : (⟨S16x364x644, .f32⟩ : BufTy).Contents (Elt F) → (⟨S16x360x640, .f32⟩ : BufTy).Contents (Elt F)),
    binary main_v40 main_v41 main_v42 (minimumf : (⟨S16x360x640, .f32⟩ : BufTy).Contents (Elt F) → (⟨S16x360x640, .f32⟩ : BufTy).Contents (Elt F) → (⟨S16x360x640, .f32⟩ : BufTy).Contents (Elt F)),
    unary main_v35 main_v43 ((extractStridedSlice S16x360x640 ![0, 1, 3] · slices_S16x364x644_S16x360x640_0_1_3) : (⟨S16x364x644, .f32⟩ : BufTy).Contents (Elt F) → (⟨S16x360x640, .f32⟩ : BufTy).Contents (Elt F)),
    binary main_v42 main_v43 main_v44 (minimumf : (⟨S16x360x640, .f32⟩ : BufTy).Contents (Elt F) → (⟨S16x360x640, .f32⟩ : BufTy).Contents (Elt F) → (⟨S16x360x640, .f32⟩ : BufTy).Contents (Elt F)),
    unary main_v35 main_v45 ((extractStridedSlice S16x360x640 ![0, 1, 4] · slices_S16x364x644_S16x360x640_0_1_4) : (⟨S16x364x644, .f32⟩ : BufTy).Contents (Elt F) → (⟨S16x360x640, .f32⟩ : BufTy).Contents (Elt F)),
    binary main_v44 main_v45 main_v46 (minimumf : (⟨S16x360x640, .f32⟩ : BufTy).Contents (Elt F) → (⟨S16x360x640, .f32⟩ : BufTy).Contents (Elt F) → (⟨S16x360x640, .f32⟩ : BufTy).Contents (Elt F)),
    unary main_v35 main_v47 ((extractStridedSlice S16x360x640 ![0, 2, 0] · slices_S16x364x644_S16x360x640_0_2_0) : (⟨S16x364x644, .f32⟩ : BufTy).Contents (Elt F) → (⟨S16x360x640, .f32⟩ : BufTy).Contents (Elt F)),
    binary main_v46 main_v47 main_v48 (minimumf : (⟨S16x360x640, .f32⟩ : BufTy).Contents (Elt F) → (⟨S16x360x640, .f32⟩ : BufTy).Contents (Elt F) → (⟨S16x360x640, .f32⟩ : BufTy).Contents (Elt F)),
    unary main_v35 main_v49 ((extractStridedSlice S16x360x640 ![0, 2, 1] · slices_S16x364x644_S16x360x640_0_2_1) : (⟨S16x364x644, .f32⟩ : BufTy).Contents (Elt F) → (⟨S16x360x640, .f32⟩ : BufTy).Contents (Elt F)),
    binary main_v48 main_v49 main_v50 (minimumf : (⟨S16x360x640, .f32⟩ : BufTy).Contents (Elt F) → (⟨S16x360x640, .f32⟩ : BufTy).Contents (Elt F) → (⟨S16x360x640, .f32⟩ : BufTy).Contents (Elt F)),
    unary main_v35 main_v51 ((extractStridedSlice S16x360x640 ![0, 2, 2] · slices_S16x364x644_S16x360x640_0_2_2) : (⟨S16x364x644, .f32⟩ : BufTy).Contents (Elt F) → (⟨S16x360x640, .f32⟩ : BufTy).Contents (Elt F)),
    binary main_v50 main_v51 main_v52 (minimumf : (⟨S16x360x640, .f32⟩ : BufTy).Contents (Elt F) → (⟨S16x360x640, .f32⟩ : BufTy).Contents (Elt F) → (⟨S16x360x640, .f32⟩ : BufTy).Contents (Elt F)),
    unary main_v35 main_v53 ((extractStridedSlice S16x360x640 ![0, 2, 3] · slices_S16x364x644_S16x360x640_0_2_3) : (⟨S16x364x644, .f32⟩ : BufTy).Contents (Elt F) → (⟨S16x360x640, .f32⟩ : BufTy).Contents (Elt F)),
    binary main_v52 main_v53 main_v54 (minimumf : (⟨S16x360x640, .f32⟩ : BufTy).Contents (Elt F) → (⟨S16x360x640, .f32⟩ : BufTy).Contents (Elt F) → (⟨S16x360x640, .f32⟩ : BufTy).Contents (Elt F)),
    unary main_v35 main_v55 ((extractStridedSlice S16x360x640 ![0, 2, 4] · slices_S16x364x644_S16x360x640_0_2_4) : (⟨S16x364x644, .f32⟩ : BufTy).Contents (Elt F) → (⟨S16x360x640, .f32⟩ : BufTy).Contents (Elt F)),
    binary main_v54 main_v55 main_v56 (minimumf : (⟨S16x360x640, .f32⟩ : BufTy).Contents (Elt F) → (⟨S16x360x640, .f32⟩ : BufTy).Contents (Elt F) → (⟨S16x360x640, .f32⟩ : BufTy).Contents (Elt F)),
    unary main_v35 main_v57 ((extractStridedSlice S16x360x640 ![0, 3, 0] · slices_S16x364x644_S16x360x640_0_3_0) : (⟨S16x364x644, .f32⟩ : BufTy).Contents (Elt F) → (⟨S16x360x640, .f32⟩ : BufTy).Contents (Elt F)) ]

theorem opsA2_sub : (opsA2 : List (HloOp τ sig (Elt F))).Forall fun op => op.bufs ⊆ tcRefs τ sig := by
  simp only [List.Forall]
  exact ⟨nullary_bufs_sub .., unary_bufs_sub .., binary_bufs_sub .., unary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub ..⟩

theorem opsA2_fresh : (opsA2 : List (HloOp τ sig (Elt F))).Forall fun op => op.fresh = ∅ := by
  simp only [List.Forall]; repeat' constructor

/-- Operations 63 … 82 of @main, in order. -/
abbrev opsB1 : List (HloOp τ sig (Elt F)) :=
  [ binary main_v56 main_v57 main_v58 (minimumf : (⟨S16x360x640, .f32⟩ : BufTy).Contents (Elt F) → (⟨S16x360x640, .f32⟩ : BufTy).Contents (Elt F) → (⟨S16x360x640, .f32⟩ : BufTy).Contents (Elt F)),
    unary main_v35 main_v59 ((extractStridedSlice S16x360x640 ![0, 3, 1] · slices_S16x364x644_S16x360x640_0_3_1) : (⟨S16x364x644, .f32⟩ : BufTy).Contents (Elt F) → (⟨S16x360x640, .f32⟩ : BufTy).Contents (Elt F)),
    binary main_v58 main_v59 main_v60 (minimumf : (⟨S16x360x640, .f32⟩ : BufTy).Contents (Elt F) → (⟨S16x360x640, .f32⟩ : BufTy).Contents (Elt F) → (⟨S16x360x640, .f32⟩ : BufTy).Contents (Elt F)),
    unary main_v35 main_v61 ((extractStridedSlice S16x360x640 ![0, 3, 2] · slices_S16x364x644_S16x360x640_0_3_2) : (⟨S16x364x644, .f32⟩ : BufTy).Contents (Elt F) → (⟨S16x360x640, .f32⟩ : BufTy).Contents (Elt F)),
    binary main_v60 main_v61 main_v62 (minimumf : (⟨S16x360x640, .f32⟩ : BufTy).Contents (Elt F) → (⟨S16x360x640, .f32⟩ : BufTy).Contents (Elt F) → (⟨S16x360x640, .f32⟩ : BufTy).Contents (Elt F)),
    unary main_v35 main_v63 ((extractStridedSlice S16x360x640 ![0, 3, 3] · slices_S16x364x644_S16x360x640_0_3_3) : (⟨S16x364x644, .f32⟩ : BufTy).Contents (Elt F) → (⟨S16x360x640, .f32⟩ : BufTy).Contents (Elt F)),
    binary main_v62 main_v63 main_v64 (minimumf : (⟨S16x360x640, .f32⟩ : BufTy).Contents (Elt F) → (⟨S16x360x640, .f32⟩ : BufTy).Contents (Elt F) → (⟨S16x360x640, .f32⟩ : BufTy).Contents (Elt F)),
    unary main_v35 main_v65 ((extractStridedSlice S16x360x640 ![0, 3, 4] · slices_S16x364x644_S16x360x640_0_3_4) : (⟨S16x364x644, .f32⟩ : BufTy).Contents (Elt F) → (⟨S16x360x640, .f32⟩ : BufTy).Contents (Elt F)),
    binary main_v64 main_v65 main_v66 (minimumf : (⟨S16x360x640, .f32⟩ : BufTy).Contents (Elt F) → (⟨S16x360x640, .f32⟩ : BufTy).Contents (Elt F) → (⟨S16x360x640, .f32⟩ : BufTy).Contents (Elt F)),
    unary main_v35 main_v67 ((extractStridedSlice S16x360x640 ![0, 4, 2] · slices_S16x364x644_S16x360x640_0_4_2) : (⟨S16x364x644, .f32⟩ : BufTy).Contents (Elt F) → (⟨S16x360x640, .f32⟩ : BufTy).Contents (Elt F)),
    binary main_v66 main_v67 main_v68 (minimumf : (⟨S16x360x640, .f32⟩ : BufTy).Contents (Elt F) → (⟨S16x360x640, .f32⟩ : BufTy).Contents (Elt F) → (⟨S16x360x640, .f32⟩ : BufTy).Contents (Elt F)),
    binary main_v34 main_v68 main_v69 (subf : (⟨S16x360x640, .f32⟩ : BufTy).Contents (Elt F) → (⟨S16x360x640, .f32⟩ : BufTy).Contents (Elt F) → (⟨S16x360x640, .f32⟩ : BufTy).Contents (Elt F)),
    nullary main_cst_1 (constant S_ .f32 0x00000000#32),
    unary main_cst_1 main_v70 (broadcastInDim S16x360x640 ![] bcast_S_S16x360x640 : (⟨S_, .f32⟩ : BufTy).Contents (Elt F) → (⟨S16x360x640, .f32⟩ : BufTy).Contents (Elt F)),
    binary main_v69 main_v70 main_v71 (cmpf .ogt : (⟨S16x360x640, .f32⟩ : BufTy).Contents (Elt F) → (⟨S16x360x640, .f32⟩ : BufTy).Contents (Elt F) → (⟨S16x360x640, .i1⟩ : BufTy).Contents (Elt F)),
    nullary main_cst_2 (constant S_ .f32 0x41200000#32),
    nullary main_cst_3 (constant S_ .f32 0x3F800000#32),
    TRef.unary (TRef.of (T := ⟨S_, .f32⟩) main_cst_2) (TRef.of (T := ⟨S16x360x640, .f32⟩) main_call2_v0) (broadcastInDim S16x360x640 ![] bcast_S_S16x360x640),
    TRef.unary (TRef.of (T := ⟨S_, .f32⟩) main_cst_3) (TRef.of (T := ⟨S16x360x640, .f32⟩) main_call2_v1) (broadcastInDim S16x360x640 ![] bcast_S_S16x360x640),
    TRef.ternary (TRef.of (T := ⟨S16x360x640, .i1⟩) main_v71) (TRef.of (T := ⟨S16x360x640, .f32⟩) main_call2_v0) (TRef.of (T := ⟨S16x360x640, .f32⟩) main_call2_v1) (TRef.of (T := ⟨S16x360x640, .f32⟩) main_v72) select ]

theorem opsB1_sub : (opsB1 : List (HloOp τ sig (Elt F))).Forall fun op => op.bufs ⊆ tcRefs τ sig := by
  simp only [List.Forall]
  exact ⟨binary_bufs_sub .., unary_bufs_sub .., binary_bufs_sub .., unary_bufs_sub .., binary_bufs_sub .., unary_bufs_sub .., binary_bufs_sub .., unary_bufs_sub .., binary_bufs_sub .., unary_bufs_sub .., binary_bufs_sub .., binary_bufs_sub .., nullary_bufs_sub .., unary_bufs_sub .., binary_bufs_sub .., nullary_bufs_sub .., nullary_bufs_sub .., unary_bufs_sub .., unary_bufs_sub .., ternary_bufs_sub ..⟩

theorem opsB1_fresh : (opsB1 : List (HloOp τ sig (Elt F))).Forall fun op => op.fresh = ∅ := by
  simp only [List.Forall]; repeat' constructor

/-- Operations 83 … 97 of @main, in order. -/
abbrev opsB2 : List (HloOp τ sig (Elt F)) :=
  [ TRef.nullary (TRef.of (T := ⟨S_, .f32⟩) main_call3_cst) (constant S_ .f32 0xFF800000#32),
    TRef.binary (TRef.of (T := ⟨S16x7x360x640, .f32⟩) main_arg0) (TRef.of (T := ⟨S_, .f32⟩) main_call3_cst) (TRef.of (T := ⟨S16x360x640, .f32⟩) main_call3_v0) (fun x v => Host.reduce FloatOps.maximumf x v reducesTo_S16x7x360x640_S16x360x640_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S16x360x640, .f32⟩) main_call3_v1) (broadcastInDim S16x360x640 ![] bcast_S_S16x360x640),
    TRef.binary (TRef.of (T := ⟨S16x360x640, .f32⟩) main_call3_v1) (TRef.of (T := ⟨S16x360x640, .f32⟩) main_call3_v0) (TRef.of (T := ⟨S16x360x640, .f32⟩) main_call3_v2) maximumf,
    TRef.unary (TRef.of (T := ⟨S16x360x640, .f32⟩) main_call3_v2) (TRef.of (T := ⟨S16x1x360x640, .f32⟩) main_call3_v3) (broadcastInDim S16x1x360x640 ![0, 2, 3] bcast_S16x360x640_S16x1x360x640_0_2_3),
    TRef.unary (TRef.of (T := ⟨S16x1x360x640, .f32⟩) main_call3_v3) (TRef.of (T := ⟨S16x7x360x640, .f32⟩) main_call3_v4) (broadcastInDim S16x7x360x640 ![0, 1, 2, 3] bcast_S16x1x360x640_S16x7x360x640_0_1_2_3),
    TRef.binary (TRef.of (T := ⟨S16x7x360x640, .f32⟩) main_arg0) (TRef.of (T := ⟨S16x7x360x640, .f32⟩) main_call3_v4) (TRef.of (T := ⟨S16x7x360x640, .f32⟩) main_call3_v5) subf,
    TRef.unary (TRef.of (T := ⟨S16x7x360x640, .f32⟩) main_call3_v5) (TRef.of (T := ⟨S16x7x360x640, .f32⟩) main_call3_v6) Host.exp,
    TRef.nullary (TRef.of (T := ⟨S_, .f32⟩) main_call3_cst_1) (constant S_ .f32 0x00000000#32),
    TRef.binary (TRef.of (T := ⟨S16x7x360x640, .f32⟩) main_call3_v6) (TRef.of (T := ⟨S_, .f32⟩) main_call3_cst_1) (TRef.of (T := ⟨S16x360x640, .f32⟩) main_call3_v7) (fun x v => Host.reduceAdd x v reducesTo_S16x7x360x640_S16x360x640_d1 h_S_),
    TRef.unary (TRef.of (T := ⟨S16x360x640, .f32⟩) main_call3_v7) (TRef.of (T := ⟨S16x1x360x640, .f32⟩) main_call3_v8) (broadcastInDim S16x1x360x640 ![0, 2, 3] bcast_S16x360x640_S16x1x360x640_0_2_3),
    TRef.unary (TRef.of (T := ⟨S16x1x360x640, .f32⟩) main_call3_v8) (TRef.of (T := ⟨S16x1x360x640, .f32⟩) main_call3_v9) Host.log,
    TRef.unary (TRef.of (T := ⟨S16x1x360x640, .f32⟩) main_call3_v9) (TRef.of (T := ⟨S16x7x360x640, .f32⟩) main_call3_v10) (broadcastInDim S16x7x360x640 ![0, 1, 2, 3] bcast_S16x1x360x640_S16x7x360x640_0_1_2_3),
    TRef.binary (TRef.of (T := ⟨S16x7x360x640, .f32⟩) main_call3_v5) (TRef.of (T := ⟨S16x7x360x640, .f32⟩) main_call3_v10) (TRef.of (T := ⟨S16x7x360x640, .f32⟩) main_v73) subf ]

theorem opsB2_sub : (opsB2 : List (HloOp τ sig (Elt F))).Forall fun op => op.bufs ⊆ tcRefs τ sig := by
  simp only [List.Forall]
  exact ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsB2_fresh : (opsB2 : List (HloOp τ sig (Elt F))).Forall fun op => op.fresh = ∅ := by
  simp only [List.Forall]; repeat' constructor

/-- Operations 98 … 105 of @main, in order. -/
abbrev opsB3a : List (HloOp τ sig (Elt F)) :=
  [ unary main_arg1 main_v74 (broadcastInDim S16x1x360x640 ![0, 2, 3] bcast_S16x360x640_S16x1x360x640_0_2_3 : (⟨S16x360x640, .i32⟩ : BufTy).Contents (Elt F) → (⟨S16x1x360x640, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S16x1x360x640, .i32⟩) main_call4_v0) (broadcastInDim S16x1x360x640 ![] bcast_S_S16x1x360x640),
    TRef.binary (TRef.of (T := ⟨S16x1x360x640, .i32⟩) main_v74) (TRef.of (T := ⟨S16x1x360x640, .i32⟩) main_call4_v0) (TRef.of (T := ⟨S16x1x360x640, .i1⟩) main_call4_v1) (cmpi .slt),
    TRef.nullary (TRef.of (T := ⟨S_, .i32⟩) main_call4_c_0) (constantI S_ 32 7#32),
    TRef.unary (TRef.of (T := ⟨S_, .i32⟩) main_call4_c_0) (TRef.of (T := ⟨S16x1x360x640, .i32⟩) main_call4_v2) (broadcastInDim S16x1x360x640 ![] bcast_S_S16x1x360x640),
    TRef.binary (TRef.of (T := ⟨S16x1x360x640, .i32⟩) main_v74) (TRef.of (T := ⟨S16x1x360x640, .i32⟩) main_call4_v2) (TRef.of (T := ⟨S16x1x360x640, .i32⟩) main_call4_v3) addi,
    TRef.ternary (TRef.of (T := ⟨S16x1x360x640, .i1⟩) main_call4_v1) (TRef.of (T := ⟨S16x1x360x640, .i32⟩) main_call4_v3) (TRef.of (T := ⟨S16x1x360x640, .i32⟩) main_v74) (TRef.of (T := ⟨S16x1x360x640, .i32⟩) main_call4_v4) select ]

theorem opsB3a_sub : (opsB3a : List (HloOp τ sig (Elt F))).Forall fun op => op.bufs ⊆ tcRefs τ sig := by
  simp only [List.Forall]
  exact ⟨unary_bufs_sub .., nullary_bufs_sub .., unary_bufs_sub .., binary_bufs_sub .., nullary_bufs_sub .., unary_bufs_sub .., binary_bufs_sub .., ternary_bufs_sub ..⟩

theorem opsB3a_fresh : (opsB3a : List (HloOp τ sig (Elt F))).Forall fun op => op.fresh = ∅ := by
  simp only [List.Forall]; repeat' constructor

/-- Operations 106 … 106 of @main, in order. -/
abbrev opsB3b : List (HloOp τ sig (Elt F)) :=
  [ TRef.reshape (TRef.of (T := ⟨S16x1x360x640, .i32⟩) main_call4_v4) (TRef.of (T := ⟨S16x1x360x640x1, .i32⟩) main_call4_v5) rfl shapeCasts_S16x1x360x640_S16x1x360x640x1 ]

theorem opsB3b_sub : (opsB3b : List (HloOp τ sig (Elt F))).Forall fun op => op.bufs ⊆ tcRefs τ sig := by
  simp only [List.Forall]
  exact reshape_bufs_sub ..

theorem opsB3b_fresh : (opsB3b : List (HloOp τ sig (Elt F))).Forall fun op => op.fresh = ∅ := by
  simp only [List.Forall]; repeat' constructor

/-- Operations 107 … 116 of @main, in order. -/
abbrev opsB3c : List (HloOp τ sig (Elt F)) :=
  [ TRef.nullary (TRef.of (T := ⟨S1, .i32⟩) main_call4_c_1) (constantI S1 32 6#32),
    TRef.nullary (TRef.of (T := ⟨S_, .i32⟩) main_call4_c_2) (constantI S_ 32 0#32),
    TRef.unary (TRef.of (T := ⟨S_, .i32⟩) main_call4_c_2) (TRef.of (T := ⟨S16x1x360x640x1, .i32⟩) main_call4_v6) (broadcastInDim S16x1x360x640x1 ![] bcast_S_S16x1x360x640x1),
    TRef.binary (TRef.of (T := ⟨S16x1x360x640x1, .i32⟩) main_call4_v5) (TRef.of (T := ⟨S16x1x360x640x1, .i32⟩) main_call4_v6) (TRef.of (T := ⟨S16x1x360x640x1, .i1⟩) main_call4_v7) (cmpi .sge),
    TRef.unary (TRef.of (T := ⟨S1, .i32⟩) main_call4_c_1) (TRef.of (T := ⟨S1x1x1x1x1, .i32⟩) main_call4_v8) (broadcastInDim S1x1x1x1x1 ![4] bcast_S1_S1x1x1x1x1_4),
    TRef.unary (TRef.of (T := ⟨S1x1x1x1x1, .i32⟩) main_call4_v8) (TRef.of (T := ⟨S16x1x360x640x1, .i32⟩) main_call4_v9) (broadcastInDim S16x1x360x640x1 ![0, 1, 2, 3, 4] bcast_S1x1x1x1x1_S16x1x360x640x1_0_1_2_3_4),
    TRef.binary (TRef.of (T := ⟨S16x1x360x640x1, .i32⟩) main_call4_v5) (TRef.of (T := ⟨S16x1x360x640x1, .i32⟩) main_call4_v9) (TRef.of (T := ⟨S16x1x360x640x1, .i1⟩) main_call4_v10) (cmpi .sle),
    TRef.binary (TRef.of (T := ⟨S16x1x360x640x1, .i1⟩) main_call4_v7) (TRef.of (T := ⟨S16x1x360x640x1, .i1⟩) main_call4_v10) (TRef.of (T := ⟨S16x1x360x640x1, .i1⟩) main_call4_v11) andi,
    TRef.nullary (TRef.of (T := ⟨S_, .i1⟩) main_call4_c_3) (constantI S_ 1 1#1),
    TRef.binary (TRef.of (T := ⟨S16x1x360x640x1, .i1⟩) main_call4_v11) (TRef.of (T := ⟨S_, .i1⟩) main_call4_c_3) (TRef.of (T := ⟨S16x1x360x640, .i1⟩) main_call4_v12) (fun x v => Host.reduce IntOp.andi x v reducesTo_S16x1x360x640x1_S16x1x360x640_d4 h_S_) ]

theorem opsB3c_sub : (opsB3c : List (HloOp τ sig (Elt F))).Forall fun op => op.bufs ⊆ tcRefs τ sig := by
  simp only [List.Forall]
  exact ⟨nullary_bufs_sub .., nullary_bufs_sub .., unary_bufs_sub .., binary_bufs_sub .., unary_bufs_sub .., unary_bufs_sub .., binary_bufs_sub .., binary_bufs_sub .., nullary_bufs_sub .., binary_bufs_sub ..⟩

theorem opsB3c_fresh : (opsB3c : List (HloOp τ sig (Elt F))).Forall fun op => op.fresh = ∅ := by
  simp only [List.Forall]; repeat' constructor

/-- Operations 117 … 120 of @main, in order. -/
abbrev opsB3d : List (HloOp τ sig (Elt F)) :=
  [ TRef.binary (TRef.of (T := ⟨S16x7x360x640, .f32⟩) main_v73) (TRef.of (T := ⟨S16x1x360x640x1, .i32⟩) main_call4_v5) (TRef.of (T := ⟨S16x1x360x640, .f32⟩) main_call4_v13) (fun x i => Host.gather gather_S16x7x360x640_S16x1x360x640x1_S16x1x360x640_n_1_023_023_1_4_1111 x i),
    TRef.nullary (TRef.of (T := ⟨S_, .f32⟩) main_call4_cst) (constant S_ .f32 0x7FC00000#32),
    TRef.unary (TRef.of (T := ⟨S_, .f32⟩) main_call4_cst) (TRef.of (T := ⟨S16x1x360x640, .f32⟩) main_call4_v14) (broadcastInDim S16x1x360x640 ![] bcast_S_S16x1x360x640),
    TRef.ternary (TRef.of (T := ⟨S16x1x360x640, .i1⟩) main_call4_v12) (TRef.of (T := ⟨S16x1x360x640, .f32⟩) main_call4_v13) (TRef.of (T := ⟨S16x1x360x640, .f32⟩) main_call4_v14) (TRef.of (T := ⟨S16x1x360x640, .f32⟩) main_v75) select ]

theorem opsB3d_sub : (opsB3d : List (HloOp τ sig (Elt F))).Forall fun op => op.bufs ⊆ tcRefs τ sig := by
  simp only [List.Forall]
  exact ⟨binary_bufs_sub .., nullary_bufs_sub .., unary_bufs_sub .., ternary_bufs_sub ..⟩

theorem opsB3d_fresh : (opsB3d : List (HloOp τ sig (Elt F))).Forall fun op => op.fresh = ∅ := by
  simp only [List.Forall]; repeat' constructor

/-- Operations 121 … 128 of @main, in order. -/
abbrev opsB4 : List (HloOp τ sig (Elt F)) :=
  [ reshape main_v75 main_v76 rfl shapeCasts_S16x1x360x640_S16x360x640,
    unary main_v76 main_v77 (Host.negf : (⟨S16x360x640, .f32⟩ : BufTy).Contents (Elt F) → (⟨S16x360x640, .f32⟩ : BufTy).Contents (Elt F)),
    unary main_v72 main_v78 (id : (⟨S16x360x640, .f32⟩ : BufTy).Contents (Elt F) → (⟨S16x360x640, .f32⟩ : BufTy).Contents (Elt F)),
    binary main_v77 main_v78 main_v79 (mulf : (⟨S16x360x640, .f32⟩ : BufTy).Contents (Elt F) → (⟨S16x360x640, .f32⟩ : BufTy).Contents (Elt F) → (⟨S16x360x640, .f32⟩ : BufTy).Contents (Elt F)),
    nullary main_cst_4 (constant S_ .f32 0x00000000#32),
    binary main_v79 main_cst_4 main_v80 ((fun x v => Host.reduceAdd x v reducesTo_S16x360x640_S_d0_1_2 h_S_) : (⟨S16x360x640, .f32⟩ : BufTy).Contents (Elt F) → (⟨S_, .f32⟩ : BufTy).Contents (Elt F) → (⟨S_, .f32⟩ : BufTy).Contents (Elt F)),
    nullary main_cst_5 (constant S_ .f32 0x4A610000#32),
    binary main_v80 main_cst_5 main_v81 (Host.divf : (⟨S_, .f32⟩ : BufTy).Contents (Elt F) → (⟨S_, .f32⟩ : BufTy).Contents (Elt F) → (⟨S_, .f32⟩ : BufTy).Contents (Elt F)) ]

theorem opsB4_sub : (opsB4 : List (HloOp τ sig (Elt F))).Forall fun op => op.bufs ⊆ tcRefs τ sig := by
  simp only [List.Forall]
  exact ⟨reshape_bufs_sub .., unary_bufs_sub .., unary_bufs_sub .., binary_bufs_sub .., nullary_bufs_sub .., binary_bufs_sub .., nullary_bufs_sub .., binary_bufs_sub ..⟩

theorem opsB4_fresh : (opsB4 : List (HloOp τ sig (Elt F))).Forall fun op => op.fresh = ∅ := by
  simp only [List.Forall]; repeat' constructor

/-! ## @main is the nine stretches in order -/

set_option maxRecDepth 8192 in
set_option maxHeartbeats 4000000 in
theorem main_part0_eq (c : Dev nD) : main_part0 (F := F) c = seq (opsA1 ++ opsA2) := rfl

set_option maxRecDepth 8192 in
set_option maxHeartbeats 4000000 in
theorem main_part1_eq (c : Dev nD) : main_part1 (F := F) c = seq (opsB1 ++ opsB2 ++ opsB3a ++ opsB3b ++ opsB3c ++ opsB3d ++ opsB4) := rfl

/-- The whole line. -/
abbrev ops : List (HloOp τ sig (Elt F)) := (opsA1 ++ opsA2) ++ (opsB1 ++ opsB2 ++ opsB3a ++ opsB3b ++ opsB3c ++ opsB3d ++ opsB4)

theorem main_eq (c : Dev nD) : main (F := F) c = seq ops := by
  simp only [ops, seq_append (opsA1 ++ opsA2) (opsB1 ++ opsB2 ++ opsB3a ++ opsB3b ++ opsB3c ++ opsB3d ++ opsB4), ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ opsA1 ∨ op ∈ opsA2 ∨ op ∈ opsB1 ∨ op ∈ opsB2 ∨ op ∈ opsB3a ∨ op ∈ opsB3b ∨ op ∈ opsB3c ∨ op ∈ opsB3d
      ∨ op ∈ (opsB4 : List (HloOp τ sig (Elt F))) := by
  simp only [ops, List.mem_append] at h
  tauto

theorem ops_sub : (ops : List (HloOp τ sig (Elt F))).Forall fun op => op.bufs ⊆ tcRefs τ sig :=
  List.forall_iff_forall_mem.mpr fun op h => by
    rcases mem_ops h with h | h | h | h | h | h | h | h | h
    exacts [List.forall_iff_forall_mem.mp opsA1_sub op h,
      List.forall_iff_forall_mem.mp opsA2_sub op h,
      List.forall_iff_forall_mem.mp opsB1_sub op h,
      List.forall_iff_forall_mem.mp opsB2_sub op h,
      List.forall_iff_forall_mem.mp opsB3a_sub op h,
      List.forall_iff_forall_mem.mp opsB3b_sub op h,
      List.forall_iff_forall_mem.mp opsB3c_sub op h,
      List.forall_iff_forall_mem.mp opsB3d_sub op h,
      List.forall_iff_forall_mem.mp opsB4_sub op h]

theorem ops_fresh : ∀ op ∈ (ops : List (HloOp τ sig (Elt F))), op.fresh = ∅ := fun op h => by
  rcases mem_ops h with h | h | h | h | h | h | h | h | h
  exacts [List.forall_iff_forall_mem.mp opsA1_fresh op h,
      List.forall_iff_forall_mem.mp opsA2_fresh op h,
      List.forall_iff_forall_mem.mp opsB1_fresh op h,
      List.forall_iff_forall_mem.mp opsB2_fresh op h,
      List.forall_iff_forall_mem.mp opsB3a_fresh op h,
      List.forall_iff_forall_mem.mp opsB3b_fresh op h,
      List.forall_iff_forall_mem.mp opsB3c_fresh op h,
      List.forall_iff_forall_mem.mp opsB3d_fresh op h,
      List.forall_iff_forall_mem.mp opsB4_fresh op h]

/-! ## What a stretch leaves alone -/

theorem opsA1_keeps_main_arg0 (W : Valuation τ sig (Elt F)) : after opsA1 W (Proc.devRef .tc main_arg0) = W (Proc.devRef .tc main_arg0) := by
  after_results_simp

theorem opsA1_keeps_main_arg1 (W : Valuation τ sig (Elt F)) : after opsA1 W (Proc.devRef .tc main_arg1) = W (Proc.devRef .tc main_arg1) := by
  after_results_simp

theorem opsA2_keeps_main_arg0 (W : Valuation τ sig (Elt F)) : after opsA2 W (Proc.devRef .tc main_arg0) = W (Proc.devRef .tc main_arg0) := by
  after_results_simp

theorem opsA2_keeps_main_arg1 (W : Valuation τ sig (Elt F)) : after opsA2 W (Proc.devRef .tc main_arg1) = W (Proc.devRef .tc main_arg1) := by
  after_results_simp

theorem opsB1_keeps_main_arg0 (W : Valuation τ sig (Elt F)) : after opsB1 W (Proc.devRef .tc main_arg0) = W (Proc.devRef .tc main_arg0) := by
  after_results_simp

theorem opsB1_keeps_main_arg1 (W : Valuation τ sig (Elt F)) : after opsB1 W (Proc.devRef .tc main_arg1) = W (Proc.devRef .tc main_arg1) := by
  after_results_simp

theorem opsB2_keeps_main_arg0 (W : Valuation τ sig (Elt F)) : after opsB2 W (Proc.devRef .tc main_arg0) = W (Proc.devRef .tc main_arg0) := by
  after_results_simp

theorem opsB2_keeps_main_arg1 (W : Valuation τ sig (Elt F)) : after opsB2 W (Proc.devRef .tc main_arg1) = W (Proc.devRef .tc main_arg1) := by
  after_results_simp

theorem opsB3a_keeps_main_arg0 (W : Valuation τ sig (Elt F)) : after opsB3a W (Proc.devRef .tc main_arg0) = W (Proc.devRef .tc main_arg0) := by
  after_results_simp

theorem opsB3a_keeps_main_arg1 (W : Valuation τ sig (Elt F)) : after opsB3a W (Proc.devRef .tc main_arg1) = W (Proc.devRef .tc main_arg1) := by
  after_results_simp

theorem opsB3b_keeps_main_arg0 (W : Valuation τ sig (Elt F)) : after opsB3b W (Proc.devRef .tc main_arg0) = W (Proc.devRef .tc main_arg0) := by
  after_results_simp

theorem opsB3b_keeps_main_arg1 (W : Valuation τ sig (Elt F)) : after opsB3b W (Proc.devRef .tc main_arg1) = W (Proc.devRef .tc main_arg1) := by
  after_results_simp

theorem opsB3c_keeps_main_arg0 (W : Valuation τ sig (Elt F)) : after opsB3c W (Proc.devRef .tc main_arg0) = W (Proc.devRef .tc main_arg0) := by
  after_results_simp

theorem opsB3c_keeps_main_arg1 (W : Valuation τ sig (Elt F)) : after opsB3c W (Proc.devRef .tc main_arg1) = W (Proc.devRef .tc main_arg1) := by
  after_results_simp

theorem opsB3d_keeps_main_arg0 (W : Valuation τ sig (Elt F)) : after opsB3d W (Proc.devRef .tc main_arg0) = W (Proc.devRef .tc main_arg0) := by
  after_results_simp

theorem opsB3d_keeps_main_arg1 (W : Valuation τ sig (Elt F)) : after opsB3d W (Proc.devRef .tc main_arg1) = W (Proc.devRef .tc main_arg1) := by
  after_results_simp

theorem opsB4_keeps_main_arg0 (W : Valuation τ sig (Elt F)) : after opsB4 W (Proc.devRef .tc main_arg0) = W (Proc.devRef .tc main_arg0) := by
  after_results_simp

theorem opsB4_keeps_main_arg1 (W : Valuation τ sig (Elt F)) : after opsB4 W (Proc.devRef .tc main_arg1) = W (Proc.devRef .tc main_arg1) := by
  after_results_simp

theorem opsA2_keeps_main_v34 (W : Valuation τ sig (Elt F)) : after opsA2 W (Proc.devRef .tc main_v34) = W (Proc.devRef .tc main_v34) := by
  after_results_simp

theorem opsB2_keeps_main_v72 (W : Valuation τ sig (Elt F)) : after opsB2 W (Proc.devRef .tc main_v72) = W (Proc.devRef .tc main_v72) := by
  after_results_simp

theorem opsB3a_keeps_main_v72 (W : Valuation τ sig (Elt F)) : after opsB3a W (Proc.devRef .tc main_v72) = W (Proc.devRef .tc main_v72) := by
  after_results_simp

theorem opsB3b_keeps_main_v72 (W : Valuation τ sig (Elt F)) : after opsB3b W (Proc.devRef .tc main_v72) = W (Proc.devRef .tc main_v72) := by
  after_results_simp

theorem opsB3c_keeps_main_v72 (W : Valuation τ sig (Elt F)) : after opsB3c W (Proc.devRef .tc main_v72) = W (Proc.devRef .tc main_v72) := by
  after_results_simp

theorem opsB3d_keeps_main_v72 (W : Valuation τ sig (Elt F)) : after opsB3d W (Proc.devRef .tc main_v72) = W (Proc.devRef .tc main_v72) := by
  after_results_simp

theorem opsB3a_keeps_main_v73 (W : Valuation τ sig (Elt F)) : after opsB3a W (Proc.devRef .tc main_v73) = W (Proc.devRef .tc main_v73) := by
  after_results_simp

theorem opsB3b_keeps_main_v73 (W : Valuation τ sig (Elt F)) : after opsB3b W (Proc.devRef .tc main_v73) = W (Proc.devRef .tc main_v73) := by
  after_results_simp

theorem opsB3c_keeps_main_v73 (W : Valuation τ sig (Elt F)) : after opsB3c W (Proc.devRef .tc main_v73) = W (Proc.devRef .tc main_v73) := by
  after_results_simp

theorem opsB3c_keeps_main_call4_v5 (W : Valuation τ sig (Elt F)) : after opsB3c W (Proc.devRef .tc main_call4_v5) = W (Proc.devRef .tc main_call4_v5) := by
  after_results_simp

/-! ## Contents stored through a typed reference

A called function's operations write and read their buffers through typed references, which transport contents along
the equation between the buffer's type and the value's. A value stored and read back through one reference is the
value; and for the few buffers that cross from one stretch to the next, a value stored through the reference is the
value itself (their two types are the same type). -/

theorem ofBuf_toBuf {T : BufTy} (x : TRef sig T) (v : T.Contents (Elt F)) : x.ofBuf (x.toBuf v) = v := by
  obtain ⟨ref, ty_eq, h1, h2⟩ := x
  subst ty_eq
  rfl

theorem toBuf_c4v5 (v : (⟨S16x1x360x640x1, .i32⟩ : BufTy).Contents (Elt F)) :
    (TRef.of (T := ⟨S16x1x360x640x1, .i32⟩) main_call4_v5).toBuf v = v := rfl
theorem toBuf_c4v12 (v : (⟨S16x1x360x640, .i1⟩ : BufTy).Contents (Elt F)) :
    (TRef.of (T := ⟨S16x1x360x640, .i1⟩) main_call4_v12).toBuf v = v := rfl
theorem toBuf_v73 (v : (⟨S16x7x360x640, .f32⟩ : BufTy).Contents (Elt F)) :
    (TRef.of (T := ⟨S16x7x360x640, .f32⟩) main_v73).toBuf v = v := rfl
theorem toBuf_v75 (v : (⟨S16x1x360x640, .f32⟩ : BufTy).Contents (Elt F)) :
    (TRef.of (T := ⟨S16x1x360x640, .f32⟩) main_v75).toBuf v = v := rfl

/-! ## What a stretch leaves in the buffers later stretches read

Each is the stage function of what the stretch reads: of the buffers themselves for the arguments, and of the stage
that an earlier stretch left in a buffer (a hypothesis about the contents the stretch starts from) otherwise. -/

theorem opsA1_v0 (W : Valuation τ sig (Elt F)) :
    after opsA1 W (Proc.devRef .tc main_v0) = val_main_v0 (F := F) (W (Proc.devRef .tc main_arg1)) := by
  after_results_simp <;> rfl

theorem opsA1_v34 (W : Valuation τ sig (Elt F)) :
    after opsA1 W (Proc.devRef .tc main_v34) = val_main_v34 (F := F) (W (Proc.devRef .tc main_arg1)) := by
  after_results_simp <;> rfl

theorem opsA2_v35 (W : Valuation τ sig (Elt F)) (x1 : (⟨S16x360x640, .i32⟩ : BufTy).Contents (Elt F))
    (h0 : W (Proc.devRef .tc main_v0) = val_main_v0 (F := F) x1) :
    after opsA2 W (Proc.devRef .tc main_v35) = val_main_v35 (F := F) x1 := by
  after_results_simp
  rw [h0]; rfl

theorem opsA2_v56 (W : Valuation τ sig (Elt F)) (x1 : (⟨S16x360x640, .i32⟩ : BufTy).Contents (Elt F))
    (h0 : W (Proc.devRef .tc main_v0) = val_main_v0 (F := F) x1) :
    after opsA2 W (Proc.devRef .tc main_v56) = val_main_v56 (F := F) x1 := by
  after_results_simp
  rw [h0]; rfl

theorem opsA2_v57 (W : Valuation τ sig (Elt F)) (x1 : (⟨S16x360x640, .i32⟩ : BufTy).Contents (Elt F))
    (h0 : W (Proc.devRef .tc main_v0) = val_main_v0 (F := F) x1) :
    after opsA2 W (Proc.devRef .tc main_v57) = val_main_v57 (F := F) x1 := by
  after_results_simp
  rw [h0]; rfl

theorem opsB1_v72 (W : Valuation τ sig (Elt F)) (x1 : (⟨S16x360x640, .i32⟩ : BufTy).Contents (Elt F))
    (h34 : W (Proc.devRef .tc main_v34) = val_main_v34 (F := F) x1) (h35 : W (Proc.devRef .tc main_v35) = val_main_v35 (F := F) x1)
    (h56 : W (Proc.devRef .tc main_v56) = val_main_v56 (F := F) x1) (h57 : W (Proc.devRef .tc main_v57) = val_main_v57 (F := F) x1) :
    after opsB1 W (Proc.devRef .tc main_v72) = val_main_v72 (F := F) x1 := by
  after_results_simp
  rw [h34, h35, h56, h57]; rfl

theorem opsB2_v73 (W : Valuation τ sig (Elt F)) :
    after opsB2 W (Proc.devRef .tc main_v73) = val_main_v73 (F := F) (W (Proc.devRef .tc main_arg0)) := by
  after_results_simp
  simp only [ofBuf_toBuf]
  rfl

theorem opsB3a_v4 (W : Valuation τ sig (Elt F)) :
    after opsB3a W (Proc.devRef .tc main_call4_v4) = val_main_call4_v4 (F := F) (W (Proc.devRef .tc main_arg1)) := by
  after_results_simp
  simp only [ofBuf_toBuf]
  rfl

theorem opsB3b_v5 (W : Valuation τ sig (Elt F)) (x1 : (⟨S16x360x640, .i32⟩ : BufTy).Contents (Elt F))
    (h4 : W (Proc.devRef .tc main_call4_v4) = val_main_call4_v4 (F := F) x1) :
    after opsB3b W (Proc.devRef .tc main_call4_v5) = val_main_call4_v5 (F := F) x1 := by
  after_results_simp
  rw [h4]
  rfl

theorem opsB3c_v12 (W : Valuation τ sig (Elt F)) (x1 : (⟨S16x360x640, .i32⟩ : BufTy).Contents (Elt F))
    (h5 : W (Proc.devRef .tc main_call4_v5) = val_main_call4_v5 (F := F) x1) :
    after opsB3c W (Proc.devRef .tc main_call4_v12) = val_main_call4_v12 (F := F) x1 := by
  have h5' := h5.trans (toBuf_c4v5 (val_main_call4_v5 (F := F) x1)).symm
  after_results_simp
  rw [h5']
  simp only [ofBuf_toBuf]
  refine Eq.trans (congrArg _ ?_) (toBuf_c4v12 (val_main_call4_v12 (F := F) x1))
  rfl

theorem opsB3d_v75 (W : Valuation τ sig (Elt F)) (x0 : (⟨S16x7x360x640, .f32⟩ : BufTy).Contents (Elt F))
    (x1 : (⟨S16x360x640, .i32⟩ : BufTy).Contents (Elt F))
    (h73 : W (Proc.devRef .tc main_v73) = val_main_v73 (F := F) x0)
    (h5 : W (Proc.devRef .tc main_call4_v5) = val_main_call4_v5 (F := F) x1)
    (h12 : W (Proc.devRef .tc main_call4_v12) = val_main_call4_v12 (F := F) x1) :
    after opsB3d W (Proc.devRef .tc main_v75) = val_main_v75 (F := F) x0 x1 := by
  have h73' := h73.trans (toBuf_v73 (val_main_v73 (F := F) x0)).symm
  have h5' := h5.trans (toBuf_c4v5 (val_main_call4_v5 (F := F) x1)).symm
  have h12' := h12.trans (toBuf_c4v12 (val_main_call4_v12 (F := F) x1)).symm
  after_results_simp
  rw [h73', h5', h12']
  simp only [ofBuf_toBuf]
  refine Eq.trans (congrArg _ ?_) (toBuf_v75 (val_main_v75 (F := F) x0 x1))
  rfl

theorem opsB4_v81 (W : Valuation τ sig (Elt F)) (x0 : (⟨S16x7x360x640, .f32⟩ : BufTy).Contents (Elt F))
    (x1 : (⟨S16x360x640, .i32⟩ : BufTy).Contents (Elt F))
    (h75 : W (Proc.devRef .tc main_v75) = val_main_v75 (F := F) x0 x1) (h72 : W (Proc.devRef .tc main_v72) = val_main_v72 (F := F) x1) :
    after opsB4 W (Proc.devRef .tc main_v81) = val_main_v81 (F := F) x0 x1 := by
  after_results_simp
  rw [h75, h72]; rfl

/-! ## The whole line -/

theorem after_ops (V : Valuation τ sig (Elt F)) :
    after ops V = after opsB4 (after opsB3d (after opsB3c (after opsB3b (after opsB3a (after opsB2 (after opsB1 (after opsA2 (after opsA1 V)))))))) := by
  simp only [ops, after_app]

/-- The arguments come through the whole line unchanged. -/
theorem after_ops_arg0 (V : Valuation τ sig (Elt F)) : after ops V (Proc.devRef .tc main_arg0) = V (Proc.devRef .tc main_arg0) := by
  rw [after_ops, opsB4_keeps_main_arg0, opsB3d_keeps_main_arg0, opsB3c_keeps_main_arg0, opsB3b_keeps_main_arg0, opsB3a_keeps_main_arg0, opsB2_keeps_main_arg0, opsB1_keeps_main_arg0, opsA2_keeps_main_arg0, opsA1_keeps_main_arg0]
theorem after_ops_arg1 (V : Valuation τ sig (Elt F)) : after ops V (Proc.devRef .tc main_arg1) = V (Proc.devRef .tc main_arg1) := by
  rw [after_ops, opsB4_keeps_main_arg1, opsB3d_keeps_main_arg1, opsB3c_keeps_main_arg1, opsB3b_keeps_main_arg1, opsB3a_keeps_main_arg1, opsB2_keeps_main_arg1, opsB1_keeps_main_arg1, opsA2_keeps_main_arg1, opsA1_keeps_main_arg1]

/-- The result buffer ends at the last stage function of the two arguments. -/
theorem after_ops_v81 (V : Valuation τ sig (Elt F)) :
    after ops V (Proc.devRef .tc main_v81) = val_main_v81 (F := F) (V (Proc.devRef .tc main_arg0)) (V (Proc.devRef .tc main_arg1)) := by
  rw [after_ops]
  -- the erosion's three live buffers and the dilation, after the first two stretches
  have e0 := opsA1_v0 V
  have e34 : (after opsA2 (after opsA1 V)) (Proc.devRef .tc main_v34) = val_main_v34 (F := F) (V (Proc.devRef .tc main_arg1)) := by
    rw [opsA2_keeps_main_v34]; exact opsA1_v34 V
  have e35 := opsA2_v35 (after opsA1 V) _ e0
  have e56 := opsA2_v56 (after opsA1 V) _ e0
  have e57 := opsA2_v57 (after opsA1 V) _ e0
  -- the weight, kept by the next five stretches
  have e72 := opsB1_v72 (after opsA2 (after opsA1 V)) _ e34 e35 e56 e57
  have e72' : (after opsB3d (after opsB3c (after opsB3b (after opsB3a (after opsB2 (after opsB1 (after opsA2 (after opsA1 V)))))))) (Proc.devRef .tc main_v72) = val_main_v72 (F := F) (V (Proc.devRef .tc main_arg1)) := by
    rw [opsB3d_keeps_main_v72, opsB3c_keeps_main_v72, opsB3b_keeps_main_v72, opsB3a_keeps_main_v72, opsB2_keeps_main_v72]; exact e72
  -- the log-softmax of the first argument, kept until the gather
  have a0 : (after opsB1 (after opsA2 (after opsA1 V))) (Proc.devRef .tc main_arg0) = V (Proc.devRef .tc main_arg0) := by
    rw [opsB1_keeps_main_arg0, opsA2_keeps_main_arg0, opsA1_keeps_main_arg0]
  have e73 : (after opsB2 (after opsB1 (after opsA2 (after opsA1 V)))) (Proc.devRef .tc main_v73) = val_main_v73 (F := F) (V (Proc.devRef .tc main_arg0)) := by
    rw [opsB2_v73, a0]
  have e73' : (after opsB3c (after opsB3b (after opsB3a (after opsB2 (after opsB1 (after opsA2 (after opsA1 V))))))) (Proc.devRef .tc main_v73) = val_main_v73 (F := F) (V (Proc.devRef .tc main_arg0)) := by
    rw [opsB3c_keeps_main_v73, opsB3b_keeps_main_v73, opsB3a_keeps_main_v73]; exact e73
  -- the normalised index, its reshape (kept by the range test), the range test
  have a1 : (after opsB2 (after opsB1 (after opsA2 (after opsA1 V)))) (Proc.devRef .tc main_arg1) = V (Proc.devRef .tc main_arg1) := by
    rw [opsB2_keeps_main_arg1, opsB1_keeps_main_arg1, opsA2_keeps_main_arg1, opsA1_keeps_main_arg1]
  have e4 : (after opsB3a (after opsB2 (after opsB1 (after opsA2 (after opsA1 V))))) (Proc.devRef .tc main_call4_v4) = val_main_call4_v4 (F := F) (V (Proc.devRef .tc main_arg1)) := by
    rw [opsB3a_v4, a1]
  have e5 := opsB3b_v5 (after opsB3a (after opsB2 (after opsB1 (after opsA2 (after opsA1 V))))) _ e4
  have e12 := opsB3c_v12 (after opsB3b (after opsB3a (after opsB2 (after opsB1 (after opsA2 (after opsA1 V)))))) _ e5
  have e5' : (after opsB3c (after opsB3b (after opsB3a (after opsB2 (after opsB1 (after opsA2 (after opsA1 V))))))) (Proc.devRef .tc main_call4_v5) = val_main_call4_v5 (F := F) (V (Proc.devRef .tc main_arg1)) := by
    rw [opsB3c_keeps_main_call4_v5]; exact e5
  -- the gathered entry, and the result
  have e75 := opsB3d_v75 (after opsB3c (after opsB3b (after opsB3a (after opsB2 (after opsB1 (after opsA2 (after opsA1 V))))))) _ _ e73' e5' e12
  exact opsB4_v81 _ _ _ e75 e72'

/-- On every device, from any memory with zero counters: every weakly fair execution of @main terminates with the
    result buffer at the last stage function of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81)
          = val_main_v81 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v81).trans (after_ops_v81 _), (h c main_arg0).trans (after_ops_arg0 _),
      (h c main_arg1).trans (after_ops_arg1 _)⟩)
    (run_seq scopedRefs_eq scopedSems_eq defs main (fun _ => ops) main_eq (fun _ => ops_sub) m ρ (fun _ => ops_fresh))

end Cert.ReferenceIdeal.RunP

end
-- ==== Proof.RefMorph.lean ====
/-
  The reference's weight image, read at a pixel: its padded label image is the padded read `padAt` of batch
  element b's labels, each of its 17 slices of the padded image is one position of the ellipse, and the 16 maxima
  (minima) are taken in the order `dil` (`ero`) writes them.
-/
import proofs.«401031_j42322607735076_2_alg».proof.Proof.RefRead
import proofs.«401031_j42322607735076_2_alg».proof.Proof.Spec
import Idealize.ShloMosaic.Lib.KernelVsHost

noncomputable section

namespace Cert.BoundaryCE.Ref

open Idealize.ShloMosaic Idealize.ShloMosaic.ValueIdx Cert.ReferenceIdeal Cert.ReferenceIdeal.ReadP Cert.BoundaryCE

/-- Batch element `b`'s label image. -/
abbrev labOf (x1 : (⟨S16x360x640, .i32⟩ : BufTy).Contents (Elt Ideal)) (b : Fin 16) : ℕ → ℕ → EReal :=
  lab fun y x => x1 (ix3 b y x)

/-! ## The two padded label images -/

/-- The label image padded with −10⁹, read at padded coordinates (i, j): inside the frame 2 ≤ i < 362, 2 ≤ j < 642 it is the label at (i − 2, j − 2) read as a real; on the frame it is the padding constant. -/
theorem pad_read_neg (x1 : (⟨S16x360x640, .i32⟩ : BufTy).Contents (Elt Ideal)) (b : Fin 16) (i : Fin 364) (j : Fin 644) :
    val_main_v1 (F := Ideal) x1 (ix3 b i j) = padAt negBig (labOf x1 b) i.val j.val := by
  unfold val_main_v1 padAt
  by_cases h : 2 ≤ i.val ∧ i.val < 362 ∧ 2 ≤ j.val ∧ j.val < 642
  · rw [if_pos h]
    refine (pad_apply_of_inside _ _ _ _ _ _ _ (ix3 b i j) (ix3 b ⟨i.val - 2, by omega⟩ ⟨j.val - 2, by omega⟩) ?_).trans ?_
    · intro a
      match a with
      | ⟨0, _⟩ => show b.val = 0 + b.val * (0 + 1); omega
      | ⟨1, _⟩ => show i.val = 2 + (i.val - 2) * (0 + 1); omega
      | ⟨2, _⟩ => show j.val = 2 + (j.val - 2) * (0 + 1); omega
    · unfold labOf lab
      rw [dif_pos ⟨by omega, by omega⟩]
      rfl
  · rw [if_neg h]
    by_cases hi : 2 ≤ i.val ∧ i.val < 362
    · refine (pad_apply_of_not_inside _ _ _ _ _ _ _ (ix3 b i j) (2 : Fin 3) ?_).trans rfl
      intro hin
      have h1 : 2 ≤ j.val := hin.1
      have h2 : (j.val - 2) / (0 + 1) < 640 := hin.2.2
      omega
    · refine (pad_apply_of_not_inside _ _ _ _ _ _ _ (ix3 b i j) (1 : Fin 3) ?_).trans rfl
      intro hin
      have h1 : 2 ≤ i.val := hin.1
      have h2 : (i.val - 2) / (0 + 1) < 360 := hin.2.2
      omega

/-- The same image padded with +10⁹. -/
theorem pad_read_pos (x1 : (⟨S16x360x640, .i32⟩ : BufTy).Contents (Elt Ideal)) (b : Fin 16) (i : Fin 364) (j : Fin 644) :
    val_main_v35 (F := Ideal) x1 (ix3 b i j) = padAt posBig (labOf x1 b) i.val j.val := by
  unfold val_main_v35 padAt
  by_cases h : 2 ≤ i.val ∧ i.val < 362 ∧ 2 ≤ j.val ∧ j.val < 642
  · rw [if_pos h]
    refine (pad_apply_of_inside _ _ _ _ _ _ _ (ix3 b i j) (ix3 b ⟨i.val - 2, by omega⟩ ⟨j.val - 2, by omega⟩) ?_).trans ?_
    · intro a
      match a with
      | ⟨0, _⟩ => show b.val = 0 + b.val * (0 + 1); omega
      | ⟨1, _⟩ => show i.val = 2 + (i.val - 2) * (0 + 1); omega
      | ⟨2, _⟩ => show j.val = 2 + (j.val - 2) * (0 + 1); omega
    · unfold labOf lab
      rw [dif_pos ⟨by omega, by omega⟩]
      rfl
  · rw [if_neg h]
    by_cases hi : 2 ≤ i.val ∧ i.val < 362
    · refine (pad_apply_of_not_inside _ _ _ _ _ _ _ (ix3 b i j) (2 : Fin 3) ?_).trans rfl
      intro hin
      have h1 : 2 ≤ j.val := hin.1
      have h2 : (j.val - 2) / (0 + 1) < 640 := hin.2.2
      omega
    · refine (pad_apply_of_not_inside _ _ _ _ _ _ _ (ix3 b i j) (1 : Fin 3) ?_).trans rfl
      intro hin
      have h1 : 2 ≤ i.val := hin.1
      have h2 : (i.val - 2) / (0 + 1) < 360 := hin.2.2
      omega

/-! ## The 17 slices of each padded image

A slice starting at row r, column c of the padded image, read at pixel (y, x), is the padded image at (r + y, c + x). -/

theorem slice_v2 (x1 : (⟨S16x360x640, .i32⟩ : BufTy).Contents (Elt Ideal)) (b : Fin 16) (y : Fin 360) (x : Fin 640) :
    val_main_v2 (F := Ideal) x1 (ix3 b y x) = padAt negBig (labOf x1 b) (y.val) (2 + x.val) := by
  have e : idx_main_v2 (ix3 b y x)
      = ix3 b (⟨y.val, by omega⟩ : Fin 364) (⟨2 + x.val, by omega⟩ : Fin 644) := by
    funext a
    match a with
    | ⟨0, _⟩ => rfl
    | ⟨1, _⟩ => rfl
    | ⟨2, _⟩ => rfl
  rw [val_main_v2_apply, e]
  exact pad_read_neg x1 b _ _

theorem slice_v3 (x1 : (⟨S16x360x640, .i32⟩ : BufTy).Contents (Elt Ideal)) (b : Fin 16) (y : Fin 360) (x : Fin 640) :
    val_main_v3 (F := Ideal) x1 (ix3 b y x) = padAt negBig (labOf x1 b) (1 + y.val) (x.val) := by
  have e : idx_main_v3 (ix3 b y x)
      = ix3 b (⟨1 + y.val, by omega⟩ : Fin 364) (⟨x.val, by omega⟩ : Fin 644) := by
    funext a
    match a with
    | ⟨0, _⟩ => rfl
    | ⟨1, _⟩ => rfl
    | ⟨2, _⟩ => rfl
  rw [val_main_v3_apply, e]
  exact pad_read_neg x1 b _ _

theorem slice_v5 (x1 : (⟨S16x360x640, .i32⟩ : BufTy).Contents (Elt Ideal)) (b : Fin 16) (y : Fin 360) (x : Fin 640) :
    val_main_v5 (F := Ideal) x1 (ix3 b y x) = padAt negBig (labOf x1 b) (1 + y.val) (1 + x.val) := by
  have e : idx_main_v5 (ix3 b y x)
      = ix3 b (⟨1 + y.val, by omega⟩ : Fin 364) (⟨1 + x.val, by omega⟩ : Fin 644) := by
    funext a
    match a with
    | ⟨0, _⟩ => rfl
    | ⟨1, _⟩ => rfl
    | ⟨2, _⟩ => rfl
  rw [val_main_v5_apply, e]
  exact pad_read_neg x1 b _ _

theorem slice_v7 (x1 : (⟨S16x360x640, .i32⟩ : BufTy).Contents (Elt Ideal)) (b : Fin 16) (y : Fin 360) (x : Fin 640) :
    val_main_v7 (F := Ideal) x1 (ix3 b y x) = padAt negBig (labOf x1 b) (1 + y.val) (2 + x.val) := by
  have e : idx_main_v7 (ix3 b y x)
      = ix3 b (⟨1 + y.val, by omega⟩ : Fin 364) (⟨2 + x.val, by omega⟩ : Fin 644) := by
    funext a
    match a with
    | ⟨0, _⟩ => rfl
    | ⟨1, _⟩ => rfl
    | ⟨2, _⟩ => rfl
  rw [val_main_v7_apply, e]
  exact pad_read_neg x1 b _ _

theorem slice_v9 (x1 : (⟨S16x360x640, .i32⟩ : BufTy).Contents (Elt Ideal)) (b : Fin 16) (y : Fin 360) (x : Fin 640) :
    val_main_v9 (F := Ideal) x1 (ix3 b y x) = padAt negBig (labOf x1 b) (1 + y.val) (3 + x.val) := by
  have e : idx_main_v9 (ix3 b y x)
      = ix3 b (⟨1 + y.val, by omega⟩ : Fin 364) (⟨3 + x.val, by omega⟩ : Fin 644) := by
    funext a
    match a with
    | ⟨0, _⟩ => rfl
    | ⟨1, _⟩ => rfl
    | ⟨2, _⟩ => rfl
  rw [val_main_v9_apply, e]
  exact pad_read_neg x1 b _ _

theorem slice_v11 (x1 : (⟨S16x360x640, .i32⟩ : BufTy).Contents (Elt Ideal)) (b : Fin 16) (y : Fin 360) (x : Fin 640) :
    val_main_v11 (F := Ideal) x1 (ix3 b y x) = padAt negBig (labOf x1 b) (1 + y.val) (4 + x.val) := by
  have e : idx_main_v11 (ix3 b y x)
      = ix3 b (⟨1 + y.val, by omega⟩ : Fin 364) (⟨4 + x.val, by omega⟩ : Fin 644) := by
    funext a
    match a with
    | ⟨0, _⟩ => rfl
    | ⟨1, _⟩ => rfl
    | ⟨2, _⟩ => rfl
  rw [val_main_v11_apply, e]
  exact pad_read_neg x1 b _ _

theorem slice_v13 (x1 : (⟨S16x360x640, .i32⟩ : BufTy).Contents (Elt Ideal)) (b : Fin 16) (y : Fin 360) (x : Fin 640) :
    val_main_v13 (F := Ideal) x1 (ix3 b y x) = padAt negBig (labOf x1 b) (2 + y.val) (x.val) := by
  have e : idx_main_v13 (ix3 b y x)
      = ix3 b (⟨2 + y.val, by omega⟩ : Fin 364) (⟨x.val, by omega⟩ : Fin 644) := by
    funext a
    match a with
    | ⟨0, _⟩ => rfl
    | ⟨1, _⟩ => rfl
    | ⟨2, _⟩ => rfl
  rw [val_main_v13_apply, e]
  exact pad_read_neg x1 b _ _

theorem slice_v15 (x1 : (⟨S16x360x640, .i32⟩ : BufTy).Contents (Elt Ideal)) (b : Fin 16) (y : Fin 360) (x : Fin 640) :
    val_main_v15 (F := Ideal) x1 (ix3 b y x) = padAt negBig (labOf x1 b) (2 + y.val) (1 + x.val) := by
  have e : idx_main_v15 (ix3 b y x)
      = ix3 b (⟨2 + y.val, by omega⟩ : Fin 364) (⟨1 + x.val, by omega⟩ : Fin 644) := by
    funext a
    match a with
    | ⟨0, _⟩ => rfl
    | ⟨1, _⟩ => rfl
    | ⟨2, _⟩ => rfl
  rw [val_main_v15_apply, e]
  exact pad_read_neg x1 b _ _

theorem slice_v17 (x1 : (⟨S16x360x640, .i32⟩ : BufTy).Contents (Elt Ideal)) (b : Fin 16) (y : Fin 360) (x : Fin 640) :
    val_main_v17 (F := Ideal) x1 (ix3 b y x) = padAt negBig (labOf x1 b) (2 + y.val) (2 + x.val) := by
  have e : idx_main_v17 (ix3 b y x)
      = ix3 b (⟨2 + y.val, by omega⟩ : Fin 364) (⟨2 + x.val, by omega⟩ : Fin 644) := by
    funext a
    match a with
    | ⟨0, _⟩ => rfl
    | ⟨1, _⟩ => rfl
    | ⟨2, _⟩ => rfl
  rw [val_main_v17_apply, e]
  exact pad_read_neg x1 b _ _

theorem slice_v19 (x1 : (⟨S16x360x640, .i32⟩ : BufTy).Contents (Elt Ideal)) (b : Fin 16) (y : Fin 360) (x : Fin 640) :
    val_main_v19 (F := Ideal) x1 (ix3 b y x) = padAt negBig (labOf x1 b) (2 + y.val) (3 + x.val) := by
  have e : idx_main_v19 (ix3 b y x)
      = ix3 b (⟨2 + y.val, by omega⟩ : Fin 364) (⟨3 + x.val, by omega⟩ : Fin 644) := by
    funext a
    match a with
    | ⟨0, _⟩ => rfl
    | ⟨1, _⟩ => rfl
    | ⟨2, _⟩ => rfl
  rw [val_main_v19_apply, e]
  exact pad_read_neg x1 b _ _

theorem slice_v21 (x1 : (⟨S16x360x640, .i32⟩ : BufTy).Contents (Elt Ideal)) (b : Fin 16) (y : Fin 360) (x : Fin 640) :
    val_main_v21 (F := Ideal) x1 (ix3 b y x) = padAt negBig (labOf x1 b) (2 + y.val) (4 + x.val) := by
  have e : idx_main_v21 (ix3 b y x)
      = ix3 b (⟨2 + y.val, by omega⟩ : Fin 364) (⟨4 + x.val, by omega⟩ : Fin 644) := by
    funext a
    match a with
    | ⟨0, _⟩ => rfl
    | ⟨1, _⟩ => rfl
    | ⟨2, _⟩ => rfl
  rw [val_main_v21_apply, e]
  exact pad_read_neg x1 b _ _

theorem slice_v23 (x1 : (⟨S16x360x640, .i32⟩ : BufTy).Contents (Elt Ideal)) (b : Fin 16) (y : Fin 360) (x : Fin 640) :
    val_main_v23 (F := Ideal) x1 (ix3 b y x) = padAt negBig (labOf x1 b) (3 + y.val) (x.val) := by
  have e : idx_main_v23 (ix3 b y x)
      = ix3 b (⟨3 + y.val, by omega⟩ : Fin 364) (⟨x.val, by omega⟩ : Fin 644) := by
    funext a
    match a with
    | ⟨0, _⟩ => rfl
    | ⟨1, _⟩ => rfl
    | ⟨2, _⟩ => rfl
  rw [val_main_v23_apply, e]
  exact pad_read_neg x1 b _ _

theorem slice_v25 (x1 : (⟨S16x360x640, .i32⟩ : BufTy).Contents (Elt Ideal)) (b : Fin 16) (y : Fin 360) (x : Fin 640) :
    val_main_v25 (F := Ideal) x1 (ix3 b y x) = padAt negBig (labOf x1 b) (3 + y.val) (1 + x.val) := by
  have e : idx_main_v25 (ix3 b y x)
      = ix3 b (⟨3 + y.val, by omega⟩ : Fin 364) (⟨1 + x.val, by omega⟩ : Fin 644) := by
    funext a
    match a with
    | ⟨0, _⟩ => rfl
    | ⟨1, _⟩ => rfl
    | ⟨2, _⟩ => rfl
  rw [val_main_v25_apply, e]
  exact pad_read_neg x1 b _ _

theorem slice_v27 (x1 : (⟨S16x360x640, .i32⟩ : BufTy).Contents (Elt Ideal)) (b : Fin 16) (y : Fin 360) (x : Fin 640) :
    val_main_v27 (F := Ideal) x1 (ix3 b y x) = padAt negBig (labOf x1 b) (3 + y.val) (2 + x.val) := by
  have e : idx_main_v27 (ix3 b y x)
      = ix3 b (⟨3 + y.val, by omega⟩ : Fin 364) (⟨2 + x.val, by omega⟩ : Fin 644) := by
    funext a
    match a with
    | ⟨0, _⟩ => rfl
    | ⟨1, _⟩ => rfl
    | ⟨2, _⟩ => rfl
  rw [val_main_v27_apply, e]
  exact pad_read_neg x1 b _ _

theorem slice_v29 (x1 : (⟨S16x360x640, .i32⟩ : BufTy).Contents (Elt Ideal)) (b : Fin 16) (y : Fin 360) (x : Fin 640) :
    val_main_v29 (F := Ideal) x1 (ix3 b y x) = padAt negBig (labOf x1 b) (3 + y.val) (3 + x.val) := by
  have e : idx_main_v29 (ix3 b y x)
      = ix3 b (⟨3 + y.val, by omega⟩ : Fin 364) (⟨3 + x.val, by omega⟩ : Fin 644) := by
    funext a
    match a with
    | ⟨0, _⟩ => rfl
    | ⟨1, _⟩ => rfl
    | ⟨2, _⟩ => rfl
  rw [val_main_v29_apply, e]
  exact pad_read_neg x1 b _ _

theorem slice_v31 (x1 : (⟨S16x360x640, .i32⟩ : BufTy).Contents (Elt Ideal)) (b : Fin 16) (y : Fin 360) (x : Fin 640) :
    val_main_v31 (F := Ideal) x1 (ix3 b y x) = padAt negBig (labOf x1 b) (3 + y.val) (4 + x.val) := by
  have e : idx_main_v31 (ix3 b y x)
      = ix3 b (⟨3 + y.val, by omega⟩ : Fin 364) (⟨4 + x.val, by omega⟩ : Fin 644) := by
    funext a
    match a with
    | ⟨0, _⟩ => rfl
    | ⟨1, _⟩ => rfl
    | ⟨2, _⟩ => rfl
  rw [val_main_v31_apply, e]
  exact pad_read_neg x1 b _ _

theorem slice_v33 (x1 : (⟨S16x360x640, .i32⟩ : BufTy).Contents (Elt Ideal)) (b : Fin 16) (y : Fin 360) (x : Fin 640) :
    val_main_v33 (F := Ideal) x1 (ix3 b y x) = padAt negBig (labOf x1 b) (4 + y.val) (2 + x.val) := by
  have e : idx_main_v33 (ix3 b y x)
      = ix3 b (⟨4 + y.val, by omega⟩ : Fin 364) (⟨2 + x.val, by omega⟩ : Fin 644) := by
    funext a
    match a with
    | ⟨0, _⟩ => rfl
    | ⟨1, _⟩ => rfl
    | ⟨2, _⟩ => rfl
  rw [val_main_v33_apply, e]
  exact pad_read_neg x1 b _ _

theorem slice_v36 (x1 : (⟨S16x360x640, .i32⟩ : BufTy).Contents (Elt Ideal)) (b : Fin 16) (y : Fin 360) (x : Fin 640) :
    val_main_v36 (F := Ideal) x1 (ix3 b y x) = padAt posBig (labOf x1 b) (y.val) (2 + x.val) := by
  have e : idx_main_v36 (ix3 b y x)
      = ix3 b (⟨y.val, by omega⟩ : Fin 364) (⟨2 + x.val, by omega⟩ : Fin 644) := by
    funext a
    match a with
    | ⟨0, _⟩ => rfl
    | ⟨1, _⟩ => rfl
    | ⟨2, _⟩ => rfl
  rw [val_main_v36_apply, e]
  exact pad_read_pos x1 b _ _

theorem slice_v37 (x1 : (⟨S16x360x640, .i32⟩ : BufTy).Contents (Elt Ideal)) (b : Fin 16) (y : Fin 360) (x : Fin 640) :
    val_main_v37 (F := Ideal) x1 (ix3 b y x) = padAt posBig (labOf x1 b) (1 + y.val) (x.val) := by
  have e : idx_main_v37 (ix3 b y x)
      = ix3 b (⟨1 + y.val, by omega⟩ : Fin 364) (⟨x.val, by omega⟩ : Fin 644) := by
    funext a
    match a with
    | ⟨0, _⟩ => rfl
    | ⟨1, _⟩ => rfl
    | ⟨2, _⟩ => rfl
  rw [val_main_v37_apply, e]
  exact pad_read_pos x1 b _ _

theorem slice_v39 (x1 : (⟨S16x360x640, .i32⟩ : BufTy).Contents (Elt Ideal)) (b : Fin 16) (y : Fin 360) (x : Fin 640) :
    val_main_v39 (F := Ideal) x1 (ix3 b y x) = padAt posBig (labOf x1 b) (1 + y.val) (1 + x.val) := by
  have e : idx_main_v39 (ix3 b y x)
      = ix3 b (⟨1 + y.val, by omega⟩ : Fin 364) (⟨1 + x.val, by omega⟩ : Fin 644) := by
    funext a
    match a with
    | ⟨0, _⟩ => rfl
    | ⟨1, _⟩ => rfl
    | ⟨2, _⟩ => rfl
  rw [val_main_v39_apply, e]
  exact pad_read_pos x1 b _ _

theorem slice_v41 (x1 : (⟨S16x360x640, .i32⟩ : BufTy).Contents (Elt Ideal)) (b : Fin 16) (y : Fin 360) (x : Fin 640) :
    val_main_v41 (F := Ideal) x1 (ix3 b y x) = padAt posBig (labOf x1 b) (1 + y.val) (2 + x.val) := by
  have e : idx_main_v41 (ix3 b y x)
      = ix3 b (⟨1 + y.val, by omega⟩ : Fin 364) (⟨2 + x.val, by omega⟩ : Fin 644) := by
    funext a
    match a with
    | ⟨0, _⟩ => rfl
    | ⟨1, _⟩ => rfl
    | ⟨2, _⟩ => rfl
  rw [val_main_v41_apply, e]
  exact pad_read_pos x1 b _ _

theorem slice_v43 (x1 : (⟨S16x360x640, .i32⟩ : BufTy).Contents (Elt Ideal)) (b : Fin 16) (y : Fin 360) (x : Fin 640) :
    val_main_v43 (F := Ideal) x1 (ix3 b y x) = padAt posBig (labOf x1 b) (1 + y.val) (3 + x.val) := by
  have e : idx_main_v43 (ix3 b y x)
      = ix3 b (⟨1 + y.val, by omega⟩ : Fin 364) (⟨3 + x.val, by omega⟩ : Fin 644) := by
    funext a
    match a with
    | ⟨0, _⟩ => rfl
    | ⟨1, _⟩ => rfl
    | ⟨2, _⟩ => rfl
  rw [val_main_v43_apply, e]
  exact pad_read_pos x1 b _ _

theorem slice_v45 (x1 : (⟨S16x360x640, .i32⟩ : BufTy).Contents (Elt Ideal)) (b : Fin 16) (y : Fin 360) (x : Fin 640) :
    val_main_v45 (F := Ideal) x1 (ix3 b y x) = padAt posBig (labOf x1 b) (1 + y.val) (4 + x.val) := by
  have e : idx_main_v45 (ix3 b y x)
      = ix3 b (⟨1 + y.val, by omega⟩ : Fin 364) (⟨4 + x.val, by omega⟩ : Fin 644) := by
    funext a
    match a with
    | ⟨0, _⟩ => rfl
    | ⟨1, _⟩ => rfl
    | ⟨2, _⟩ => rfl
  rw [val_main_v45_apply, e]
  exact pad_read_pos x1 b _ _

theorem slice_v47 (x1 : (⟨S16x360x640, .i32⟩ : BufTy).Contents (Elt Ideal)) (b : Fin 16) (y : Fin 360) (x : Fin 640) :
    val_main_v47 (F := Ideal) x1 (ix3 b y x) = padAt posBig (labOf x1 b) (2 + y.val) (x.val) := by
  have e : idx_main_v47 (ix3 b y x)
      = ix3 b (⟨2 + y.val, by omega⟩ : Fin 364) (⟨x.val, by omega⟩ : Fin 644) := by
    funext a
    match a with
    | ⟨0, _⟩ => rfl
    | ⟨1, _⟩ => rfl
    | ⟨2, _⟩ => rfl
  rw [val_main_v47_apply, e]
  exact pad_read_pos x1 b _ _

theorem slice_v49 (x1 : (⟨S16x360x640, .i32⟩ : BufTy).Contents (Elt Ideal)) (b : Fin 16) (y : Fin 360) (x : Fin 640) :
    val_main_v49 (F := Ideal) x1 (ix3 b y x) = padAt posBig (labOf x1 b) (2 + y.val) (1 + x.val) := by
  have e : idx_main_v49 (ix3 b y x)
      = ix3 b (⟨2 + y.val, by omega⟩ : Fin 364) (⟨1 + x.val, by omega⟩ : Fin 644) := by
    funext a
    match a with
    | ⟨0, _⟩ => rfl
    | ⟨1, _⟩ => rfl
    | ⟨2, _⟩ => rfl
  rw [val_main_v49_apply, e]
  exact pad_read_pos x1 b _ _

theorem slice_v51 (x1 : (⟨S16x360x640, .i32⟩ : BufTy).Contents (Elt Ideal)) (b : Fin 16) (y : Fin 360) (x : Fin 640) :
    val_main_v51 (F := Ideal) x1 (ix3 b y x) = padAt posBig (labOf x1 b) (2 + y.val) (2 + x.val) := by
  have e : idx_main_v51 (ix3 b y x)
      = ix3 b (⟨2 + y.val, by omega⟩ : Fin 364) (⟨2 + x.val, by omega⟩ : Fin 644) := by
    funext a
    match a with
    | ⟨0, _⟩ => rfl
    | ⟨1, _⟩ => rfl
    | ⟨2, _⟩ => rfl
  rw [val_main_v51_apply, e]
  exact pad_read_pos x1 b _ _

theorem slice_v53 (x1 : (⟨S16x360x640, .i32⟩ : BufTy).Contents (Elt Ideal)) (b : Fin 16) (y : Fin 360) (x : Fin 640) :
    val_main_v53 (F := Ideal) x1 (ix3 b y x) = padAt posBig (labOf x1 b) (2 + y.val) (3 + x.val) := by
  have e : idx_main_v53 (ix3 b y x)
      = ix3 b (⟨2 + y.val, by omega⟩ : Fin 364) (⟨3 + x.val, by omega⟩ : Fin 644) := by
    funext a
    match a with
    | ⟨0, _⟩ => rfl
    | ⟨1, _⟩ => rfl
    | ⟨2, _⟩ => rfl
  rw [val_main_v53_apply, e]
  exact pad_read_pos x1 b _ _

theorem slice_v55 (x1 : (⟨S16x360x640, .i32⟩ : BufTy).Contents (Elt Ideal)) (b : Fin 16) (y : Fin 360) (x : Fin 640) :
    val_main_v55 (F := Ideal) x1 (ix3 b y x) = padAt posBig (labOf x1 b) (2 + y.val) (4 + x.val) := by
  have e : idx_main_v55 (ix3 b y x)
      = ix3 b (⟨2 + y.val, by omega⟩ : Fin 364) (⟨4 + x.val, by omega⟩ : Fin 644) := by
    funext a
    match a with
    | ⟨0, _⟩ => rfl
    | ⟨1, _⟩ => rfl
    | ⟨2, _⟩ => rfl
  rw [val_main_v55_apply, e]
  exact pad_read_pos x1 b _ _

theorem slice_v57 (x1 : (⟨S16x360x640, .i32⟩ : BufTy).Contents (Elt Ideal)) (b : Fin 16) (y : Fin 360) (x : Fin 640) :
    val_main_v57 (F := Ideal) x1 (ix3 b y x) = padAt posBig (labOf x1 b) (3 + y.val) (x.val) := by
  have e : idx_main_v57 (ix3 b y x)
      = ix3 b (⟨3 + y.val, by omega⟩ : Fin 364) (⟨x.val, by omega⟩ : Fin 644) := by
    funext a
    match a with
    | ⟨0, _⟩ => rfl
    | ⟨1, _⟩ => rfl
    | ⟨2, _⟩ => rfl
  rw [val_main_v57_apply, e]
  exact pad_read_pos x1 b _ _

theorem slice_v59 (x1 : (⟨S16x360x640, .i32⟩ : BufTy).Contents (Elt Ideal)) (b : Fin 16) (y : Fin 360) (x : Fin 640) :
    val_main_v59 (F := Ideal) x1 (ix3 b y x) = padAt posBig (labOf x1 b) (3 + y.val) (1 + x.val) := by
  have e : idx_main_v59 (ix3 b y x)
      = ix3 b (⟨3 + y.val, by omega⟩ : Fin 364) (⟨1 + x.val, by omega⟩ : Fin 644) := by
    funext a
    match a with
    | ⟨0, _⟩ => rfl
    | ⟨1, _⟩ => rfl
    | ⟨2, _⟩ => rfl
  rw [val_main_v59_apply, e]
  exact pad_read_pos x1 b _ _

theorem slice_v61 (x1 : (⟨S16x360x640, .i32⟩ : BufTy).Contents (Elt Ideal)) (b : Fin 16) (y : Fin 360) (x : Fin 640) :
    val_main_v61 (F := Ideal) x1 (ix3 b y x) = padAt posBig (labOf x1 b) (3 + y.val) (2 + x.val) := by
  have e : idx_main_v61 (ix3 b y x)
      = ix3 b (⟨3 + y.val, by omega⟩ : Fin 364) (⟨2 + x.val, by omega⟩ : Fin 644) := by
    funext a
    match a with
    | ⟨0, _⟩ => rfl
    | ⟨1, _⟩ => rfl
    | ⟨2, _⟩ => rfl
  rw [val_main_v61_apply, e]
  exact pad_read_pos x1 b _ _

theorem slice_v63 (x1 : (⟨S16x360x640, .i32⟩ : BufTy).Contents (Elt Ideal)) (b : Fin 16) (y : Fin 360) (x : Fin 640) :
    val_main_v63 (F := Ideal) x1 (ix3 b y x) = padAt posBig (labOf x1 b) (3 + y.val) (3 + x.val) := by
  have e : idx_main_v63 (ix3 b y x)
      = ix3 b (⟨3 + y.val, by omega⟩ : Fin 364) (⟨3 + x.val, by omega⟩ : Fin 644) := by
    funext a
    match a with
    | ⟨0, _⟩ => rfl
    | ⟨1, _⟩ => rfl
    | ⟨2, _⟩ => rfl
  rw [val_main_v63_apply, e]
  exact pad_read_pos x1 b _ _

theorem slice_v65 (x1 : (⟨S16x360x640, .i32⟩ : BufTy).Contents (Elt Ideal)) (b : Fin 16) (y : Fin 360) (x : Fin 640) :
    val_main_v65 (F := Ideal) x1 (ix3 b y x) = padAt posBig (labOf x1 b) (3 + y.val) (4 + x.val) := by
  have e : idx_main_v65 (ix3 b y x)
      = ix3 b (⟨3 + y.val, by omega⟩ : Fin 364) (⟨4 + x.val, by omega⟩ : Fin 644) := by
    funext a
    match a with
    | ⟨0, _⟩ => rfl
    | ⟨1, _⟩ => rfl
    | ⟨2, _⟩ => rfl
  rw [val_main_v65_apply, e]
  exact pad_read_pos x1 b _ _

theorem slice_v67 (x1 : (⟨S16x360x640, .i32⟩ : BufTy).Contents (Elt Ideal)) (b : Fin 16) (y : Fin 360) (x : Fin 640) :
    val_main_v67 (F := Ideal) x1 (ix3 b y x) = padAt posBig (labOf x1 b) (4 + y.val) (2 + x.val) := by
  have e : idx_main_v67 (ix3 b y x)
      = ix3 b (⟨4 + y.val, by omega⟩ : Fin 364) (⟨2 + x.val, by omega⟩ : Fin 644) := by
    funext a
    match a with
    | ⟨0, _⟩ => rfl
    | ⟨1, _⟩ => rfl
    | ⟨2, _⟩ => rfl
  rw [val_main_v67_apply, e]
  exact pad_read_pos x1 b _ _

/-! ## Dilation and erosion

The 16 maxima (minima) nest to the left in the order the slices were taken, which is the order `dil` (`ero`) lists
the 17 positions. -/

theorem dil_read (x1 : (⟨S16x360x640, .i32⟩ : BufTy).Contents (Elt Ideal)) (b : Fin 16) (y : Fin 360) (x : Fin 640) :
    val_main_v34 (F := Ideal) x1 (ix3 b y x) = dil (padAt negBig (labOf x1 b)) y.val x.val := by
  rw [val_main_v34_apply, val_main_v32_apply, val_main_v30_apply, val_main_v28_apply, val_main_v26_apply, val_main_v24_apply, val_main_v22_apply, val_main_v20_apply, val_main_v18_apply, val_main_v16_apply, val_main_v14_apply, val_main_v12_apply, val_main_v10_apply, val_main_v8_apply, val_main_v6_apply, val_main_v4_apply]
  rw [slice_v2, slice_v3, slice_v5, slice_v7, slice_v9, slice_v11, slice_v13, slice_v15, slice_v17, slice_v19, slice_v21, slice_v23, slice_v25, slice_v27, slice_v29, slice_v31, slice_v33]
  rfl

theorem ero_read (x1 : (⟨S16x360x640, .i32⟩ : BufTy).Contents (Elt Ideal)) (b : Fin 16) (y : Fin 360) (x : Fin 640) :
    val_main_v68 (F := Ideal) x1 (ix3 b y x) = ero (padAt posBig (labOf x1 b)) y.val x.val := by
  rw [val_main_v68_apply, val_main_v66_apply, val_main_v64_apply, val_main_v62_apply, val_main_v60_apply, val_main_v58_apply, val_main_v56_apply, val_main_v54_apply, val_main_v52_apply, val_main_v50_apply, val_main_v48_apply, val_main_v46_apply, val_main_v44_apply, val_main_v42_apply, val_main_v40_apply, val_main_v38_apply]
  rw [slice_v36, slice_v37, slice_v39, slice_v41, slice_v43, slice_v45, slice_v47, slice_v49, slice_v51, slice_v53, slice_v55, slice_v57, slice_v59, slice_v61, slice_v63, slice_v65, slice_v67]
  rfl

/-! ## The weight -/

/-- The reference's weight at pixel (b, y, x) is `weight` of batch element b's label image. -/
theorem weight_eq (x1 : (⟨S16x360x640, .i32⟩ : BufTy).Contents (Elt Ideal)) (b : Fin 16) (y : Fin 360) (x : Fin 640) :
    val_main_v72 (F := Ideal) x1 (ix3 b y x) = weight (labOf x1 b) y.val x.val := by
  rw [val_main_v72_apply, val_main_v71_apply, val_main_v69_apply, val_main_v70_apply, val_main_call2_v0_apply,
    val_main_call2_v1_apply, dil_read, ero_read]
  rfl

end Cert.BoundaryCE.Ref

end
-- ==== Proof.RefCE.lean ====
/-
  The reference's minus-log-softmax at the label, read at a pixel whose label word is a class k < 7: the index is
  in range, so nothing wraps and nothing is filled; the gather reads class k of the log-softmax at that pixel; the
  channel maximum is the fold over the seven classes, the channel sum the finite sum.
-/
import proofs.«401031_j42322607735076_2_alg».proof.Proof.RefRead
import proofs.«401031_j42322607735076_2_alg».proof.Proof.Spec
import Idealize.ShloMosaic.Lib.StableHlo.Predicate

noncomputable section

namespace Cert.BoundaryCE.Ref

open Idealize.ShloMosaic Idealize.ShloMosaic.ValueIdx Cert.ReferenceIdeal Cert.ReferenceIdeal.ReadP Cert.BoundaryCE

/-- The seven scores of pixel (b, y, x). -/
abbrev scoresOf (x0 : (⟨S16x7x360x640, .f32⟩ : BufTy).Contents (Elt Ideal)) (b : Fin 16) (y : Fin 360) (x : Fin 640) :
    Fin 7 → EReal := fun c => x0 (ix4 b c y x)

namespace CE

/-! ## The log-softmax read at an index -/

/-- Dropping the class axis of [16,7,360,640] gives [16,360,640]. -/
theorem red1 : S16x7x360x640.Reduces [1] S16x360x640 := by decide

/-- Inserting the class coordinate c into the pixel index (b, y, x) gives (b, c, y, x). -/
theorem lift1 (b : Fin 16) (y : Fin 360) (x : Fin 640) (c : Fin 7) :
    red1.lift (ix3 b y x) c = ix4 b c y x := by
  funext a
  refine Fin.ext ?_
  match a with
  | ⟨0, _⟩ => rfl
  | ⟨1, _⟩ => rfl
  | ⟨2, _⟩ => rfl
  | ⟨3, _⟩ => rfl

/-- The reduce-max over the class axis, at a pixel, is the fold of max from −∞ over the pixel's seven scores. -/
theorem v0_at (x0 : (⟨S16x7x360x640, .f32⟩ : BufTy).Contents (Elt Ideal)) (b : Fin 16) (y : Fin 360) (x : Fin 640) :
    val_main_call3_v0 (F := Ideal) x0 (ix3 b y x)
      = (Finset.univ : Finset (Fin 7)).fold max negInf (scoresOf x0 b y x) := by
  unfold val_main_call3_v0
  refine (Host.reduce_eq_fold_single _ x0 _ Gen.reducesTo_S16x7x360x640_S16x360x640_d1 red1 Gen.h_S_ (ix3 b y x)).trans ?_
  refine congrArg (fun g => (Finset.univ : Finset (Fin 7)).fold max negInf g) ?_
  funext c
  exact congrArg x0 (lift1 b y x c)

/-- Capped below by −∞ once more, the channel maximum at a pixel is mxR of its scores. -/
theorem v2_at (x0 : (⟨S16x7x360x640, .f32⟩ : BufTy).Contents (Elt Ideal)) (b : Fin 16) (y : Fin 360) (x : Fin 640) :
    val_main_call3_v2 (F := Ideal) x0 (ix3 b y x) = mxR (scoresOf x0 b y x) := by
  rw [val_main_call3_v2_apply, val_main_call3_v1_apply, v0_at]
  rfl

/-- The index (b, 0, y, x) of the [16,1,360,640] broadcast reads the [16,360,640] operand at (b, y, x). -/
theorem idx3_eq (b : Fin 16) (y : Fin 360) (x : Fin 640) :
    idx_main_call3_v3 (ix4 b (0 : Fin 1) y x) = ix3 b y x := by
  funext a
  match a with
  | ⟨0, _⟩ => rfl
  | ⟨1, _⟩ => rfl
  | ⟨2, _⟩ => rfl

/-- The index (b, c, y, x) of the [16,7,360,640] broadcast reads the [16,1,360,640] operand at (b, 0, y, x). -/
theorem idx4_eq (b : Fin 16) (c : Fin 7) (y : Fin 360) (x : Fin 640) :
    idx_main_call3_v4 (ix4 b c y x) = ix4 b (0 : Fin 1) y x := by
  funext a
  match a with
  | ⟨0, _⟩ => rfl
  | ⟨1, _⟩ => rfl
  | ⟨2, _⟩ => rfl
  | ⟨3, _⟩ => rfl

/-- The maximum broadcast back over the classes: at (b, c, y, x) it is mxR of the pixel's scores. -/
theorem v4_at (x0 : (⟨S16x7x360x640, .f32⟩ : BufTy).Contents (Elt Ideal)) (b : Fin 16) (c : Fin 7) (y : Fin 360) (x : Fin 640) :
    val_main_call3_v4 (F := Ideal) x0 (ix4 b c y x) = mxR (scoresOf x0 b y x) := by
  rw [val_main_call3_v4_apply, idx4_eq, val_main_call3_v3_apply, idx3_eq, v2_at]

/-- The shifted score: x0 (b, c, y, x) − m. -/
theorem v5_at (x0 : (⟨S16x7x360x640, .f32⟩ : BufTy).Contents (Elt Ideal)) (b : Fin 16) (c : Fin 7) (y : Fin 360) (x : Fin 640) :
    val_main_call3_v5 (F := Ideal) x0 (ix4 b c y x) = x0 (ix4 b c y x) - mxR (scoresOf x0 b y x) := by
  rw [val_main_call3_v5_apply, v4_at]
  rfl

/-- Its exponential. -/
theorem v6_at (x0 : (⟨S16x7x360x640, .f32⟩ : BufTy).Contents (Elt Ideal)) (b : Fin 16) (c : Fin 7) (y : Fin 360) (x : Fin 640) :
    val_main_call3_v6 (F := Ideal) x0 (ix4 b c y x) = Ideal.exp (x0 (ix4 b c y x) - mxR (scoresOf x0 b y x)) := by
  rw [val_main_call3_v6_apply, v5_at]
  rfl

/-- The summand index of the class sum at pixel (b, y, x) and class c is (b, c, y, x). -/
theorem idx7_eq (b : Fin 16) (y : Fin 360) (x : Fin 640) (c : Fin 7) :
    idx_main_call3_v7 (ix3 b y x) c = ix4 b c y x := by
  funext a
  match a with
  | ⟨0, _⟩ => rfl
  | ⟨1, _⟩ => rfl
  | ⟨2, _⟩ => rfl
  | ⟨3, _⟩ => rfl

/-- The class sum at a pixel is sumexpR of its scores: 0 plus the sum of exp (p c − m). -/
theorem v7_at (x0 : (⟨S16x7x360x640, .f32⟩ : BufTy).Contents (Elt Ideal)) (b : Fin 16) (y : Fin 360) (x : Fin 640) :
    val_main_call3_v7 (F := Ideal) x0 (ix3 b y x) = sumexpR (scoresOf x0 b y x) := by
  rw [val_main_call3_v7_apply]
  unfold sumexpR
  refine congrArg (fun t => zeroF + t) (Finset.sum_congr rfl fun c _ => ?_)
  rw [idx7_eq, v6_at]

/-- The index (b, 0, y, x) of the sum's [16,1,360,640] broadcast reads the operand at (b, y, x). -/
theorem idx8_eq (b : Fin 16) (y : Fin 360) (x : Fin 640) :
    idx_main_call3_v8 (ix4 b (0 : Fin 1) y x) = ix3 b y x := by
  funext a
  match a with
  | ⟨0, _⟩ => rfl
  | ⟨1, _⟩ => rfl
  | ⟨2, _⟩ => rfl

/-- The index (b, c, y, x) of the log's broadcast over the classes reads the operand at (b, 0, y, x). -/
theorem idx10_eq (b : Fin 16) (c : Fin 7) (y : Fin 360) (x : Fin 640) :
    idx_main_call3_v10 (ix4 b c y x) = ix4 b (0 : Fin 1) y x := by
  funext a
  match a with
  | ⟨0, _⟩ => rfl
  | ⟨1, _⟩ => rfl
  | ⟨2, _⟩ => rfl
  | ⟨3, _⟩ => rfl

/-- The log of the class sum broadcast back over the classes. -/
theorem v10_at (x0 : (⟨S16x7x360x640, .f32⟩ : BufTy).Contents (Elt Ideal)) (b : Fin 16) (c : Fin 7) (y : Fin 360) (x : Fin 640) :
    val_main_call3_v10 (F := Ideal) x0 (ix4 b c y x) = Ideal.log (sumexpR (scoresOf x0 b y x)) := by
  rw [val_main_call3_v10_apply, idx10_eq, val_main_call3_v9_apply, val_main_call3_v8_apply, idx8_eq, v7_at]
  rfl

/-- The log-softmax at (b, c, y, x): (p c − m) − log Σ. -/
theorem v73_at (x0 : (⟨S16x7x360x640, .f32⟩ : BufTy).Contents (Elt Ideal)) (b : Fin 16) (c : Fin 7) (y : Fin 360) (x : Fin 640) :
    val_main_v73 (F := Ideal) x0 (ix4 b c y x)
      = (x0 (ix4 b c y x) - mxR (scoresOf x0 b y x)) - Ideal.log (sumexpR (scoresOf x0 b y x)) := by
  rw [val_main_v73_apply, v5_at, v10_at]
  rfl

/-! ## The label as a gather index: nothing wraps, both range tests hold -/

/-- The index (b, 0, y, x) of the labels' [16,1,360,640] broadcast reads the labels at (b, y, x). -/
theorem idx74_eq (b : Fin 16) (y : Fin 360) (x : Fin 640) :
    idx_main_v74 (ix4 b (0 : Fin 1) y x) = ix3 b y x := by
  funext a
  match a with
  | ⟨0, _⟩ => rfl
  | ⟨1, _⟩ => rfl
  | ⟨2, _⟩ => rfl

/-- The broadcast label at (b, 0, y, x) is the pixel's label word. -/
theorem v74_at (x1 : (⟨S16x360x640, .i32⟩ : BufTy).Contents (Elt Ideal)) (b : Fin 16) (y : Fin 360) (x : Fin 640) :
    val_main_v74 (F := Ideal) x1 (ix4 b (0 : Fin 1) y x) = x1 (ix3 b y x) := by
  rw [val_main_v74_apply, idx74_eq]

/-- A class word k < 7 is not negative, so the wrap-around select (k < 0 ? k + 7 : k) keeps k. -/
theorem wrap_small (k : Fin 7) :
    Scalar.select (IntOp.cmpi .slt (BitVec.ofNat 32 k.val) 0#32) (IntOp.addi (BitVec.ofNat 32 k.val) 7#32)
      (BitVec.ofNat 32 k.val) = BitVec.ofNat 32 k.val := by
  revert k; decide

/-- A class word k < 7 passes both range tests: 0 ≤ k and k ≤ 6. -/
theorem range_small (k : Fin 7) :
    IntOp.andi (IntOp.cmpi .sge (BitVec.ofNat 32 k.val) 0#32) (IntOp.cmpi .sle (BitVec.ofNat 32 k.val) 6#32) = 1#1 := by
  revert k; decide

/-- The normalised index at (b, 0, y, x) is the class word itself. -/
theorem c4v4_at (x1 : (⟨S16x360x640, .i32⟩ : BufTy).Contents (Elt Ideal)) (b : Fin 16) (y : Fin 360) (x : Fin 640) (k : Fin 7)
    (hk : x1 (ix3 b y x) = BitVec.ofNat 32 k.val) :
    val_main_call4_v4 (F := Ideal) x1 (ix4 b (0 : Fin 1) y x) = BitVec.ofNat 32 k.val := by
  rw [val_main_call4_v4_apply, val_main_call4_v1_apply, val_main_call4_v3_apply, v74_at, hk,
    val_main_call4_v0_apply, val_main_call4_v2_apply]
  exact wrap_small k

/-- Row-major position of (b, 0, y, x, 0) in [16,1,360,640,1] is that of (b, 0, y, x) in [16,1,360,640]. -/
theorem idxc5_eq (b : Fin 16) (y : Fin 360) (x : Fin 640) :
    idx_main_call4_v5 (ix5 b (0 : Fin 1) y x (0 : Fin 1)) = ix4 b (0 : Fin 1) y x := by
  have hb := b.isLt
  have hy := y.isLt
  have hx := x.isLt
  funext a
  refine Fin.ext ?_
  match a with
  | ⟨0, _⟩ => show ((((b.val * 1 + 0) * 360 + y.val) * 640 + x.val) * 1 + 0) / 230400 = b.val; omega
  | ⟨1, _⟩ => rfl
  | ⟨2, _⟩ => show ((((b.val * 1 + 0) * 360 + y.val) * 640 + x.val) * 1 + 0) / 640 % 360 = y.val; omega
  | ⟨3, _⟩ => show ((((b.val * 1 + 0) * 360 + y.val) * 640 + x.val) * 1 + 0) % 640 = x.val; omega

/-- The reshaped index at (b, 0, y, x, 0) is the class word. -/
theorem c4v5_at (x1 : (⟨S16x360x640, .i32⟩ : BufTy).Contents (Elt Ideal)) (b : Fin 16) (y : Fin 360) (x : Fin 640) (k : Fin 7)
    (hk : x1 (ix3 b y x) = BitVec.ofNat 32 k.val) :
    val_main_call4_v5 (F := Ideal) x1 (ix5 b (0 : Fin 1) y x (0 : Fin 1)) = BitVec.ofNat 32 k.val := by
  rw [val_main_call4_v5_apply, idxc5_eq, c4v4_at x1 b y x k hk]

/-- Both range tests hold at (b, 0, y, x, 0). -/
theorem c4v11_at (x1 : (⟨S16x360x640, .i32⟩ : BufTy).Contents (Elt Ideal)) (b : Fin 16) (y : Fin 360) (x : Fin 640) (k : Fin 7)
    (hk : x1 (ix3 b y x) = BitVec.ofNat 32 k.val) :
    val_main_call4_v11 (F := Ideal) x1 (ix5 b (0 : Fin 1) y x (0 : Fin 1)) = 1#1 := by
  rw [val_main_call4_v11_apply, val_main_call4_v7_apply, val_main_call4_v10_apply, c4v5_at x1 b y x k hk,
    val_main_call4_v6_apply, val_main_call4_v9_apply, val_main_call4_v8_apply]
  exact range_small k

/-- Dropping the last (size-1) axis of [16,1,360,640,1] gives [16,1,360,640]. -/
theorem red4 : S16x1x360x640x1.Reduces [4] S16x1x360x640 := by decide

/-- Inserting the last coordinate 0 into (b, 0, y, x) gives (b, 0, y, x, 0). -/
theorem lift4 (b : Fin 16) (y : Fin 360) (x : Fin 640) (e : Fin 1) :
    red4.lift (ix4 b (0 : Fin 1) y x) e = ix5 b (0 : Fin 1) y x (0 : Fin 1) := by
  funext a
  refine Fin.ext ?_
  match a with
  | ⟨0, _⟩ => rfl
  | ⟨1, _⟩ => rfl
  | ⟨2, _⟩ => rfl
  | ⟨3, _⟩ => rfl
  | ⟨4, _⟩ => show e.val = 0; omega

/-- A fold over the one-element index set is one application of the operation. -/
theorem fold_fin1 {α : Type} (f : α → α → α) [Std.Commutative f] [Std.Associative f] (init : α) (g : Fin 1 → α) :
    (Finset.univ : Finset (Fin 1)).fold f init g = f (g 0) init := by
  rw [show (Finset.univ : Finset (Fin 1)) = {0} from rfl, Finset.fold_singleton]

/-- The reduce-and over the size-1 axis at (b, 0, y, x): the index is in range. -/
theorem c4v12_at (x1 : (⟨S16x360x640, .i32⟩ : BufTy).Contents (Elt Ideal)) (b : Fin 16) (y : Fin 360) (x : Fin 640) (k : Fin 7)
    (hk : x1 (ix3 b y x) = BitVec.ofNat 32 k.val) :
    val_main_call4_v12 (F := Ideal) x1 (ix4 b (0 : Fin 1) y x) = 1#1 := by
  unfold val_main_call4_v12
  refine (Host.reduce_eq_fold_single _ _ _ Gen.reducesTo_S16x1x360x640x1_S16x1x360x640_d4 red4 Gen.h_S_ (ix4 b (0 : Fin 1) y x)).trans ?_
  refine (fold_fin1 IntOp.andi _ _).trans ?_
  show IntOp.andi (val_main_call4_v11 (F := Ideal) x1 (red4.lift (ix4 b (0 : Fin 1) y x) (0 : Fin 1))) 1#1 = 1#1
  rw [lift4, c4v11_at x1 b y x k hk]
  rfl

/-! ## The gather read at an index -/

/-- The gather's dimension numbers: operand [16,7,360,640], start indices [16,1,360,640,1], result [16,1,360,640]; axes 0, 2, 3
    are batching axes, axis 1 is collapsed and named by the one start component. -/
abbrev gdims : GatherDims S16x7x360x640 S16x1x360x640x1 S16x1x360x640 :=
  gather_S16x7x360x640_S16x1x360x640x1_S16x1x360x640_n_1_023_023_1_4_1111

/-- The start-indices position that result position (b, 0, y, x) reads its one start component from: (b, 0, y, x, 0). -/
theorem siIdx_eq (b : Fin 16) (y : Fin 360) (x : Fin 640) (c : Fin gdims.startIndexMap.length) :
    gdims.siIdx (ix4 b (0 : Fin 1) y x) c = ix5 b (0 : Fin 1) y x (0 : Fin 1) := by
  have hc : c.val = 0 := by have := c.isLt; change c.val < 1 at this; omega
  funext a
  refine Fin.ext ?_
  match a with
  | ⟨0, _⟩ => rfl
  | ⟨1, _⟩ => rfl
  | ⟨2, _⟩ => rfl
  | ⟨3, _⟩ => rfl
  | ⟨4, _⟩ => exact hc

/-- On the class axis the slice starts at the start index read signed and clamped into [0, 6]: for the class word k it is k. -/
theorem start_class (x1 : (⟨S16x360x640, .i32⟩ : BufTy).Contents (Elt Ideal)) (b : Fin 16) (y : Fin 360) (x : Fin 640) (k : Fin 7)
    (hk : x1 (ix3 b y x) = BitVec.ofNat 32 k.val) :
    gdims.start (ix4 b (0 : Fin 1) y x) (val_main_call4_v5 (F := Ideal) x1) (1 : Fin 4) = k.val := by
  unfold GatherDims.start
  rw [dif_pos (show (1 : Fin 4) ∈ gdims.startIndexMap from List.mem_singleton.mpr rfl), siIdx_eq,
    c4v5_at x1 b y x k hk, StableHlo.Predicate.toInt_ofNat_small k.val (by have := k.isLt; omega)]
  show min (k.val : ℤ).toNat (7 - 1) = k.val
  have := k.isLt
  rw [Int.toNat_natCast]
  omega

/-- The operand position the gather reads at (b, 0, y, x): batch axes carry b, y, x; the class axis carries the clamped
    start index, which is k. -/
theorem operandIdx_eq (x1 : (⟨S16x360x640, .i32⟩ : BufTy).Contents (Elt Ideal)) (b : Fin 16) (y : Fin 360) (x : Fin 640) (k : Fin 7)
    (hk : x1 (ix3 b y x) = BitVec.ofNat 32 k.val) :
    gdims.operandIdx (ix4 b (0 : Fin 1) y x) (val_main_call4_v5 (F := Ideal) x1) = ix4 b k y x := by
  funext a
  refine Fin.ext ?_
  match a with
  | ⟨0, _⟩ =>
    show gdims.start (ix4 b (0 : Fin 1) y x) (val_main_call4_v5 (F := Ideal) x1) 0
      + gdims.batchCoord (ix4 b (0 : Fin 1) y x) 0 + gdims.offCoord (ix4 b (0 : Fin 1) y x) 0 = b.val
    have hs : gdims.start (ix4 b (0 : Fin 1) y x) (val_main_call4_v5 (F := Ideal) x1) 0 = 0 := rfl
    have hb : gdims.batchCoord (ix4 b (0 : Fin 1) y x) 0 = b.val := rfl
    have ho : gdims.offCoord (ix4 b (0 : Fin 1) y x) 0 = 0 := rfl
    rw [hs, hb, ho]
    omega
  | ⟨1, _⟩ =>
    show gdims.start (ix4 b (0 : Fin 1) y x) (val_main_call4_v5 (F := Ideal) x1) 1
      + gdims.batchCoord (ix4 b (0 : Fin 1) y x) 1 + gdims.offCoord (ix4 b (0 : Fin 1) y x) 1 = k.val
    have hb : gdims.batchCoord (ix4 b (0 : Fin 1) y x) 1 = 0 := rfl
    have ho : gdims.offCoord (ix4 b (0 : Fin 1) y x) 1 = 0 := rfl
    rw [start_class x1 b y x k hk, hb, ho]
    omega
  | ⟨2, _⟩ =>
    show gdims.start (ix4 b (0 : Fin 1) y x) (val_main_call4_v5 (F := Ideal) x1) 2
      + gdims.batchCoord (ix4 b (0 : Fin 1) y x) 2 + gdims.offCoord (ix4 b (0 : Fin 1) y x) 2 = y.val
    have hs : gdims.start (ix4 b (0 : Fin 1) y x) (val_main_call4_v5 (F := Ideal) x1) 2 = 0 := rfl
    have hb : gdims.batchCoord (ix4 b (0 : Fin 1) y x) 2 = y.val := rfl
    have ho : gdims.offCoord (ix4 b (0 : Fin 1) y x) 2 = 0 := rfl
    rw [hs, hb, ho]
    omega
  | ⟨3, _⟩ =>
    show gdims.start (ix4 b (0 : Fin 1) y x) (val_main_call4_v5 (F := Ideal) x1) 3
      + gdims.batchCoord (ix4 b (0 : Fin 1) y x) 3 + gdims.offCoord (ix4 b (0 : Fin 1) y x) 3 = x.val
    have hs : gdims.start (ix4 b (0 : Fin 1) y x) (val_main_call4_v5 (F := Ideal) x1) 3 = 0 := rfl
    have hb : gdims.batchCoord (ix4 b (0 : Fin 1) y x) 3 = x.val := rfl
    have ho : gdims.offCoord (ix4 b (0 : Fin 1) y x) 3 = 0 := rfl
    rw [hs, hb, ho]
    omega

/-- The gather at (b, 0, y, x) reads the log-softmax of the pixel at class k. -/
theorem c4v13_at (x0 : (⟨S16x7x360x640, .f32⟩ : BufTy).Contents (Elt Ideal))
    (x1 : (⟨S16x360x640, .i32⟩ : BufTy).Contents (Elt Ideal)) (b : Fin 16) (y : Fin 360) (x : Fin 640) (k : Fin 7)
    (hk : x1 (ix3 b y x) = BitVec.ofNat 32 k.val) :
    val_main_call4_v13 (F := Ideal) x0 x1 (ix4 b (0 : Fin 1) y x) = val_main_v73 (F := Ideal) x0 (ix4 b k y x) := by
  unfold val_main_call4_v13
  show val_main_v73 (F := Ideal) x0 (gdims.operandIdx (ix4 b (0 : Fin 1) y x) (val_main_call4_v5 (F := Ideal) x1)) = _
  rw [operandIdx_eq x1 b y x k hk]

/-- Row-major position of (b, y, x) in [16,360,640] is that of (b, 0, y, x) in [16,1,360,640]. -/
theorem idx76_eq (b : Fin 16) (y : Fin 360) (x : Fin 640) :
    idx_main_v76 (ix3 b y x) = ix4 b (0 : Fin 1) y x := by
  have hb := b.isLt
  have hy := y.isLt
  have hx := x.isLt
  funext a
  refine Fin.ext ?_
  match a with
  | ⟨0, _⟩ => show ((b.val * 360 + y.val) * 640 + x.val) / 230400 = b.val; omega
  | ⟨1, _⟩ => rfl
  | ⟨2, _⟩ => show ((b.val * 360 + y.val) * 640 + x.val) / 640 % 360 = y.val; omega
  | ⟨3, _⟩ => show ((b.val * 360 + y.val) * 640 + x.val) % 640 = x.val; omega

end CE

/-- At a pixel whose label is the class `k`, the reference's negated gathered log-softmax is `ceR` of the pixel's
    scores at `k`. -/
theorem ce_eq (x0 : (⟨S16x7x360x640, .f32⟩ : BufTy).Contents (Elt Ideal))
    (x1 : (⟨S16x360x640, .i32⟩ : BufTy).Contents (Elt Ideal)) (b : Fin 16) (y : Fin 360) (x : Fin 640) (k : Fin 7)
    (hk : x1 (ix3 b y x) = BitVec.ofNat 32 k.val) :
    val_main_v77 (F := Ideal) x0 x1 (ix3 b y x) = ceR (scoresOf x0 b y x) k := by
  rw [val_main_v77_apply, val_main_v76_apply, CE.idx76_eq, val_main_v75_apply, CE.c4v12_at x1 b y x k hk, select_one,
    CE.c4v13_at x0 x1 b y x k hk, CE.v73_at]
  rfl

end Cert.BoundaryCE.Ref

end
-- ==== Proof.Algebra.lean ====
/-
  The two spellings of a pixel's cross-entropy are one number when the seven scores are real: with m the maximum
  of the scores and Σ = Σ_c exp (p c − m) (a real ≥ 1, so its logarithm is real), (log Σ + m) − p k and
  −((p k − m) − log Σ) agree in ℝ; the running maximum from −∞ is the fold's maximum, the running sum from 0 the
  finite sum, and of the seven compares of the label word k against 0 … 6 exactly the k-th keeps its score.
-/
import proofs.«401031_j42322607735076_2_alg».proof.Proof.Spec

noncomputable section

namespace Cert.BoundaryCE

open Idealize.ShloMosaic

namespace Alg

/-! ## The two constant words -/

/-- The word 0xFF800000 (sign set, exponent all ones, significand 0) denotes −∞. -/
theorem negInf_eq : negInf = (⊥ : EReal) := by simp [Ideal.ofBits, Ideal.ieee]

/-- The all-zero word denotes 0. -/
theorem zeroF_eq : zeroF = (0 : EReal) := by simp [Ideal.ofBits, Ideal.ieee]

/-! ## The maximum -/

/-- The coercion ℝ → EReal is monotone, so it commutes with max. -/
theorem coe_max' (a b : ℝ) : ((max a b : ℝ) : EReal) = max (a : EReal) (b : EReal) :=
  EReal.coe_strictMono.monotone.map_max

/-- The maximum of seven reals, written as a running maximum. -/
def maxR (r : Fin 7 → ℝ) : ℝ := max (max (max (max (max (max (r 0) (r 1)) (r 2)) (r 3)) (r 4)) (r 5)) (r 6)

/-- Each of the seven reals is at most their maximum. -/
theorem le_maxR (r : Fin 7 → ℝ) (c : Fin 7) : r c ≤ maxR r := by
  fin_cases c <;> simp [maxR, le_max_iff]

/-- The running maximum from −∞ of seven real scores is their real maximum: max ⊥ x = x, and the coercion
    ℝ → EReal commutes with max. -/
theorem mxK_coe (r : Fin 7 → ℝ) : mxK (fun c => (r c : EReal)) = ((maxR r : ℝ) : EReal) := by
  unfold mxK maxR
  rw [negInf_eq, max_eq_right bot_le]
  simp only [coe_max']

/-- The fold's maximum from −∞, capped below by −∞, is the same real maximum: it is an upper bound of the seven
    scores that lies below every upper bound. -/
theorem mxR_coe (r : Fin 7 → ℝ) : mxR (fun c => (r c : EReal)) = ((maxR r : ℝ) : EReal) := by
  unfold mxR
  rw [negInf_eq, max_eq_right bot_le]
  apply le_antisymm
  · rw [Finset.fold_max_le]
    exact ⟨bot_le, fun c _ => EReal.coe_le_coe_iff.2 (le_maxR r c)⟩
  · have h : ∀ c : Fin 7, ((r c : ℝ) : EReal) ≤ (Finset.univ : Finset (Fin 7)).fold max ⊥ (fun c => (r c : EReal)) :=
      fun c => (Finset.le_fold_max _).2 (Or.inr ⟨c, Finset.mem_univ _, le_rfl⟩)
    unfold maxR
    simp only [coe_max']
    exact max_le (max_le (max_le (max_le (max_le (max_le (h 0) (h 1)) (h 2)) (h 3)) (h 4)) (h 5)) (h 6)

/-! ## The sum of exponentials -/

/-- Σ_c exp (r c − m) over the seven classes, m the maximum. -/
def sumR (r : Fin 7 → ℝ) : ℝ := ∑ c : Fin 7, Real.exp (r c - maxR r)

/-- A sum of exponentials is positive. -/
theorem sumR_pos (r : Fin 7 → ℝ) : 0 < sumR r :=
  Finset.sum_pos (fun c _ => Real.exp_pos _) Finset.univ_nonempty

/-- The running sum from 0 of exp (p c − m) is the real sum: every term is the exponential of a real. -/
theorem sumexpK_coe (r : Fin 7 → ℝ) : sumexpK (fun c => (r c : EReal)) = ((sumR r : ℝ) : EReal) := by
  unfold sumexpK sumR
  rw [mxK_coe, zeroF_eq, Fin.sum_univ_seven]
  simp only [← EReal.coe_sub, Ideal.exp_coe, zero_add, ← EReal.coe_add]

/-- 0 plus the finite sum of exp (p c − m) is the same real sum. -/
theorem sumexpR_coe (r : Fin 7 → ℝ) : sumexpR (fun c => (r c : EReal)) = ((sumR r : ℝ) : EReal) := by
  unfold sumexpR sumR
  rw [mxR_coe, zeroF_eq, Fin.sum_univ_seven, Fin.sum_univ_seven]
  simp only [← EReal.coe_sub, Ideal.exp_coe, zero_add, ← EReal.coe_add]

/-- The logarithm of a positive real is the real logarithm. -/
theorem log_coe_pos {s : ℝ} (hs : 0 < s) : Ideal.log (s : EReal) = ((Real.log s : ℝ) : EReal) := by
  rw [Ideal.log_coe, if_neg (not_le.2 hs)]

/-! ## The seven compares -/

/-- A compare of two words keeps the score exactly when the words are equal. -/
theorem selK_eq (t c : BitVec 32) (v : EReal) : selK t c v = if t = c then v else 0 := by
  unfold selK Scalar.select IntOp.cmpi
  rw [zeroF_eq]
  by_cases h : t = c
  · subst h; simp
  · have hb : (t == c) = false := beq_eq_false_iff_ne.2 h
    simp [h, hb]

/-- Of the seven compares of the label word k against 0 … 6 exactly the k-th keeps its score, so the running sum
    from 0 is the score at k. -/
theorem gatheredK_coe (r : Fin 7 → ℝ) (k : Fin 7) :
    gatheredK (fun c => (r c : EReal)) (BitVec.ofNat 32 k.val) = ((r k : ℝ) : EReal) := by
  unfold gatheredK
  rw [zeroF_eq]
  simp only [selK_eq]
  fin_cases k <;> simp

end Alg

/-! ## The identity -/

/-- For real scores and a label `k < 7`, the kernel's spelling of the cross-entropy at the label word `k` is the
    reference's at the class `k`. -/
theorem ceK_eq_ceR (p : Fin 7 → EReal) (hp : ∀ c, ∃ r : ℝ, p c = (r : EReal)) (k : Fin 7) :
    ceK p (BitVec.ofNat 32 k.val) = ceR p k := by
  choose r hr using hp
  obtain rfl : p = fun c => (r c : EReal) := funext hr
  unfold ceK ceR
  rw [Alg.sumexpK_coe, Alg.sumexpR_coe, Alg.mxK_coe, Alg.mxR_coe, Alg.gatheredK_coe, Alg.log_coe_pos (Alg.sumR_pos r)]
  simp only [← EReal.coe_add, ← EReal.coe_sub, ← EReal.coe_neg]
  congr 1
  ring

end Cert.BoundaryCE

end
-- ==== Proof.RefValue.lean ====
/-
  The reference's value. At pixel (b, y, x) the product the reference sums is (minus the log-softmax at the label) ×
  (boundary weight); under the precondition — real scores, labels among the seven classes — that is the kernel's
  spelling `pixK` of the same pixel's scores and label word. The result is 0 plus the sum of these terms over all
  pixels, divided by the pixel count; the sum over the rank-3 index set is written as the triple sum over batch
  element, row and column.
-/
import proofs.«401031_j42322607735076_2_alg».proof.Proof.RefRead
import proofs.«401031_j42322607735076_2_alg».proof.Proof.RefMorph
import proofs.«401031_j42322607735076_2_alg».proof.Proof.RefCE
import proofs.«401031_j42322607735076_2_alg».proof.Proof.Algebra
import proofs.«401031_j42322607735076_2_alg».proof.Proof.LibSumIdx3

noncomputable section

namespace Cert.BoundaryCE.Ref

open Idealize.ShloMosaic Idealize.ShloMosaic.ValueIdx Cert.ReferenceIdeal Cert.ReferenceIdeal.ReadP Cert.BoundaryCE
open Cert.LibSumIdx3

/-- The reference's summand at pixel (b, y, x), under the precondition's two facts, is the kernel's spelling of the
    pixel's term: the cross-entropies agree because the scores are real and the label word is a class, and the weights
    are the same function of the label image. -/
theorem v79_eq (x0 : (⟨S16x7x360x640, .f32⟩ : BufTy).Contents (Elt Ideal))
    (x1 : (⟨S16x360x640, .i32⟩ : BufTy).Contents (Elt Ideal))
    (hp : ∀ i, ∃ r : ℝ, x0 i = (r : EReal)) (hk : ∀ i, ∃ k : Fin 7, x1 i = BitVec.ofNat 32 k.val)
    (b : Fin 16) (y : Fin 360) (x : Fin 640) :
    val_main_v79 (F := Ideal) x0 x1 (ix3 b y x)
      = pixK (scoresOf x0 b y x) (x1 (ix3 b y x)) (labOf x1 b) y.val x.val := by
  obtain ⟨k, hk'⟩ := hk (ix3 b y x)
  rw [val_main_v79_apply, val_main_v78_apply, ce_eq x0 x1 b y x k hk', weight_eq x1 b y x]
  unfold pixK
  rw [hk', ceK_eq_ceR (scoresOf x0 b y x) (fun c => hp _) k]
  rfl

/-- The reference's result: 0 plus the sum over all pixels of the pixel terms, divided by the pixel count. -/
theorem v81_eq (x0 : (⟨S16x7x360x640, .f32⟩ : BufTy).Contents (Elt Ideal))
    (x1 : (⟨S16x360x640, .i32⟩ : BufTy).Contents (Elt Ideal))
    (hp : ∀ i, ∃ r : ℝ, x0 i = (r : EReal)) (hk : ∀ i, ∃ k : Fin 7, x1 i = BitVec.ofNat 32 k.val) :
    val_main_v81 (F := Ideal) x0 x1
      = fun _ => Ideal.div (zeroF + ∑ b : Fin 16, ∑ y : Fin 360, ∑ x : Fin 640,
          pixK (scoresOf x0 b y x) (x1 (ix3 b y x)) (labOf x1 b) y.val x.val) countF := by
  funext i
  rw [val_main_v81_apply, val_main_v80_apply, sum_idx3]
  simp only [v79_eq x0 x1 hp hk]
  rfl

end Cert.BoundaryCE.Ref

end
-- ==== Proof.lean ====
/-
  The certificate's claims.

  Both programs compute the boundary-weighted mean cross-entropy of a batch of 16 score images (7 classes, 360 × 640
  pixels) against integer label images: a pixel weighs 10 where the morphological gradient of the label image under
  the 5 × 5 ellipse (17 positions; the border padded with ∓10⁹) is positive and 1 elsewhere, its cross-entropy is
  log Σ_c exp (p c − m) + m − p_label with m the maximum score, and the result is the sum of weight × cross-entropy over
  all pixels divided by 16 · 360 · 640.

  The kernel computes, per batch element, the sum over that element's pixels in one grid step and leaves the sixteen
  sums in a [16,1,1] array that two host operations add up and divide; the reference computes the weight image and the
  gathered log-softmax over the whole batch and takes the mean. The two agree pixel by pixel — the 17 maxima and minima
  are the same in any order; the two spellings of the cross-entropy are one real number when the scores are finite and
  the label is one of the classes 0 … 6 (the precondition: outside that range the reference's gather wraps or fills) —
  and a finite sum of extended reals may be regrouped, so the results are equal.

  The three frames: each program runs to completion leaving its arguments unchanged (the kernel's from the frame of its
  one pallas_call and its host tail; the reference's from its straight-line run). The idealization rewrote no
  operation, so there is nothing to preserve.
-/
import proofs.«401031_j42322607735076_2_alg».proof.Defs
import proofs.«401031_j42322607735076_2_alg».proof.Proof.Gen.Kernel
import proofs.«401031_j42322607735076_2_alg».proof.Proof.Gen.Kernel.Skeleton
import proofs.«401031_j42322607735076_2_alg».proof.Proof.Gen.Kernel.Launch
import proofs.«401031_j42322607735076_2_alg».proof.Proof.Gen.Kernel.Points
import proofs.«401031_j42322607735076_2_alg».proof.Proof.Gen.Kernel.Frame
import proofs.«401031_j42322607735076_2_alg».proof.Proof.Gen.KernelIdeal
import proofs.«401031_j42322607735076_2_alg».proof.Proof.Gen.KernelIdeal.Skeleton
import proofs.«401031_j42322607735076_2_alg».proof.Proof.Gen.KernelIdeal.Launch
import proofs.«401031_j42322607735076_2_alg».proof.Proof.Gen.KernelIdeal.Points
import proofs.«401031_j42322607735076_2_alg».proof.Proof.Gen.KernelIdeal.Frame
import proofs.«401031_j42322607735076_2_alg».proof.Proof.Gen.ReferenceIdeal
import proofs.«401031_j42322607735076_2_alg».proof.Proof.Gen.Pre_finite_inputs
import proofs.«401031_j42322607735076_2_alg».proof.Proof.PreDecode
import proofs.«401031_j42322607735076_2_alg».proof.Proof.KerValue
import proofs.«401031_j42322607735076_2_alg».proof.Proof.RefRun
import proofs.«401031_j42322607735076_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the frame of its one pallas_call and host tail. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The reference runs and keeps its arguments: its straight-line run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories agreeing on the arguments, under the precondition, both programs end with the same number: the
    kernel's run leaves (0 + Σ_b Σ_y Σ_x pixel term) / count in its result, the reference's run leaves its last stage
    function of the arguments, and that stage function is the same expression because every pixel's two terms agree. -/
theorem algebraic : Cert.algebraic_KernelIdeal_ReferenceIdeal := by
  intro m ρ m' ρ' hpre hagree
  refine ⟨fun c => fun _ => Cert.BoundaryCE.Ker.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.BoundaryCE.Ker.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2]
  obtain ⟨hp, hk⟩ := Cert.BoundaryCE.of_pre _ _ (hpre c)
  rw [Cert.BoundaryCE.Ref.v81_eq _ _ hp hk]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
